-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![256, 256]⟩ ⟨2, ![512, 512]⟩ (Layout.meshBlock [2, 2] ![[0], [1]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![256, 256]⟩ ⟨2, ![512, 512]⟩ (Layout.meshBlock [2, 2] ![[0], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v22) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S256x256 : Shape := ⟨2, ![256, 256]⟩
abbrev S_ : Shape := ⟨0, ![]⟩

class Facts : Prop where
  bcast_S_S256x256 : S_.BroadcastsInDim S256x256 (![] : Fin 0 → Fin S256x256.rank)
  reducesTo_S256x256_S_d0_1 : S256x256.ReducesTo [0, 1] S_
  h_S_ : 0 < S_.numel

variable [Facts]

def fn {F : FTy → Type} [FloatOps F] (main_arg0 : FVec F S256x256 .f32) : IVec S_ 1 :=
  let main_v0 : FVec F S256x256 .f32 := Host.absf main_arg0
  let main_cst : FVec F S_ .f32 := constant S_ .f32 0x7F800000#32
  let main_v1 : FVec F S256x256 .f32 := broadcastInDim S256x256 ![] bcast_S_S256x256 main_cst
  let main_v2 : IVec S256x256 1 := cmpf .olt main_v0 main_v1
  let main_c : IVec S_ 1 := constantI S_ 1 1#1
  let main_v3 : IVec S_ 1 := (fun x v => Host.reduce IntOp.andi x v reducesTo_S256x256_S_d0_1 h_S_) main_v2 main_c
  main_v3
-- ==== Pre_finite_inputs_ReferenceIdeal.lean ====
abbrev S512x512 : Shape := ⟨2, ![512, 512]⟩
abbrev S_ : Shape := ⟨0, ![]⟩

class Facts : Prop where
  bcast_S_S512x512 : S_.BroadcastsInDim S512x512 (![] : Fin 0 → Fin S512x512.rank)
  reducesTo_S512x512_S_d0_1 : S512x512.ReducesTo [0, 1] S_
  h_S_ : 0 < S_.numel

variable [Facts]

def fn {F : FTy → Type} [FloatOps F] (main_arg0 : FVec F S512x512 .f32) : IVec S_ 1 :=
  let main_v0 : FVec F S512x512 .f32 := Host.absf main_arg0
  let main_cst : FVec F S_ .f32 := constant S_ .f32 0x7F800000#32
  let main_v1 : FVec F S512x512 .f32 := broadcastInDim S512x512 ![] bcast_S_S512x512 main_cst
  let main_v2 : IVec S512x512 1 := cmpf .olt main_v0 main_v1
  let main_c : IVec S_ 1 := constantI S_ 1 1#1
  let main_v3 : IVec S_ 1 := (fun x v => Host.reduce IntOp.andi x v reducesTo_S512x512_S_d0_1 h_S_) main_v2 main_c
  main_v3
-- ==== Kernel.lean ====
abbrev S256x256 : Shape := ⟨2, ![256, 256]⟩
abbrev S1x256 : Shape := ⟨2, ![1, 256]⟩
abbrev S_ : Shape := ⟨0, ![]⟩
abbrev S256x1 : Shape := ⟨2, ![256, 1]⟩
abbrev S255x256 : Shape := ⟨2, ![255, 256]⟩
abbrev S256x255 : Shape := ⟨2, ![256, 255]⟩
abbrev S1x1 : Shape := ⟨2, ![1, 1]⟩
abbrev S1x255 : Shape := ⟨2, ![1, 255]⟩
abbrev S255x1 : Shape := ⟨2, ![255, 1]⟩

abbrev nBuf : Space → Nat
  | .hbm => 2
  | .vmem => 6
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .local _ .vmem, ⟨0, _⟩ => ⟨S256x256, .f32⟩
  | .local _ .vmem, ⟨1, _⟩ => ⟨S256x256, .f32⟩
  | .local _ .vmem, ⟨2, _⟩ => ⟨S1x256, .f32⟩
  | .local _ .vmem, ⟨3, _⟩ => ⟨S1x256, .f32⟩
  | .local _ .vmem, ⟨4, _⟩ => ⟨S1x256, .f32⟩
  | .local _ .vmem, ⟨5, _⟩ => ⟨S1x256, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  (ofTc nBuf bufTy 1 6 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_2 v2
  let c2_i32_4 : BitVec 32 := 2#32
  let v8 : BitVec 32 := Scalar.muli v7 c2_i32_4
  let v9 : BitVec 32 := Scalar.addi c0_i32 v8
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_5 : BitVec 32 := 1#32
  let v10 : BitVec 32 := Scalar.muli v5 c1_i32_5
  let v11 : BitVec 32 := Scalar.addi v9 v10
  v11.toNat
def k0_dev2 (d0 : Dev nD) : Nat :=
  let c0_i32_9 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_8 : BitVec 32 := 2#32
  let v13 : BitVec 32 := Scalar.muli v2 c2_i32_8
  let v14 : BitVec 32 := Scalar.addi c0_i32_9 v13
  let c1_i32_6 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v12 : BitVec 32 := Scalar.subi c1_i32_6 v5
  let c1_i32_10 : BitVec 32 := 1#32
  let v15 : BitVec 32 := Scalar.muli v12 c1_i32_10
  let v16 : BitVec 32 := Scalar.addi v14 v15
  v16.toNat
def k0_dev3 (d0 : Dev nD) : Nat :=
  let c0_i32_23 : BitVec 32 := 0#32
  let c1_i32_20 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v29 : BitVec 32 := Scalar.subi c1_i32_20 v2
  let c2_i32_22 : BitVec 32 := 2#32
  let v31 : BitVec 32 := Scalar.muli v29 c2_i32_22
  let v32 : BitVec 32 := Scalar.addi c0_i32_23 v31
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_24 : BitVec 32 := 1#32
  let v33 : BitVec 32 := Scalar.muli v5 c1_i32_24
  let v34 : BitVec 32 := Scalar.addi v32 v33
  v34.toNat
def k0_dev4 (d0 : Dev nD) : Nat :=
  let c0_i32_26 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_25 : BitVec 32 := 2#32
  let v35 : BitVec 32 := Scalar.muli v2 c2_i32_25
  let v36 : BitVec 32 := Scalar.addi c0_i32_26 v35
  let c1_i32_21 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v30 : BitVec 32 := Scalar.subi c1_i32_21 v5
  let c1_i32_27 : BitVec 32 := 1#32
  let v37 : BitVec 32 := Scalar.muli v30 c1_i32_27
  let v38 : BitVec 32 := Scalar.addi v36 v37
  v38.toNat
abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  inb_S256x256_S1x256_255_0 : ∀ a, (![255, 0] : Fin 2 → Nat) a + S1x256.size a ≤ S256x256.size a
  h_S1x256 : 0 < S1x256.numel
  shapeCasts_S1x256_S1x256 : S1x256.ShapeCasts S1x256
  inb_S1x256_S1x256_0_0 : ∀ a, (![0, 0] : Fin 2 → Nat) a + S1x256.size a ≤ S1x256.size a
  inb_S256x256_S1x256_0_0 : ∀ a, (![0, 0] : Fin 2 → Nat) a + S1x256.size a ≤ S256x256.size a
  inb_S256x256_S256x1_0_255 : ∀ a, (![0, 255] : Fin 2 → Nat) a + S256x1.size a ≤ S256x256.size a
  h_S256x1 : 0 < S256x1.numel
  shapeCasts_S256x1_S256x1 : S256x1.ShapeCasts S256x1
  transposes_S256x1_p1_0_S1x256 : S256x1.Transposes [1, 0] S1x256
  inb_S256x256_S256x1_0_0 : ∀ a, (![0, 0] : Fin 2 → Nat) a + S256x1.size a ≤ S256x256.size a
  hamt_2 : (2#32 : BitVec 32).msb = false
  inb_S256x256_S256x256_0_0 : ∀ a, (![0, 0] : Fin 2 → Nat) a + S256x256.size a ≤ S256x256.size a
  h_S256x256 : 0 < S256x256.numel
  shapeCasts_S256x256_S256x256 : S256x256.ShapeCasts S256x256
  slices_S256x256_o0_0_S1x256 : S256x256.Slices ![0, 0] S1x256
  slices_S256x256_o0_0_S255x256 : S256x256.Slices ![0, 0] S255x256
  concatenates_S1x256_S255x256_S256x256_d0 : Shape.Concatenates [S1x256, S255x256] S256x256 0
  slices_S256x256_o1_0_S255x256 : S256x256.Slices ![1, 0] S255x256
  slices_S256x256_o255_0_S1x256 : S256x256.Slices ![255, 0] S1x256
  concatenates_S255x256_S1x256_S256x256_d0 : Shape.Concatenates [S255x256, S1x256] S256x256 0
  slices_S256x256_o0_0_S256x1 : S256x256.Slices ![0, 0] S256x1
  slices_S256x256_o0_0_S256x255 : S256x256.Slices ![0, 0] S256x255
  concatenates_S256x1_S256x255_S256x256_d1 : Shape.Concatenates [S256x1, S256x255] S256x256 1
  slices_S256x256_o0_1_S256x255 : S256x256.Slices ![0, 1] S256x255
  slices_S256x256_o0_255_S256x1 : S256x256.Slices ![0, 255] S256x1
  concatenates_S256x255_S256x1_S256x256_d1 : Shape.Concatenates [S256x255, S256x1] S256x256 1
  transposes_S1x256_p1_0_S256x1 : S1x256.Transposes [1, 0] S256x1
  inb_S256x256_S1x256_254_0 : ∀ a, (![254, 0] : Fin 2 → Nat) a + S1x256.size a ≤ S256x256.size a
  inb_S1x256_S1x1_0_255 : ∀ a, (![0, 255] : Fin 2 → Nat) a + S1x1.size a ≤ S1x256.size a
  h_S1x1 : 0 < S1x1.numel
  slices_S1x256_o0_0_S1x255 : S1x256.Slices ![0, 0] S1x255
  concatenates_S1x1_S1x255_S1x256_d1 : Shape.Concatenates [S1x1, S1x255] S1x256 1
  slices_S1x256_o0_1_S1x255 : S1x256.Slices ![0, 1] S1x255
  concatenates_S1x255_S1x1_S1x256_d1 : Shape.Concatenates [S1x255, S1x1] S1x256 1
  inb_S256x256_S1x256_1_0 : ∀ a, (![1, 0] : Fin 2 → Nat) a + S1x256.size a ≤ S256x256.size a
  inb_S1x256_S1x1_0_0 : ∀ a, (![0, 0] : Fin 2 → Nat) a + S1x1.size a ≤ S1x256.size a
  inb_S256x256_S256x1_0_254 : ∀ a, (![0, 254] : Fin 2 → Nat) a + S256x1.size a ≤ S256x256.size a
  slices_S256x1_o0_0_S255x1 : S256x1.Slices ![0, 0] S255x1
  concatenates_S1x1_S255x1_S256x1_d0 : Shape.Concatenates [S1x1, S255x1] S256x1 0
  slices_S256x1_o1_0_S255x1 : S256x1.Slices ![1, 0] S255x1
  concatenates_S255x1_S1x1_S256x1_d0 : Shape.Concatenates [S255x1, S1x1] S256x1 0
  inb_S256x256_S256x1_0_1 : ∀ a, (![0, 1] : Fin 2 → Nat) a + S256x1.size a ≤ S256x256.size a
  hcc0_scratch4 : 2 + S_.numel ≤ 6
  hcc0_scratch5 : 3 + S_.numel ≤ 6
  hcc0_scratch6 : 4 + S_.numel ≤ 6
  hcc0_scratch7 : 5 + S_.numel ≤ 6
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  hstage0_0 : ∀ j, (stage0_0 j).IsWhole
  hstage0_1 : ∀ j, (stage0_1 j).IsWhole

variable [Facts₀]

abbrev cc0_scratch4 : DmaSems sig S_ := SemArray.consecutive 2 S_ hcc0_scratch4
abbrev cc0_scratch5 : DmaSems sig S_ := SemArray.consecutive 3 S_ hcc0_scratch5
abbrev cc0_scratch6 : DmaSems sig S_ := SemArray.consecutive 4 S_ hcc0_scratch6
abbrev cc0_scratch7 : DmaSems sig S_ := SemArray.consecutive 5 S_ hcc0_scratch7

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S512x512 : Shape := ⟨2, ![512, 512]⟩
abbrev S510x510 : Shape := ⟨2, ![510, 510]⟩
abbrev S_ : Shape := ⟨0, ![]⟩
abbrev S1 : Shape := ⟨1, ![1]⟩
abbrev S2 : Shape := ⟨1, ![2]⟩

abbrev nBuf : Space → Nat
  | .hbm => 31
  | .vmem => 0
  | .smem => 0
  | _ => 0

abbrev bufTy : (tb : Table) → Fin (tcTables nBuf tb) → BufTy
  | .hbm, ⟨0, _⟩ => ⟨S512x512, .f32⟩
  | .hbm, ⟨1, _⟩ => ⟨S510x510, .f32⟩
  | .hbm, ⟨2, _⟩ => ⟨S_, .f32⟩
  | .hbm, ⟨3, _⟩ => ⟨S510x510, .f32⟩
  | .hbm, ⟨4, _⟩ => ⟨S510x510, .f32⟩
  | .hbm, ⟨5, _⟩ => ⟨S510x510, .f32⟩
  | .hbm, ⟨6, _⟩ => ⟨S_, .f32⟩
  | .hbm, ⟨7, _⟩ => ⟨S510x510, .f32⟩
  | .hbm, ⟨8, _⟩ => ⟨S510x510, .f32⟩
  | .hbm, ⟨9, _⟩ => ⟨S510x510, .f32⟩
  | .hbm, ⟨10, _⟩ => ⟨S510x510, .f32⟩
  | .hbm, ⟨11, _⟩ => ⟨S_, .f32⟩
  | .hbm, ⟨12, _⟩ => ⟨S510x510, .f32⟩
  | .hbm, ⟨13, _⟩ => ⟨S510x510, .f32⟩
  | .hbm, ⟨14, _⟩ => ⟨S510x510, .f32⟩
  | .hbm, ⟨15, _⟩ => ⟨S510x510, .f32⟩
  | .hbm, ⟨16, _⟩ => ⟨S_, .f32⟩
  | .hbm, ⟨17, _⟩ => ⟨S510x510, .f32⟩
  | .hbm, ⟨18, _⟩ => ⟨S510x510, .f32⟩
  | .hbm, ⟨19, _⟩ => ⟨S510x510, .f32⟩
  | .hbm, ⟨20, _⟩ => ⟨S510x510, .f32⟩
  | .hbm, ⟨21, _⟩ => ⟨S_, .f32⟩
  | .hbm, ⟨22, _⟩ => ⟨S510x510, .f32⟩
  | .hbm, ⟨23, _⟩ => ⟨S510x510, .f32⟩
  | .hbm, ⟨24, _⟩ => ⟨S510x510, .f32⟩
  | .hbm, ⟨25, _⟩ => ⟨S_, .i32⟩
  | .hbm, ⟨26, _⟩ => ⟨S1, .i32⟩
  | .hbm, ⟨27, _⟩ => ⟨S_, .i32⟩
  | .hbm, ⟨28, _⟩ => ⟨S1, .i32⟩
  | .hbm, ⟨29, _⟩ => ⟨S2, .i32⟩
  | .hbm, ⟨30, _⟩ => ⟨S512x512, .f32⟩
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_1 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_2 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_3 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c : Ref sig .tc := ⟨.hbm, 25, rfl⟩
abbrev main_v19 : Ref sig .tc := ⟨.hbm, 26, rfl⟩
abbrev main_c_4 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]

class Facts₀ : Prop where
  slices_S512x512_S510x510_1_1 : S512x512.Slices ![1, 1] S510x510
  bcast_S_S510x510 : S_.BroadcastsInDim S510x510 (![] : Fin 0 → Fin S510x510.rank)
  slices_S512x512_S510x510_0_1 : S512x512.Slices ![0, 1] S510x510
  slices_S512x512_S510x510_2_1 : S512x512.Slices ![2, 1] S510x510
  slices_S512x512_S510x510_1_0 : S512x512.Slices ![1, 0] S510x510
  slices_S512x512_S510x510_1_2 : S512x512.Slices ![1, 2] S510x510
  bcast_S_S1 : S_.BroadcastsInDim S1 (![] : Fin 0 → Fin S1.rank)
  concatenates_S1_S1_S2_d0 : Shape.Concatenates [S1, S1] S2 0
  scatter_S512x512_S2_S510x510_01_n_01_0_wf : ScatterDims.WF S512x512 S2 S510x510 [0, 1] [] [0, 1] 0

variable [Facts₀]

def scatter_S512x512_S2_S510x510_01_n_01_0 : ScatterDims S512x512 S2 S510x510 where
  updateWindowDims := [0, 1]
  insertedWindowDims := []
  scatterDimsToOperandDims := [0, 1]
  indexVectorDim := 0
  wf := scatter_S512x512_S2_S510x510_01_n_01_0_wf

class Facts : Prop extends Facts₀ where

variable [Facts]
-- ==== Proof.HaloProto.lean ====
/-
  The halo exchange of the five-point stencil on the 2 × 2 mesh: the devices, the cells of its protocol and what each
  landing hands over, what every device owes at launch, the levels, and the data the pipeline's rule is applied with.

  Device `c` sits at mesh position (c / 2, c % 2). Its ROW peer is the device across the horizontal cut (c ± 2), its
  COLUMN peer the one across the vertical cut (c ± 1). At entry it signals both peers' barrier semaphores and waits for
  two units on its own: both peers are then inside the kernel, and each has handed over the halo buffer the transfer
  addressed to it will fill. It copies its boundary row (its last row if it is in the top half, its first otherwise)
  from the row staging buffer into the row peer's row halo, and its boundary column (transposed to a row) from the
  column staging buffer into the column peer's column halo; it waits for its two sends and its two receives.
  One round: the barrier cell has two unit duties (`false` paid by the row peer, `true` by the column peer); each of
  the four transfer cells one duty of a halo's credit. A receive's payload is the halo buffer holding the sender's
  staged row; a send's payload the staging buffer back.
-/
import proofs.«900193_g7700000000000194_dist_halo2d_stencil_xy_m256_n256_v7x_xy2x2_f32_1_alg».proof.Proof.Gen.KernelIdeal
import proofs.«900193_g7700000000000194_dist_halo2d_stencil_xy_m256_n256_v7x_xy2x2_f32_1_alg».proof.Proof.Gen.KernelIdeal.Skeleton
import proofs.«900193_g7700000000000194_dist_halo2d_stencil_xy_m256_n256_v7x_xy2x2_f32_1_alg».proof.Proof.Gen.KernelIdeal.Launch
import proofs.«900193_g7700000000000194_dist_halo2d_stencil_xy_m256_n256_v7x_xy2x2_f32_1_alg».proof.Proof.Gen.KernelIdeal.Points
import Idealize.ShloMosaic.Lib.Pipeline.Launch
import Idealize.ShloMosaic.Lib.Pipeline.Kit
import Idealize.ShloMosaic.Lib.Tactic

noncomputable section

namespace Cert.KernelIdeal.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy (duties `Unit`) beside the exchange's (duties `Bool`) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The mesh -/

/-- The device across the horizontal cut: the same column of the mesh, the other row. -/
def rowPeer (c : Dev nD) : Dev nD := ⟨((c.val % 2) + 2) - 2 * (c.val / 2), by revert c; decide⟩
/-- The device across the vertical cut: the same row of the mesh, the other column. -/
def colPeer (c : Dev nD) : Dev nD := ⟨(2 * (c.val / 2) + 1) - (c.val % 2), by revert c; decide⟩

theorem rowPeer_rowPeer (c : Dev nD) : rowPeer (rowPeer c) = c := by revert c; decide
theorem colPeer_colPeer (c : Dev nD) : colPeer (colPeer c) = c := by revert c; decide
theorem rowPeer_ne_colPeer (c : Dev nD) : rowPeer c ≠ colPeer c := by revert c; decide
theorem rowPeer_ne (c : Dev nD) : rowPeer c ≠ c := by revert c; decide
theorem colPeer_ne (c : Dev nD) : colPeer c ≠ c := by revert c; decide
/-- Crossing the horizontal cut changes the row of the mesh and keeps the column; the vertical cut the other way. -/
theorem rowPeer_row (c : Dev nD) : (rowPeer c).val / 2 = 1 - c.val / 2 := by revert c; decide
theorem rowPeer_col (c : Dev nD) : (rowPeer c).val % 2 = c.val % 2 := by revert c; decide
theorem colPeer_row (c : Dev nD) : (colPeer c).val / 2 = c.val / 2 := by revert c; decide
theorem colPeer_col (c : Dev nD) : (colPeer c).val % 2 = 1 - c.val % 2 := by revert c; decide

/-- The kernel's device chains: both signals and both transfers name the two peers. -/
theorem dev1_eq (c : Dev nD) : (⟨k0_dev1 c, k0_dev1_lt c⟩ : Dev nD) = rowPeer c := Fin.ext (k0_dev1_eq c)
theorem dev2_eq (c : Dev nD) : (⟨k0_dev2 c, k0_dev2_lt c⟩ : Dev nD) = colPeer c := Fin.ext (k0_dev2_eq c)
theorem dev3_eq (c : Dev nD) : (⟨k0_dev3 c, k0_dev3_lt c⟩ : Dev nD) = rowPeer c := Fin.ext (k0_dev3_eq c)
theorem dev4_eq (c : Dev nD) : (⟨k0_dev4 c, k0_dev4_lt c⟩ : Dev nD) = colPeer c := Fin.ext (k0_dev4_eq c)

def rowSwap : Dev nD ≃ Dev nD := ⟨rowPeer, rowPeer, rowPeer_rowPeer, rowPeer_rowPeer⟩
def colSwap : Dev nD ≃ Dev nD := ⟨colPeer, colPeer, colPeer_colPeer, colPeer_colPeer⟩

/-! ## The memrefs and cells -/

abbrev xM : Memref sig .tc .vmem S256x256 .f32 := Memref.whole cc0_stg0_0
abbrev oM : Memref sig .tc .vmem S256x256 .f32 := Memref.whole cc0_stg1_0
/-- The row halo and the column halo (landing buffers), the row and column staging buffers (sources). -/
abbrev rhM : Memref sig .tc .vmem S1x256 .f32 := Memref.whole cc0_scratch0
abbrev chM : Memref sig .tc .vmem S1x256 .f32 := Memref.whole cc0_scratch1
abbrev rsM : Memref sig .tc .vmem S1x256 .f32 := Memref.whole cc0_scratch2
abbrev csM : Memref sig .tc .vmem S1x256 .f32 := Memref.whole cc0_scratch3

/-- The runtime's barrier semaphore of collective id 0 (unscoped); the four DMA semaphores (scoped scratch). -/
abbrev barS : Sem sig := (SemArray.scalar (sig.barrier 0 rfl) : Sems sig S_).sem
abbrev rsendS : DmaSems sig S_ := cc0_scratch4
abbrev rrecvS : DmaSems sig S_ := cc0_scratch5
abbrev csendS : DmaSems sig S_ := cc0_scratch6
abbrev crecvS : DmaSems sig S_ := cc0_scratch7

abbrev barCell (c : Dev nD) : GSem nD τ sig := ((c : Thread nD τ), .reg barS)
abbrev rsendCell (c : Dev nD) : GSem nD τ sig := ((c : Thread nD τ), .dma rsendS.sem)
abbrev rrecvCell (c : Dev nD) : GSem nD τ sig := ((c : Thread nD τ), .dma rrecvS.sem)
abbrev csendCell (c : Dev nD) : GSem nD τ sig := ((c : Thread nD τ), .dma csendS.sem)
abbrev crecvCell (c : Dev nD) : GSem nD τ sig := ((c : Thread nD τ), .dma crecvS.sem)

/-- The kernel's OWN (scoped) semaphores, as the launch rule indexes them; -/
abbrev osem : Fin 4 → SemLoc sig := fun | 0 => .dma rsendS.sem | 1 => .dma rrecvS.sem | 2 => .dma csendS.sem | 3 => .dma crecvS.sem
/-- all five of the exchange's: barrier, row send, row receive, column send, column receive. -/
abbrev csem : Fin 5 → SemLoc sig := fun | 0 => .reg barS | 1 => .dma rsendS.sem | 2 => .dma rrecvS.sem | 3 => .dma csendS.sem | 4 => .dma crecvS.sem
abbrev kcell (ck : Dev nD × Fin 5) : GSem nD τ sig := ((ck.1 : Thread nD τ), csem ck.2)

/-- A halo's credit: the units a transfer of one 1 × 256 row is worth. -/
abbrev N : ℕ := (rhM : Memref sig .tc .vmem S1x256 .f32).view.dmaCredit
theorem N_pos : 0 < N := View.dmaCredit_pos _ (by decide)

/-! ## Contents -/

abbrev XC : Type := (cc0_stg0_0 : Ref sig .tc).ty.Contents (Elt F)
abbrev VC : Type := (cc0_scratch0 : Ref sig .tc).ty.Contents (Elt F)

/-- The rectangles the body reads and writes: the whole block, a row, a column, a whole halo, an entry of a halo. -/
abbrev rFull : Rect S256x256 := Rect.unit (s := S256x256) ![0, 0] S256x256.size inb_S256x256_S256x256_0_0
abbrev rRow0 : Rect S256x256 := Rect.unit (s := S256x256) ![0, 0] S1x256.size inb_S256x256_S1x256_0_0
abbrev rRow1 : Rect S256x256 := Rect.unit (s := S256x256) ![1, 0] S1x256.size inb_S256x256_S1x256_1_0
abbrev rRow254 : Rect S256x256 := Rect.unit (s := S256x256) ![254, 0] S1x256.size inb_S256x256_S1x256_254_0
abbrev rRow255 : Rect S256x256 := Rect.unit (s := S256x256) ![255, 0] S1x256.size inb_S256x256_S1x256_255_0
abbrev rCol0 : Rect S256x256 := Rect.unit (s := S256x256) ![0, 0] S256x1.size inb_S256x256_S256x1_0_0
abbrev rCol1 : Rect S256x256 := Rect.unit (s := S256x256) ![0, 1] S256x1.size inb_S256x256_S256x1_0_1
abbrev rCol254 : Rect S256x256 := Rect.unit (s := S256x256) ![0, 254] S256x1.size inb_S256x256_S256x1_0_254
abbrev rCol255 : Rect S256x256 := Rect.unit (s := S256x256) ![0, 255] S256x1.size inb_S256x256_S256x1_0_255
abbrev rVec : Rect S1x256 := Rect.unit (s := S1x256) ![0, 0] S1x256.size inb_S1x256_S1x256_0_0
abbrev rPt0 : Rect S1x256 := Rect.unit (s := S1x256) ![0, 0] S1x1.size inb_S1x256_S1x1_0_0
abbrev rPt255 : Rect S1x256 := Rect.unit (s := S1x256) ![0, 255] S1x1.size inb_S1x256_S1x1_0_255

/-- Device `c`'s block of `x`, as the pipeline stages it. -/
def xstg (c : Dev nD) : XC (F := F) :=
  (win0_0.blk (0 : Fin 1)).view.read (Elt F) ((s₀ m ρ).mem ((c : Thread nD τ).loc main_arg0))

/-- What device `c` stages for its row peer: its last row in the top half of the mesh, its first row in the bottom half. -/
def rowStg (c : Dev nD) : VC (F := F) :=
  if c.val / 2 = 0 then k0_pay2 ((xM : Memref sig .tc .vmem S256x256 .f32).view.readAt (Elt F) rRow255.toLoadRect (xstg m ρ c))
  else k0_pay3 ((xM : Memref sig .tc .vmem S256x256 .f32).view.readAt (Elt F) rRow0.toLoadRect (xstg m ρ c))
/-- What it stages for its column peer: its last column in the left half, its first in the right half, as a row. -/
def colStg (c : Dev nD) : VC (F := F) :=
  if c.val % 2 = 0 then k0_pay4 ((xM : Memref sig .tc .vmem S256x256 .f32).view.readAt (Elt F) rCol255.toLoadRect (xstg m ρ c))
  else k0_pay5 ((xM : Memref sig .tc .vmem S256x256 .f32).view.readAt (Elt F) rCol0.toLoadRect (xstg m ρ c))

/-- What lands in device `c`'s halos: its peers' staged rows. -/
def rowLanded (c : Dev nD) : VC (F := F) := rowStg m ρ (rowPeer c)
def colLanded (c : Dev nD) : VC (F := F) := colStg m ρ (colPeer c)

/-- Reading the block, a halo. -/
abbrev xld (r : Rect S256x256) (f : XC (F := F)) := (xM : Memref sig .tc .vmem S256x256 .f32).view.readAt (Elt F) r.toLoadRect f
abbrev rhld (r : Rect S1x256) (f : VC (F := F)) := (rhM : Memref sig .tc .vmem S1x256 .f32).view.readAt (Elt F) r.toLoadRect f
abbrev chld (r : Rect S1x256) (f : VC (F := F)) := (chM : Memref sig .tc .vmem S1x256 .f32).view.readAt (Elt F) r.toLoadRect f

/-- What the body leaves in the result's staging buffer on device `c`: the plain update of the whole block (its rim rows
    and columns taking the block's own edge as the missing neighbour), then the row next to the row peer patched with
    the row halo, the column next to the column peer patched with the column halo (the corner they share is written
    twice, the second time with both halos), then the two rim lines of the WHOLE array copied from `x`. -/
def outAt (c : Dev nD) : XC (F := F) :=
  let x := xstg m ρ c
  let rh := rowLanded m ρ c
  let ch := colLanded m ρ c
  let o1 : XC (F := F) := k0_pay6 (xld rFull x)
  let o2 : XC (F := F) :=
    if c.val / 2 = 0 then
      ((oM : Memref sig .tc .vmem S256x256 .f32).access rRow255 : View sig .tc _ _ _).write (Elt F) o1
        (k0_pay8 (xld rRow254 x) (rhld rVec rh) (xld rRow255 x) (chld rPt255 ch)) Finset.univ
    else
      ((oM : Memref sig .tc .vmem S256x256 .f32).access rRow0 : View sig .tc _ _ _).write (Elt F) o1
        (k0_pay9 (rhld rVec rh) (xld rRow1 x) (xld rRow0 x) (chld rPt0 ch)) Finset.univ
  let o3 : XC (F := F) :=
    if c.val % 2 = 0 then
      ((oM : Memref sig .tc .vmem S256x256 .f32).access rCol255 : View sig .tc _ _ _).write (Elt F) o2
        (k0_pay10 (chld rVec ch) (xld rCol254 x) (xld rCol255 x) (rhld rPt255 rh)) Finset.univ
    else
      ((oM : Memref sig .tc .vmem S256x256 .f32).access rCol0 : View sig .tc _ _ _).write (Elt F) o2
        (k0_pay11 (chld rVec ch) (xld rCol1 x) (xld rCol0 x) (rhld rPt0 rh)) Finset.univ
  let o4 : XC (F := F) :=
    if c.val / 2 = 0 then
      ((oM : Memref sig .tc .vmem S256x256 .f32).access rRow0 : View sig .tc _ _ _).write (Elt F) o3 (k0_pay12 (xld rRow0 x)) Finset.univ
    else
      ((oM : Memref sig .tc .vmem S256x256 .f32).access rRow255 : View sig .tc _ _ _).write (Elt F) o3 (k0_pay13 (xld rRow255 x)) Finset.univ
  if c.val % 2 = 0 then
    ((oM : Memref sig .tc .vmem S256x256 .f32).access rCol0 : View sig .tc _ _ _).write (Elt F) o4 (k0_pay14 (xld rCol0 x)) Finset.univ
  else
    ((oM : Memref sig .tc .vmem S256x256 .f32).access rCol255 : View sig .tc _ _ _).write (Elt F) o4 (k0_pay1 (xld rCol255 x)) Finset.univ

/-! ## The scratch buffers as points-to facts -/

def rhPts (c : Dev nD) (f : Buf (Elt F) ((rhM : Memref sig .tc .vmem S1x256 .f32).view.loc (c : Thread nD τ))) : sProp 𝕄 :=
  (rhM : Memref sig .tc .vmem S1x256 .f32).view.loc (c : Thread nD τ) ↦[(rhM : Memref sig .tc .vmem S1x256 .f32).view.set]{fullShare} f
def chPts (c : Dev nD) (f : Buf (Elt F) ((chM : Memref sig .tc .vmem S1x256 .f32).view.loc (c : Thread nD τ))) : sProp 𝕄 :=
  (chM : Memref sig .tc .vmem S1x256 .f32).view.loc (c : Thread nD τ) ↦[(chM : Memref sig .tc .vmem S1x256 .f32).view.set]{fullShare} f
def rsPts (c : Dev nD) (f : Buf (Elt F) ((rsM : Memref sig .tc .vmem S1x256 .f32).view.loc (c : Thread nD τ))) : sProp 𝕄 :=
  (rsM : Memref sig .tc .vmem S1x256 .f32).view.loc (c : Thread nD τ) ↦[(rsM : Memref sig .tc .vmem S1x256 .f32).view.set]{fullShare} f
def csPts (c : Dev nD) (f : Buf (Elt F) ((csM : Memref sig .tc .vmem S1x256 .f32).view.loc (c : Thread nD τ))) : sProp 𝕄 :=
  (csM : Memref sig .tc .vmem S1x256 .f32).view.loc (c : Thread nD τ) ↦[(csM : Memref sig .tc .vmem S1x256 .f32).view.set]{fullShare} f

omit [FloatOps F] in
instance rhPts_storable (c : Dev nD) (f) : BI.Storable (upEmb : UEmb _ 𝕄) (rhPts (F := F) c f) := by unfold rhPts; infer_instance
omit [FloatOps F] in
instance chPts_storable (c : Dev nD) (f) : BI.Storable (upEmb : UEmb _ 𝕄) (chPts (F := F) c f) := by unfold chPts; infer_instance
omit [FloatOps F] in
instance rsPts_storable (c : Dev nD) (f) : BI.Storable (upEmb : UEmb _ 𝕄) (rsPts (F := F) c f) := by unfold rsPts; infer_instance
omit [FloatOps F] in
instance csPts_storable (c : Dev nD) (f) : BI.Storable (upEmb : UEmb _ 𝕄) (csPts (F := F) c f) := by unfold csPts; infer_instance

omit [FloatOps F] in
theorem rhPts_eq (c : Dev nD) (f : Buf (Elt F) ((c : Thread nD τ).loc cc0_scratch0)) :
    rhPts c f = (((c : Thread nD τ).loc cc0_scratch0) ↦{fullShare} f : sProp 𝕄) := by unfold rhPts; rw [View.set_whole]
omit [FloatOps F] in
theorem chPts_eq (c : Dev nD) (f : Buf (Elt F) ((c : Thread nD τ).loc cc0_scratch1)) :
    chPts c f = (((c : Thread nD τ).loc cc0_scratch1) ↦{fullShare} f : sProp 𝕄) := by unfold chPts; rw [View.set_whole]
omit [FloatOps F] in
theorem rsPts_eq (c : Dev nD) (f : Buf (Elt F) ((c : Thread nD τ).loc cc0_scratch2)) :
    rsPts c f = (((c : Thread nD τ).loc cc0_scratch2) ↦{fullShare} f : sProp 𝕄) := by unfold rsPts; rw [View.set_whole]
omit [FloatOps F] in
theorem csPts_eq (c : Dev nD) (f : Buf (Elt F) ((c : Thread nD τ).loc cc0_scratch3)) :
    csPts c f = (((c : Thread nD τ).loc cc0_scratch3) ↦{fullShare} f : sProp 𝕄) := by unfold csPts; rw [View.set_whole]

/-- A transfer of a whole staging buffer into a whole halo leaves the halo holding the staging buffer's contents. -/
theorem row_landed_eq (c : Dev nD) (fd : Buf (Elt F) ((rhM : Memref sig .tc .vmem S1x256 .f32).view.loc (c : Thread nD τ))) (fs : VC (F := F)) :
    (rhM : Memref sig .tc .vmem S1x256 .f32).view.write (Elt F) fd ((rsM : Memref sig .tc .vmem S1x256 .f32).view.read (Elt F) fs) Finset.univ = fs := by
  show (View.whole cc0_scratch0).write (Elt F) fd ((View.whole cc0_scratch2).read (Elt F) fs) Finset.univ = fs
  rw [View.read_whole]
  exact View.write_whole_univ _ _ _
theorem col_landed_eq (c : Dev nD) (fd : Buf (Elt F) ((chM : Memref sig .tc .vmem S1x256 .f32).view.loc (c : Thread nD τ))) (fs : VC (F := F)) :
    (chM : Memref sig .tc .vmem S1x256 .f32).view.write (Elt F) fd ((csM : Memref sig .tc .vmem S1x256 .f32).view.read (Elt F) fs) Finset.univ = fs := by
  show (View.whole cc0_scratch1).write (Elt F) fd ((View.whole cc0_scratch3).read (Elt F) fs) Finset.univ = fs
  rw [View.read_whole]
  exact View.write_whole_univ _ _ _

/-! ## The schedule -/

/-- What the row peer's signal (duty `false` of `c`'s barrier cell) hands `c`: the row peer's row halo, and that the row
    peer has reached round 0 of its row-receive cell — what the transfer into it needs. The column peer's (duty `true`)
    likewise with the column halo. -/
def barPayR (c : Dev nD) : sProp 𝕄 := iprop((∃ f, rhPts (rowPeer c) f) ∗ reached ER (rrecvCell (rowPeer c)) 0)
def barPayC (c : Dev nD) : sProp 𝕄 := iprop((∃ f, chPts (colPeer c) f) ∗ reached ER (crecvCell (colPeer c)) 0)
def rrecvPay (c : Dev nD) : sProp 𝕄 := rhPts c (rowLanded m ρ c)
def crecvPay (c : Dev nD) : sProp 𝕄 := chPts c (colLanded m ρ c)
def rsendPay (c : Dev nD) : sProp 𝕄 := rsPts c (rowStg m ρ c)
def csendPay (c : Dev nD) : sProp 𝕄 := csPts c (colStg m ρ c)

abbrev IsBar (g : GSem nD τ sig) : Prop := g.1.2 = .tc ∧ g.2 = .reg barS
abbrev IsXfer (g : GSem nD τ sig) : Prop :=
  g.1.2 = .tc ∧ (g.2 = .dma rsendS.sem ∨ g.2 = .dma rrecvS.sem ∨ g.2 = .dma csendS.sem ∨ g.2 = .dma crecvS.sem)

/-- One round, round 0: a barrier cell has the two unit duties `false` (from the row peer) and `true` (from the column
    peer); each transfer cell the duty `false` of a halo's credit. -/
def haloRd : Rounds.Schedule (GSem nD τ sig) Bool 𝕄 where
  duties g r := if r = 0 ∧ IsBar g then Finset.univ else if r = 0 ∧ IsXfer g then {false} else ∅
  unitless _ := False
  amount g _ _ := if g.2 = .reg barS then 1 else N
  payload g _ d :=
    if g.2 = .reg barS then (if d then barPayC g.1.1 else barPayR g.1.1)
    else if g.2 = .dma rrecvS.sem then rrecvPay m ρ g.1.1
    else if g.2 = .dma rsendS.sem then rsendPay m ρ g.1.1
    else if g.2 = .dma crecvS.sem then crecvPay m ρ g.1.1
    else if g.2 = .dma csendS.sem then csendPay m ρ g.1.1
    else iprop(emp)
  amount_pos g _ _ _ := by
    by_cases h : g.2 = .reg barS
    · rw [if_pos h]; exact Nat.one_pos
    · rw [if_neg h]; exact N_pos

instance haloRd_payload_storable (g : GSem nD τ sig) (r : ℕ) (d : Bool) :
    BI.Storable (upEmb : UEmb _ 𝕄) ((haloRd (F := F) m ρ).payload g r d) := by
  show BI.Storable upEmb (if g.2 = .reg barS then (if d then barPayC g.1.1 else barPayR g.1.1)
    else if g.2 = .dma rrecvS.sem then rrecvPay m ρ g.1.1
    else if g.2 = .dma rsendS.sem then rsendPay m ρ g.1.1
    else if g.2 = .dma crecvS.sem then crecvPay m ρ g.1.1
    else if g.2 = .dma csendS.sem then csendPay m ρ g.1.1
    else iprop(emp))
  unfold barPayR barPayC rrecvPay rsendPay crecvPay csendPay
  (repeat' split) <;> infer_instance

section Sched
variable (c : Dev nD)

theorem rsend_ne_bar : (SemLoc.dma rsendS.sem : SemLoc sig) ≠ .reg barS := fun h => by cases h
theorem rrecv_ne_bar : (SemLoc.dma rrecvS.sem : SemLoc sig) ≠ .reg barS := fun h => by cases h
theorem csend_ne_bar : (SemLoc.dma csendS.sem : SemLoc sig) ≠ .reg barS := fun h => by cases h
theorem crecv_ne_bar : (SemLoc.dma crecvS.sem : SemLoc sig) ≠ .reg barS := fun h => by cases h
theorem rsend_ne_rrecv : (SemLoc.dma rsendS.sem : SemLoc sig) ≠ .dma rrecvS.sem := by decide
theorem crecv_ne_rrecv : (SemLoc.dma crecvS.sem : SemLoc sig) ≠ .dma rrecvS.sem := by decide
theorem crecv_ne_rsend : (SemLoc.dma crecvS.sem : SemLoc sig) ≠ .dma rsendS.sem := by decide
theorem csend_ne_rrecv : (SemLoc.dma csendS.sem : SemLoc sig) ≠ .dma rrecvS.sem := by decide
theorem csend_ne_rsend : (SemLoc.dma csendS.sem : SemLoc sig) ≠ .dma rsendS.sem := by decide
theorem csend_ne_crecv : (SemLoc.dma csendS.sem : SemLoc sig) ≠ .dma crecvS.sem := by decide

omit [FloatOps F] in
theorem duties_bar : (haloRd (F := F) m ρ).duties (barCell c) 0 = Finset.univ := by dsimp only [haloRd]; exact if_pos ⟨rfl, rfl, rfl⟩
omit [FloatOps F] in
theorem duties_rsend : (haloRd (F := F) m ρ).duties (rsendCell c) 0 = {false} := by
  dsimp only [haloRd]; rw [if_neg (fun h => rsend_ne_bar h.2.2)]; exact if_pos ⟨rfl, rfl, .inl rfl⟩
omit [FloatOps F] in
theorem duties_rrecv : (haloRd (F := F) m ρ).duties (rrecvCell c) 0 = {false} := by
  dsimp only [haloRd]; rw [if_neg (fun h => rrecv_ne_bar h.2.2)]; exact if_pos ⟨rfl, rfl, .inr (.inl rfl)⟩
omit [FloatOps F] in
theorem duties_csend : (haloRd (F := F) m ρ).duties (csendCell c) 0 = {false} := by
  dsimp only [haloRd]; rw [if_neg (fun h => csend_ne_bar h.2.2)]; exact if_pos ⟨rfl, rfl, .inr (.inr (.inl rfl))⟩
omit [FloatOps F] in
theorem duties_crecv : (haloRd (F := F) m ρ).duties (crecvCell c) 0 = {false} := by
  dsimp only [haloRd]; rw [if_neg (fun h => crecv_ne_bar h.2.2)]; exact if_pos ⟨rfl, rfl, .inr (.inr (.inr rfl))⟩
omit [FloatOps F] in
theorem duties_later (g : GSem nD τ sig) : ∀ r, 1 ≤ r → (haloRd (F := F) m ρ).duties g r = ∅ :=
  fun r hr => by dsimp only [haloRd]; rw [if_neg fun h => by omega, if_neg fun h => by omega]

omit [FloatOps F] in
theorem amount_bar (d : Bool) : (haloRd (F := F) m ρ).amount (barCell c) 0 d = 1 := by dsimp only [haloRd]; exact if_pos rfl
omit [FloatOps F] in
theorem amount_rsend (d : Bool) : (haloRd (F := F) m ρ).amount (rsendCell c) 0 d = N := by dsimp only [haloRd]; exact if_neg rsend_ne_bar
omit [FloatOps F] in
theorem amount_rrecv (d : Bool) : (haloRd (F := F) m ρ).amount (rrecvCell c) 0 d = N := by dsimp only [haloRd]; exact if_neg rrecv_ne_bar
omit [FloatOps F] in
theorem amount_csend (d : Bool) : (haloRd (F := F) m ρ).amount (csendCell c) 0 d = N := by dsimp only [haloRd]; exact if_neg csend_ne_bar
omit [FloatOps F] in
theorem amount_crecv (d : Bool) : (haloRd (F := F) m ρ).amount (crecvCell c) 0 d = N := by dsimp only [haloRd]; exact if_neg crecv_ne_bar

omit [FloatOps F] in
theorem expect_bar : (haloRd (F := F) m ρ).expect (barCell c) 0 = 2 := by
  unfold Schedule.expect Schedule.amountOf
  rw [duties_bar, Finset.sum_congr rfl fun d _ => amount_bar m ρ c d, Finset.sum_const, Finset.card_univ, Fintype.card_bool, smul_eq_mul]
omit [FloatOps F] in
theorem expect_rsend : (haloRd (F := F) m ρ).expect (rsendCell c) 0 = N := by
  unfold Schedule.expect Schedule.amountOf; rw [duties_rsend, Finset.sum_singleton, amount_rsend]
omit [FloatOps F] in
theorem expect_rrecv : (haloRd (F := F) m ρ).expect (rrecvCell c) 0 = N := by
  unfold Schedule.expect Schedule.amountOf; rw [duties_rrecv, Finset.sum_singleton, amount_rrecv]
omit [FloatOps F] in
theorem expect_csend : (haloRd (F := F) m ρ).expect (csendCell c) 0 = N := by
  unfold Schedule.expect Schedule.amountOf; rw [duties_csend, Finset.sum_singleton, amount_csend]
omit [FloatOps F] in
theorem expect_crecv : (haloRd (F := F) m ρ).expect (crecvCell c) 0 = N := by
  unfold Schedule.expect Schedule.amountOf; rw [duties_crecv, Finset.sum_singleton, amount_crecv]

omit [FloatOps F] in
theorem payload_bar_true : (haloRd (F := F) m ρ).payload (barCell c) 0 true = barPayC c := by dsimp only [haloRd]; rw [if_pos rfl, if_pos rfl]
omit [FloatOps F] in
theorem payload_bar_false : (haloRd (F := F) m ρ).payload (barCell c) 0 false = barPayR c := by
  dsimp only [haloRd]; rw [if_pos rfl]; exact if_neg Bool.false_ne_true
omit [FloatOps F] in
theorem payload_rrecv (d : Bool) : (haloRd (F := F) m ρ).payload (rrecvCell c) 0 d = rrecvPay m ρ c := by
  dsimp only [haloRd]; rw [if_neg rrecv_ne_bar, if_pos rfl]
omit [FloatOps F] in
theorem payload_rsend (d : Bool) : (haloRd (F := F) m ρ).payload (rsendCell c) 0 d = rsendPay m ρ c := by
  dsimp only [haloRd]; rw [if_neg rsend_ne_bar, if_neg rsend_ne_rrecv, if_pos rfl]
omit [FloatOps F] in
theorem payload_crecv (d : Bool) : (haloRd (F := F) m ρ).payload (crecvCell c) 0 d = crecvPay m ρ c := by
  dsimp only [haloRd]; rw [if_neg crecv_ne_bar, if_neg crecv_ne_rrecv, if_neg crecv_ne_rsend, if_pos rfl]
omit [FloatOps F] in
theorem payload_csend (d : Bool) : (haloRd (F := F) m ρ).payload (csendCell c) 0 d = csendPay m ρ c := by
  dsimp only [haloRd]; rw [if_neg csend_ne_bar, if_neg csend_ne_rrecv, if_neg csend_ne_rsend, if_neg csend_ne_crecv, if_pos rfl]

omit [FloatOps F] in
/-- The rest of the barrier cell's round, no duty taken: both peers' payloads. -/
theorem rest_bar : bigSep ((haloRd (F := F) m ρ).duties (barCell c) 0 \ ∅) (fun d => (haloRd (F := F) m ρ).payload (barCell c) 0 d) = iprop(barPayR c ∗ barPayC c) := by
  rw [Finset.sdiff_empty, duties_bar, bigSep_univ_eq_bigSepL [false, true] (by decide) (by decide), bigSepL_cons_cons, bigSepL_singleton,
    payload_bar_false, payload_bar_true]
  rfl
omit [FloatOps F] in
theorem rest_rsend : bigSep ((haloRd (F := F) m ρ).duties (rsendCell c) 0 \ ∅) (fun d => (haloRd (F := F) m ρ).payload (rsendCell c) 0 d) = rsendPay m ρ c := by
  rw [Finset.sdiff_empty, duties_rsend, bigSep_singleton, payload_rsend]
omit [FloatOps F] in
theorem rest_rrecv : bigSep ((haloRd (F := F) m ρ).duties (rrecvCell c) 0 \ ∅) (fun d => (haloRd (F := F) m ρ).payload (rrecvCell c) 0 d) = rrecvPay m ρ c := by
  rw [Finset.sdiff_empty, duties_rrecv, bigSep_singleton, payload_rrecv]
omit [FloatOps F] in
theorem rest_csend : bigSep ((haloRd (F := F) m ρ).duties (csendCell c) 0 \ ∅) (fun d => (haloRd (F := F) m ρ).payload (csendCell c) 0 d) = csendPay m ρ c := by
  rw [Finset.sdiff_empty, duties_csend, bigSep_singleton, payload_csend]
omit [FloatOps F] in
theorem rest_crecv : bigSep ((haloRd (F := F) m ρ).duties (crecvCell c) 0 \ ∅) (fun d => (haloRd (F := F) m ρ).payload (crecvCell c) 0 d) = crecvPay m ρ c := by
  rw [Finset.sdiff_empty, duties_crecv, bigSep_singleton, payload_crecv]

end Sched

/-! ## What each device owes at launch; the levels -/

/-- Device `c` owes each peer's receive cell a halo's credit and each peer's barrier cell one unit — summed so that the
    body's steps peel the summands from the right: the signal to the row peer, the signal to the column peer, the row
    transfer, the column transfer. -/
def O₃ (c : Dev nD) : CellTallies nD τ sig Unit := tallyAt (crecvCell (colPeer c)) () N
def O₂ (c : Dev nD) : CellTallies nD τ sig Unit := O₃ c + tallyAt (rrecvCell (rowPeer c)) () N
def O₁ (c : Dev nD) : CellTallies nD τ sig Unit := O₂ c + tallyAt (barCell (colPeer c)) () 1
def O₀ (c : Dev nD) : CellTallies nD τ sig Unit := O₁ c + tallyAt (barCell (rowPeer c)) () 1

def L (g : GSem nD τ sig) : Finset Unit := if g.1.2 = .tc then {()} else ∅
/-- Barrier cells at 1, receive cells at 2, everything else (staging, send) at 0. -/
def lv (g : GSem nD τ sig) (_ : Unit) : ℕ :=
  if g.2 = .reg barS then 1 else if g.2 = .dma rrecvS.sem ∨ g.2 = .dma crecvS.sem then 2 else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) (u : Unit) : lv (barCell c) u = 1 := by dsimp only [lv]; rw [if_pos rfl]
theorem lv_rrecv (c : Dev nD) (u : Unit) : lv (rrecvCell c) u = 2 := by dsimp only [lv]; rw [if_neg rrecv_ne_bar, if_pos (.inl rfl)]
theorem lv_crecv (c : Dev nD) (u : Unit) : lv (crecvCell c) u = 2 := by dsimp only [lv]; rw [if_neg crecv_ne_bar, if_pos (.inr rfl)]

theorem O₂_pos {c : Dev nD} {g : GSem nD τ sig} {u : Unit} (h : 0 < O₂ c g u) :
    g = crecvCell (colPeer c) ∨ g = rrecvCell (rowPeer c) := by
  unfold O₂ O₃ at h
  rw [Pi.add_apply, Finsupp.add_apply, tallyAt_apply, tallyAt_apply] at h
  by_contra hn
  rw [not_or] at hn
  rw [if_neg (fun h' => hn.1 h'.1), if_neg (fun h' => hn.2 h'.1)] at h
  exact Nat.lt_irrefl 0 h

theorem O₀_pos {c : Dev nD} {g : GSem nD τ sig} {u : Unit} (h : 0 < O₀ c g u) :
    g = crecvCell (colPeer c) ∨ g = rrecvCell (rowPeer c) ∨ g = barCell (colPeer c) ∨ g = barCell (rowPeer c) := by
  unfold O₀ O₁ O₂ O₃ at h
  rw [Pi.add_apply, Finsupp.add_apply, Pi.add_apply, Finsupp.add_apply, Pi.add_apply, Finsupp.add_apply,
    tallyAt_apply, tallyAt_apply, tallyAt_apply, tallyAt_apply] at h
  by_contra hn
  rw [not_or, not_or, not_or] at hn
  rw [if_neg (fun h' => hn.1 h'.1), if_neg (fun h' => hn.2.1 h'.1), if_neg (fun h' => hn.2.2.1 h'.1), if_neg (fun h' => hn.2.2.2 h'.1)] at h
  exact Nat.lt_irrefl 0 h

omit [FloatOps F] in
/-- A wait on a staging or send semaphore (level 0) is below everything a device owes at launch. -/
theorem mayWait_stage (c : Dev nD) (q : DmaSem sig) (hq : SemLoc.dma q ≠ .dma rrecvS.sem) (hq' : SemLoc.dma q ≠ .dma crecvS.sem)
    (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl | rfl | rfl <;> exact Finset.mem_singleton_self _)
      (fun p hp => by rw [Finset.mem_singleton.mp hp]; dsimp only [lv]; rw [if_neg (fun h => by cases h), if_neg (fun h => h.elim hq hq')])
      (fun g u hg => by
        rcases O₀_pos hg with rfl | rfl | rfl | rfl
        · rw [lv_crecv]; decide
        · rw [lv_rrecv]; decide
        · rw [lv_bar]; decide
        · rw [lv_bar]; decide)
  · rw [MayWait_zero]; iintro -; iempintro

omit [FloatOps F] in
/-- At its barrier wait a device owes its peers' receive credits only: receive cells, above its barrier cell. -/
theorem mayWait_bar (c : Dev nD) :
    (levAts L lv : sProp 𝕄) ⊢ MayWait (c : Thread nD τ) (.reg barS) () (O₂ c) :=
  MayOwe.of_cut (L := L) (lev := lv) 1 (fun p hp => by rw [Finset.mem_singleton.mp hp, L_tc]; exact Finset.mem_singleton_self _)
    (fun g u hg => by rcases O₂_pos hg with rfl | rfl <;> (rw [L_tc]; exact Finset.mem_singleton_self _))
    (fun p hp => by rw [Finset.mem_singleton.mp hp]; exact (lv_bar c _).le)
    (fun g u hg => by
      rcases O₂_pos hg with rfl | rfl
      · rw [lv_crecv]; decide
      · rw [lv_rrecv]; decide)

/-! ## The pipeline's data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The cells' invariants device `c`'s body opens, under the names `K` the launch allocated them at: its own five, both
    peers' barrier cells (its signals), each peer's receive cell (its transfers). -/
def invs (K : Dev nD × Fin 5 → ℕ) (c : Dev nD) : sProp 𝕄 :=
  iprop(cellInv ER (haloRd m ρ) (K (c, 0)) (barCell c) ∗ cellInv ER (haloRd m ρ) (K (c, 1)) (rsendCell c) ∗ cellInv ER (haloRd m ρ) (K (c, 2)) (rrecvCell c)
    ∗ cellInv ER (haloRd m ρ) (K (c, 3)) (csendCell c) ∗ cellInv ER (haloRd m ρ) (K (c, 4)) (crecvCell c)
    ∗ cellInv ER (haloRd m ρ) (K (rowPeer c, 0)) (barCell (rowPeer c)) ∗ cellInv ER (haloRd m ρ) (K (colPeer c, 0)) (barCell (colPeer c))
    ∗ cellInv ER (haloRd m ρ) (K (rowPeer c, 2)) (rrecvCell (rowPeer c)) ∗ cellInv ER (haloRd m ρ) (K (colPeer c, 4)) (crecvCell (colPeer c)))

instance invs_persistent (K : Dev nD × Fin 5 → ℕ) (c : Dev nD) : BI.Persistent (invs m ρ K c) := by unfold invs; infer_instance

/-- The exchange's ghost state device `c` starts from: the invariants; its positions at round 0 of its five cells; the
    reached-marks of the cells it pays and of its own transfer cells; the six duty tokens it pays with — the row
    peer's barrier duty `false`, the column peer's barrier duty `true`, each peer's receive duty, its own two send duties. -/
def ghost (K : Dev nD × Fin 5 → ℕ) (c : Dev nD) : sProp 𝕄 :=
  iprop(invs m ρ K c
    ∗ atPos ER (barCell c) 0 ∅ 0 ∗ atPos ER (rsendCell c) 0 ∅ 0 ∗ atPos ER (rrecvCell c) 0 ∅ 0 ∗ atPos ER (csendCell c) 0 ∅ 0 ∗ atPos ER (crecvCell c) 0 ∅ 0
    ∗ reached ER (barCell (rowPeer c)) 0 ∗ reached ER (barCell (colPeer c)) 0 ∗ reached ER (rrecvCell (rowPeer c)) 0 ∗ reached ER (crecvCell (colPeer c)) 0
    ∗ reached ER (rsendCell c) 0 ∗ reached ER (rrecvCell c) 0 ∗ reached ER (csendCell c) 0 ∗ reached ER (crecvCell c) 0
    ∗ dutyTok ER (barCell (rowPeer c)) 0 false ∗ dutyTok ER (barCell (colPeer c)) 0 true
    ∗ dutyTok ER (rrecvCell (rowPeer c)) 0 false ∗ dutyTok ER (crecvCell (colPeer c)) 0 false
    ∗ dutyTok ER (rsendCell c) 0 false ∗ dutyTok ER (csendCell c) 0 false)

/-- What device `c`'s body starts from: that at some names, its three credit tokens (its barrier's two units, each of
    its receive cells' credit) and the level facts. -/
def start (c : Dev nD) : sProp 𝕄 :=
  iprop((∃ K, ghost m ρ K c) ∗ cred (tallyAt (barCell c) () 2) ∗ cred (tallyAt (rrecvCell c) () N) ∗ cred (tallyAt (crecvCell c) () N) ∗ levAts L lv)

/-- Before the point: that, and the four scratch buffers at some contents. -/
def Φ₀ (c : Dev nD) : sProp 𝕄 :=
  iprop(start m ρ c ∗ (∃ f, rhPts c f) ∗ (∃ f, chPts c f) ∗ (∃ f, rsPts c f) ∗ (∃ f, csPts c f))
/-- After the point: the halos holding the peers' staged rows, the staging buffers back, the four OWN cells at zero, closed
    (the barrier cell is the runtime's: nothing to hand back). -/
def Φ₁ (c : Dev nD) : sProp 𝕄 :=
  iprop(rhPts c (rowLanded m ρ c) ∗ chPts c (colLanded m ρ c) ∗ rsPts c (rowStg m ρ c) ∗ csPts c (colStg m ρ c)
    ∗ semVal (rsendCell c) 0 ∗ semVal (rrecvCell c) 0 ∗ semVal (csendCell c) 0 ∗ semVal (crecvCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

abbrev 𝒱₀ : Variants := Variants.none

end Cert.KernelIdeal.Halo

end
-- ==== Proof.HaloBody.lean ====
/-
  The body obligation of the halo exchange: one device's body, stepped from what the launch deals it to what the pipeline
  expects after the point.

  The device signals both peers' barrier cells — handing the row peer its own row halo and the column peer its own column
  halo, each with the word that it stands at round 0 of the matching receive cell —, stages its boundary row and its
  boundary column (which ones: by its position in the mesh), waits for the two units on its own barrier cell while it
  still owes the two receive credits (receive cells lie above barrier cells), and so holds both peers' halos. It copies
  the staged row into the row peer's row halo and the staged column into the column peer's column halo — what lands there
  is what the peer's receive duty promises, since the peer of the peer is the device itself —, computes the plain update
  of its block, waits for its two sends and its two receives (owing nothing by then), closes its four own cells, patches
  the line next to each peer with the landed halos and copies the two rim lines of the whole array from its block.
  The contents left in the result's staging buffer are five stores, the first through the whole buffer: exactly the
  value the protocol's statement names.
-/
import proofs.«900193_g7700000000000194_dist_halo2d_stencil_xy_m256_n256_v7x_xy2x2_f32_1_alg».proof.Proof.HaloProto
import Idealize.ShloMosaic.Lib.Exec
import Idealize.ShloMosaic.Lib.Tactic

noncomputable section

namespace Cert.KernelIdeal.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ) (ρ : Dev nD → PrngReg)

/-! ## The printed branch conditions, decided by the device's position in the mesh -/

/-- The row coordinate of the device is 0 exactly in the top half of the mesh, 1 in the bottom half; likewise the column
    coordinate. Each printed `scf.if` tests one of these four words. -/
theorem cond_r0 (c : Dev nD) :
    (Scalar.cmpi .ne (Scalar.extui (Scalar.cmpi .eq (Scalar.remsi (Scalar.divsi (Dev.word c) 2#32) 2#32) 0#32)) 0#32 = 1#1) = (c.val / 2 = 0) := by
  revert c; decide
theorem cond_r1 (c : Dev nD) :
    (Scalar.cmpi .ne (Scalar.extui (Scalar.cmpi .eq (Scalar.remsi (Scalar.divsi (Dev.word c) 2#32) 2#32) 1#32)) 0#32 = 1#1) = ¬ (c.val / 2 = 0) := by
  revert c; decide
theorem cond_c0 (c : Dev nD) :
    (Scalar.cmpi .ne (Scalar.extui (Scalar.cmpi .eq (Scalar.remsi (Scalar.divsi (Dev.word c) 1#32) 2#32) 0#32)) 0#32 = 1#1) = (c.val % 2 = 0) := by
  revert c; decide
theorem cond_c1 (c : Dev nD) :
    (Scalar.cmpi .ne (Scalar.extui (Scalar.cmpi .eq (Scalar.remsi (Scalar.divsi (Dev.word c) 1#32) 2#32) 1#32)) 0#32 = 1#1) = ¬ (c.val % 2 = 0) := by
  revert c; decide

omit [FloatOps F] in
theorem hz : (![0, 0] : Fin 2 → Nat) = fun _ => 0 := funext fun a => by fin_cases a <;> rfl

/-! ## The schedule's tables, each payload spelt as the buffer it hands over -/

omit [FloatOps F] in
theorem duties_bar2 (c : Dev nD) : (haloRd (F := F) m ρ).duties (barCell c) 0 = {false, true} := by
  rw [duties_bar]; decide
omit [FloatOps F] in
theorem pay_bar_false (c : Dev nD) : (haloRd (F := F) m ρ).payload (barCell c) 0 false
    = iprop((∃ f, (rhM : Memref sig .tc .vmem S1x256 .f32).view.loc (rowPeer c : Thread nD τ) ↦[(rhM : Memref sig .tc .vmem S1x256 .f32).view.set]{fullShare} f)
        ∗ reached ER (rrecvCell (rowPeer c)) 0) := by
  rw [payload_bar_false]; rfl
omit [FloatOps F] in
theorem pay_bar_true (c : Dev nD) : (haloRd (F := F) m ρ).payload (barCell c) 0 true
    = iprop((∃ f, (chM : Memref sig .tc .vmem S1x256 .f32).view.loc (colPeer c : Thread nD τ) ↦[(chM : Memref sig .tc .vmem S1x256 .f32).view.set]{fullShare} f)
        ∗ reached ER (crecvCell (colPeer c)) 0) := by
  rw [payload_bar_true]; rfl
omit [FloatOps F] in
/-- What a device hands its row peer with its signal: its OWN row halo, and that it is at round 0 of its row-receive cell. -/
theorem pay_bar_false_peer (c : Dev nD) : (haloRd (F := F) m ρ).payload (barCell (rowPeer c)) 0 false
    = iprop((∃ f, (rhM : Memref sig .tc .vmem S1x256 .f32).view.loc (c : Thread nD τ) ↦[(rhM : Memref sig .tc .vmem S1x256 .f32).view.set]{fullShare} f)
        ∗ reached ER (rrecvCell c) 0) := by
  rw [payload_bar_false]; unfold barPayR rhPts; rw [rowPeer_rowPeer]
omit [FloatOps F] in
theorem pay_bar_true_peer (c : Dev nD) : (haloRd (F := F) m ρ).payload (barCell (colPeer c)) 0 true
    = iprop((∃ f, (chM : Memref sig .tc .vmem S1x256 .f32).view.loc (c : Thread nD τ) ↦[(chM : Memref sig .tc .vmem S1x256 .f32).view.set]{fullShare} f)
        ∗ reached ER (crecvCell c) 0) := by
  rw [payload_bar_true]; unfold barPayC chPts; rw [colPeer_colPeer]
omit [FloatOps F] in
theorem pay_rrecv (c : Dev nD) (d : Bool) : (haloRd (F := F) m ρ).payload (rrecvCell c) 0 d
    = ((rhM : Memref sig .tc .vmem S1x256 .f32).view.loc (c : Thread nD τ) ↦[(rhM : Memref sig .tc .vmem S1x256 .f32).view.set]{fullShare} rowLanded m ρ c) := by
  rw [payload_rrecv]; rfl
omit [FloatOps F] in
theorem pay_crecv (c : Dev nD) (d : Bool) : (haloRd (F := F) m ρ).payload (crecvCell c) 0 d
    = ((chM : Memref sig .tc .vmem S1x256 .f32).view.loc (c : Thread nD τ) ↦[(chM : Memref sig .tc .vmem S1x256 .f32).view.set]{fullShare} colLanded m ρ c) := by
  rw [payload_crecv]; rfl
omit [FloatOps F] in
theorem pay_rsend (c : Dev nD) (d : Bool) : (haloRd (F := F) m ρ).payload (rsendCell c) 0 d
    = ((rsM : Memref sig .tc .vmem S1x256 .f32).view.loc (c : Thread nD τ) ↦[(rsM : Memref sig .tc .vmem S1x256 .f32).view.set]{fullShare} rowStg m ρ c) := by
  rw [payload_rsend]; rfl
omit [FloatOps F] in
theorem pay_csend (c : Dev nD) (d : Bool) : (haloRd (F := F) m ρ).payload (csendCell c) 0 d
    = ((csM : Memref sig .tc .vmem S1x256 .f32).view.loc (c : Thread nD τ) ↦[(csM : Memref sig .tc .vmem S1x256 .f32).view.set]{fullShare} colStg m ρ c) := by
  rw [payload_csend]; rfl

omit [FloatOps F] in
/-- What lands in the row peer's halo is this device's staged row; in the column peer's, its staged column. -/
theorem pay_rrecv_peer (c : Dev nD) (d : Bool) : (haloRd (F := F) m ρ).payload (rrecvCell (rowPeer c)) 0 d
    = ((rhM : Memref sig .tc .vmem S1x256 .f32).view.loc (rowPeer c : Thread nD τ) ↦[(rhM : Memref sig .tc .vmem S1x256 .f32).view.set]{fullShare} rowStg m ρ c) := by
  rw [pay_rrecv, rowLanded, rowPeer_rowPeer]
omit [FloatOps F] in
theorem pay_crecv_peer (c : Dev nD) (d : Bool) : (haloRd (F := F) m ρ).payload (crecvCell (colPeer c)) 0 d
    = ((chM : Memref sig .tc .vmem S1x256 .f32).view.loc (colPeer c : Thread nD τ) ↦[(chM : Memref sig .tc .vmem S1x256 .f32).view.set]{fullShare} colStg m ρ c) := by
  rw [pay_crecv, colLanded, colPeer_colPeer]

/-! ## Contents: a store through the whole of a 1 × 256 buffer leaves the stored row; the staged rows by mesh position -/

omit [FloatOps F] in
theorem writes_rs (f w : (cc0_scratch2 : Ref sig .tc).ty.Contents (Elt F)) :
    (rsM : Memref sig .tc .vmem S1x256 .f32).view.writes (Elt F) f [⟨rVec, w⟩] = w := by
  show ((rsM : Memref sig .tc .vmem S1x256 .f32).access rVec : View sig .tc _ _ _).write (Elt F) f w Finset.univ = w
  exact Memref.write_access_unit_zero_univ (Elt F) cc0_scratch2 hz _ f w
omit [FloatOps F] in
theorem writes_cs (f w : (cc0_scratch3 : Ref sig .tc).ty.Contents (Elt F)) :
    (csM : Memref sig .tc .vmem S1x256 .f32).view.writes (Elt F) f [⟨rVec, w⟩] = w := by
  show ((csM : Memref sig .tc .vmem S1x256 .f32).access rVec : View sig .tc _ _ _).write (Elt F) f w Finset.univ = w
  exact Memref.write_access_unit_zero_univ (Elt F) cc0_scratch3 hz _ f w
omit [FloatOps F] in
theorem sep_raw (A B : sProp 𝕄) : BI.sep A B = iprop(A ∗ B) := rfl
theorem rowStg_top (c : Dev nD) (h : c.val / 2 = 0) : k0_pay2 (xld rRow255 (xstg m ρ c)) = rowStg m ρ c := by rw [rowStg, if_pos h]
theorem rowStg_bot (c : Dev nD) (h : ¬ c.val / 2 = 0) : k0_pay3 (xld rRow0 (xstg m ρ c)) = rowStg m ρ c := by rw [rowStg, if_neg h]
theorem colStg_left (c : Dev nD) (h : c.val % 2 = 0) : k0_pay4 (xld rCol255 (xstg m ρ c)) = colStg m ρ c := by rw [colStg, if_pos h]
theorem colStg_right (c : Dev nD) (h : ¬ c.val % 2 = 0) : k0_pay5 (xld rCol0 (xstg m ρ c)) = colStg m ρ c := by rw [colStg, if_neg h]

/-! ## The two staged windows as points-to facts through their memrefs -/

def xPts (c : Dev nD) (f : Buf (Elt F) ((xM : Memref sig .tc .vmem S256x256 .f32).view.loc (c : Thread nD τ))) : sProp 𝕄 :=
  (xM : Memref sig .tc .vmem S256x256 .f32).view.loc (c : Thread nD τ) ↦[(xM : Memref sig .tc .vmem S256x256 .f32).view.set]{fullShare} f
def oPts (c : Dev nD) (f : Buf (Elt F) ((oM : Memref sig .tc .vmem S256x256 .f32).view.loc (c : Thread nD τ))) : sProp 𝕄 :=
  (oM : Memref sig .tc .vmem S256x256 .f32).view.loc (c : Thread nD τ) ↦[(oM : Memref sig .tc .vmem S256x256 .f32).view.set]{fullShare} f
omit [FloatOps F] in
theorem xPts_eq (c : Dev nD) (f : Buf (Elt F) ((c : Thread nD τ).loc cc0_stg0_0)) :
    xPts c f = (((c : Thread nD τ).loc cc0_stg0_0) ↦{fullShare} f : sProp 𝕄) := by unfold xPts; rw [View.set_whole]
omit [FloatOps F] in
theorem oPts_eq (c : Dev nD) (f : Buf (Elt F) ((c : Thread nD τ).loc cc0_stg1_0)) :
    oPts c f = (((c : Thread nD τ).loc cc0_stg1_0) ↦{fullShare} f : sProp 𝕄) := by unfold oPts; rw [View.set_whole]

omit [FloatOps F] in
/-- The first store into the result's staging buffer goes through the whole of it: it leaves the stored block. -/
theorem write_out (f w : (cc0_stg1_0 : Ref sig .tc).ty.Contents (Elt F)) :
    ((oM : Memref sig .tc .vmem S256x256 .f32).view.slice rFull).write (Elt F) f w Finset.univ = w :=
  Memref.write_access_unit_zero_univ (Elt F) cc0_stg1_0 hz _ f w

/-! ## What the body leaves in the result's staging buffer, by mesh position

Five stores: the whole block, then four lines. The first, through the whole buffer, forgets what the buffer held. -/

omit [FloatOps F] in
theorem out_writes (g : (cc0_stg1_0 : Ref sig .tc).ty.Contents (Elt F)) (r5 r4 r3 r2 : Rect S256x256)
    (w5 : r5.shape.Idx → Elt F .f32) (w4 : r4.shape.Idx → Elt F .f32) (w3 : r3.shape.Idx → Elt F .f32) (w2 : r2.shape.Idx → Elt F .f32)
    (w1 : (cc0_stg1_0 : Ref sig .tc).ty.Contents (Elt F)) :
    (oM : Memref sig .tc .vmem S256x256 .f32).view.writes (Elt F) g [⟨r5, w5⟩, ⟨r4, w4⟩, ⟨r3, w3⟩, ⟨r2, w2⟩, ⟨rFull, w1⟩]
      = ((oM : Memref sig .tc .vmem S256x256 .f32).access r5 : View sig .tc _ _ _).write (Elt F)
          (((oM : Memref sig .tc .vmem S256x256 .f32).access r4 : View sig .tc _ _ _).write (Elt F)
            (((oM : Memref sig .tc .vmem S256x256 .f32).access r3 : View sig .tc _ _ _).write (Elt F)
              (((oM : Memref sig .tc .vmem S256x256 .f32).access r2 : View sig .tc _ _ _).write (Elt F) w1 w2 Finset.univ) w3 Finset.univ) w4 Finset.univ) w5 Finset.univ := by
  show ((oM : Memref sig .tc .vmem S256x256 .f32).access r5 : View sig .tc _ _ _).write (Elt F)
          (((oM : Memref sig .tc .vmem S256x256 .f32).access r4 : View sig .tc _ _ _).write (Elt F)
            (((oM : Memref sig .tc .vmem S256x256 .f32).access r3 : View sig .tc _ _ _).write (Elt F)
              (((oM : Memref sig .tc .vmem S256x256 .f32).access r2 : View sig .tc _ _ _).write (Elt F)
                (((oM : Memref sig .tc .vmem S256x256 .f32).view.slice rFull).write (Elt F) g w1 Finset.univ) w2 Finset.univ) w3 Finset.univ) w4 Finset.univ) w5 Finset.univ = _
  rw [write_out]

theorem outAt_tl (c : Dev nD) (hr : c.val / 2 = 0) (hc : c.val % 2 = 0) (g : (cc0_stg1_0 : Ref sig .tc).ty.Contents (Elt F)) :
    (oM : Memref sig .tc .vmem S256x256 .f32).view.writes (Elt F) g
      [⟨rCol0, k0_pay14 (xld rCol0 (xstg m ρ c))⟩, ⟨rRow0, k0_pay12 (xld rRow0 (xstg m ρ c))⟩,
       ⟨rCol255, k0_pay10 (chld rVec (colLanded m ρ c)) (xld rCol254 (xstg m ρ c)) (xld rCol255 (xstg m ρ c)) (rhld rPt255 (rowLanded m ρ c))⟩,
       ⟨rRow255, k0_pay8 (xld rRow254 (xstg m ρ c)) (rhld rVec (rowLanded m ρ c)) (xld rRow255 (xstg m ρ c)) (chld rPt255 (colLanded m ρ c))⟩,
       ⟨rFull, k0_pay6 (xld rFull (xstg m ρ c))⟩] = outAt m ρ c := by
  rw [out_writes]; unfold outAt; simp only [if_pos hr, if_pos hc]
theorem outAt_tr (c : Dev nD) (hr : c.val / 2 = 0) (hc : ¬ c.val % 2 = 0) (g : (cc0_stg1_0 : Ref sig .tc).ty.Contents (Elt F)) :
    (oM : Memref sig .tc .vmem S256x256 .f32).view.writes (Elt F) g
      [⟨rCol255, k0_pay1 (xld rCol255 (xstg m ρ c))⟩, ⟨rRow0, k0_pay12 (xld rRow0 (xstg m ρ c))⟩,
       ⟨rCol0, k0_pay11 (chld rVec (colLanded m ρ c)) (xld rCol1 (xstg m ρ c)) (xld rCol0 (xstg m ρ c)) (rhld rPt0 (rowLanded m ρ c))⟩,
       ⟨rRow255, k0_pay8 (xld rRow254 (xstg m ρ c)) (rhld rVec (rowLanded m ρ c)) (xld rRow255 (xstg m ρ c)) (chld rPt255 (colLanded m ρ c))⟩,
       ⟨rFull, k0_pay6 (xld rFull (xstg m ρ c))⟩] = outAt m ρ c := by
  rw [out_writes]; unfold outAt; simp only [if_pos hr, if_neg hc]
theorem outAt_bl (c : Dev nD) (hr : ¬ c.val / 2 = 0) (hc : c.val % 2 = 0) (g : (cc0_stg1_0 : Ref sig .tc).ty.Contents (Elt F)) :
    (oM : Memref sig .tc .vmem S256x256 .f32).view.writes (Elt F) g
      [⟨rCol0, k0_pay14 (xld rCol0 (xstg m ρ c))⟩, ⟨rRow255, k0_pay13 (xld rRow255 (xstg m ρ c))⟩,
       ⟨rCol255, k0_pay10 (chld rVec (colLanded m ρ c)) (xld rCol254 (xstg m ρ c)) (xld rCol255 (xstg m ρ c)) (rhld rPt255 (rowLanded m ρ c))⟩,
       ⟨rRow0, k0_pay9 (rhld rVec (rowLanded m ρ c)) (xld rRow1 (xstg m ρ c)) (xld rRow0 (xstg m ρ c)) (chld rPt0 (colLanded m ρ c))⟩,
       ⟨rFull, k0_pay6 (xld rFull (xstg m ρ c))⟩] = outAt m ρ c := by
  rw [out_writes]; unfold outAt; simp only [if_neg hr, if_pos hc]
theorem outAt_br (c : Dev nD) (hr : ¬ c.val / 2 = 0) (hc : ¬ c.val % 2 = 0) (g : (cc0_stg1_0 : Ref sig .tc).ty.Contents (Elt F)) :
    (oM : Memref sig .tc .vmem S256x256 .f32).view.writes (Elt F) g
      [⟨rCol255, k0_pay1 (xld rCol255 (xstg m ρ c))⟩, ⟨rRow255, k0_pay13 (xld rRow255 (xstg m ρ c))⟩,
       ⟨rCol0, k0_pay11 (chld rVec (colLanded m ρ c)) (xld rCol1 (xstg m ρ c)) (xld rCol0 (xstg m ρ c)) (rhld rPt0 (rowLanded m ρ c))⟩,
       ⟨rRow0, k0_pay9 (rhld rVec (rowLanded m ρ c)) (xld rRow1 (xstg m ρ c)) (xld rRow0 (xstg m ρ c)) (chld rPt0 (colLanded m ρ c))⟩,
       ⟨rFull, k0_pay6 (xld rFull (xstg m ρ c))⟩] = outAt m ρ c := by
  rw [out_writes]; unfold outAt; simp only [if_neg hr, if_neg hc]

/-! ## The body's precondition and postcondition -/

section Body

variable (K : Dev nD × Fin 5 → ℕ)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((ghost m ρ K c ∗ cred (tallyAt (barCell c) () 2) ∗ cred (tallyAt (rrecvCell c) () N) ∗ cred (tallyAt (crecvCell c) () N) ∗ levAts L lv
      ∗ (∃ f, rhPts c f) ∗ (∃ f, chPts c f) ∗ (∃ f, rsPts c f) ∗ (∃ f, csPts c f))
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ m ρ c ∗ (dats m ρ 0 c).owesAt () t₀.succ ∗ stg c cc0_stg0_0 (xstg m ρ c) ∗ stg c cc0_stg1_0 (outAt m ρ c))

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The two addressed transfers

`Rounds.wp_send_pointsTo` at this exchange's cells. The printed transfer names its target by the kernel's device chain; the
target is taken as a variable equal to the peer and substituted, since the transfer's evidence is typed over it. -/

theorem wp_send_row (c n : Dev nD) (hn : n = rowPeer c)
    {hsc : (rhM : Memref sig (Dev.tc n : Thread nD τ).2.kind .vmem S1x256 .f32).view.ref.isScScratch = false}
    {hsrc : (rsM : Memref sig .tc .vmem S1x256 .f32).view.WordExact} {hdst : (rhM : Memref sig .tc .vmem S1x256 .f32).view.WordExact}
    {hsem : DmaTarget.Typed .vmem (.dma rrecvS.sem) (.remote (Dev.tc n : Thread nD τ) (rhM : Memref sig .tc .vmem S1x256 .f32) (.dma rsendS.sem) hsc)}
    {α : Type} {Q : α → sProp 𝕄} {k : PUnit → Prog (TpuEff nD τ sig (Elt F) Λ₀ .tc) α}
    (fn : Buf (Elt F) ((rhM : Memref sig .tc .vmem S1x256 .f32).view.loc (rowPeer c : Thread nD τ))) (W : Waits sig Unit)
    (O₀ O : CellTallies nD τ sig Unit) (hO : O₀ = O + tallyAt (rrecvCell (rowPeer c)) () N) :
    iprop(cellInv ER (haloRd m ρ) (K (c, 1)) (rsendCell c) ∗ cellInv ER (haloRd m ρ) (K (rowPeer c, 2)) (rrecvCell (rowPeer c))
        ∗ ((rsM : Memref sig .tc .vmem S1x256 .f32).view.loc (c : Thread nD τ) ↦[(rsM : Memref sig .tc .vmem S1x256 .f32).view.set]{fullShare} rowStg m ρ c)
        ∗ ((rhM : Memref sig .tc .vmem S1x256 .f32).view.loc (rowPeer c : Thread nD τ) ↦[(rhM : Memref sig .tc .vmem S1x256 .f32).view.set]{fullShare} fn)
        ∗ owes (c : Thread nD τ) O₀ W
        ∗ dutyTok ER (rsendCell c) 0 false ∗ reached ER (rsendCell c) 0
        ∗ dutyTok ER (rrecvCell (rowPeer c)) 0 false ∗ reached ER (rrecvCell (rowPeer c)) 0)
      ⊢ iprop(((cred (tallyAt (rsendCell c) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma rsM (.remote (Dev.tc n : Thread nD τ) rhM (.dma rsendS.sem) hsc) (.dma rrecvS.sem) hsrc hdst hsem) k) Q) := by
  subst hn
  exact Rounds.wp_send_pointsTo 𝒱₀ ER (haloRd m ρ) (c : Thread nD τ) none (κ₁ := K (c, 1)) (κ₂ := K (rowPeer c, 2))
    (r₁ := 0) (r₂ := 0) (d₁ := false) (d₂ := false) (fd := fn)
    (by rw [duties_rsend]; exact Finset.mem_singleton_self _) (by rw [duties_rrecv]; exact Finset.mem_singleton_self _)
    () () N rfl (amount_rsend m ρ c false) (amount_rrecv m ρ (rowPeer c) false) O hO (W := W)
    (by rw [pay_rsend])
    (by rw [pay_rrecv_peer, row_landed_eq])

theorem wp_send_col (c n : Dev nD) (hn : n = colPeer c)
    {hsc : (chM : Memref sig (Dev.tc n : Thread nD τ).2.kind .vmem S1x256 .f32).view.ref.isScScratch = false}
    {hsrc : (csM : Memref sig .tc .vmem S1x256 .f32).view.WordExact} {hdst : (chM : Memref sig .tc .vmem S1x256 .f32).view.WordExact}
    {hsem : DmaTarget.Typed .vmem (.dma crecvS.sem) (.remote (Dev.tc n : Thread nD τ) (chM : Memref sig .tc .vmem S1x256 .f32) (.dma csendS.sem) hsc)}
    {α : Type} {Q : α → sProp 𝕄} {k : PUnit → Prog (TpuEff nD τ sig (Elt F) Λ₀ .tc) α}
    (fn : Buf (Elt F) ((chM : Memref sig .tc .vmem S1x256 .f32).view.loc (colPeer c : Thread nD τ))) (W : Waits sig Unit)
    (O₀ O : CellTallies nD τ sig Unit) (hO : O₀ = O + tallyAt (crecvCell (colPeer c)) () N) :
    iprop(cellInv ER (haloRd m ρ) (K (c, 3)) (csendCell c) ∗ cellInv ER (haloRd m ρ) (K (colPeer c, 4)) (crecvCell (colPeer c))
        ∗ ((csM : Memref sig .tc .vmem S1x256 .f32).view.loc (c : Thread nD τ) ↦[(csM : Memref sig .tc .vmem S1x256 .f32).view.set]{fullShare} colStg m ρ c)
        ∗ ((chM : Memref sig .tc .vmem S1x256 .f32).view.loc (colPeer c : Thread nD τ) ↦[(chM : Memref sig .tc .vmem S1x256 .f32).view.set]{fullShare} fn)
        ∗ owes (c : Thread nD τ) O₀ W
        ∗ dutyTok ER (csendCell c) 0 false ∗ reached ER (csendCell c) 0
        ∗ dutyTok ER (crecvCell (colPeer c)) 0 false ∗ reached ER (crecvCell (colPeer c)) 0)
      ⊢ iprop(((cred (tallyAt (csendCell c) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma csM (.remote (Dev.tc n : Thread nD τ) chM (.dma csendS.sem) hsc) (.dma crecvS.sem) hsrc hdst hsem) k) Q) := by
  subst hn
  exact Rounds.wp_send_pointsTo 𝒱₀ ER (haloRd m ρ) (c : Thread nD τ) none (κ₁ := K (c, 3)) (κ₂ := K (colPeer c, 4))
    (r₁ := 0) (r₂ := 0) (d₁ := false) (d₂ := false) (fd := fn)
    (by rw [duties_csend]; exact Finset.mem_singleton_self _) (by rw [duties_crecv]; exact Finset.mem_singleton_self _)
    () () N rfl (amount_csend m ρ c false) (amount_crecv m ρ (colPeer c) false) O hO (W := W)
    (by rw [pay_csend])
    (by rw [pay_crecv_peer, col_landed_eq])

/-! ## The body -/

attribute [local sl_canon] dev1_eq dev2_eq dev3_eq dev4_eq
attribute [local sl_rounds] duties_bar2 duties_rsend duties_rrecv duties_csend duties_crecv amount_bar amount_rsend amount_rrecv amount_csend amount_crecv
  expect_bar expect_rsend expect_rrecv expect_csend expect_crecv pay_bar_false pay_bar_true pay_rrecv pay_crecv pay_rsend pay_csend
attribute [local sl_rounds high] pay_bar_false_peer pay_bar_true_peer pay_rrecv_peer pay_crecv_peer

set_option maxHeartbeats 6400000 in
/-- One device's body from `bodyPre` to `bodyPost`, at each of the four mesh positions by the same steps: the position
    decides every conditional, and the body is then a straight line. In order: the two signals (each peer is handed this
    device's own halo and that its receive cell stands at round 0), the two stagings, the barrier wait (both peers'
    halos come with it), the two transfers (each pays the peer's receive duty with the staged line landed), the plain
    update, the four waits, the four own cells closed, the two patches and the two rim lines. -/
theorem sound_body (c : Dev nD) :
    bodyPre m ρ K c
      ⊢ wp frame (wpE (defs₀ (F := F)) 𝒱₀ c none) Set.univ
          (cc0_body xM (Memref.isWhole_whole _) oM (Memref.isWhole_whole _) rhM (Memref.isWhole_whole _) chM (Memref.isWhole_whole _)
            rsM (Memref.isWhole_whole _) csM (Memref.isWhole_whole _) rsendS rrecvS csendS crecvS) (fun _ => bodyPost m ρ c) := by
  by_cases hr : c.val / 2 = 0 <;> by_cases hc : c.val % 2 = 0 <;> (

    rw [cc0_body_eq_skeleton]; unfold cc0_body_skel
    rw [k0_part1_eq_skeleton, k0_part2_eq_skeleton, k0_part3_eq_skeleton]
    unfold k0_part1_skel k0_part2_skel k0_part3_skel
    simp only [semSignalWord, semWaitWord, Prog.lift, Prog.bind_op, Prog.bind_ret, Prog.pure_eq_ret, wp_deviceId, dev1_eq, dev2_eq, dev3_eq, dev4_eq,
      cond_r0, cond_r1, cond_c0, cond_c1, hr, hc, not_true_eq_false, not_false_eq_true, ↓reduceDIte]
    unfold bodyPre ghost invs
    iintro ⟨⟨⟨⟨#HIbar, #HIrs, #HIrr, #HIcs, #HIcr, #HIbarR, #HIbarC, #HIrrP, #HIcrP⟩, HatB, HatRS, HatRR, HatCS, HatCR,
        #HrBR, #HrBC, #HrRRp, #HrCRp, #HrRS, #HrRR, #HrCS, #HrCR, HtBR, HtBC, HtRRp, HtCRp, HtRS, HtCS⟩,
        HcB, HcRR, HcCR, #Hlev, ⟨%frh, Hrh⟩, ⟨%fch, Hch⟩, ⟨%frs, Hrs⟩, ⟨%fcs, Hcs⟩⟩,
      Ho, ⟨%d0, %g0, %hg0, Hx⟩, ⟨%d1, %g1, %hg1, Hout⟩⟩
    have hx : g0 = xstg m ρ c := by rw [hg0]; unfold Dat.before; rw [if_pos (fetch_0 t₀)]; rfl
    subst hx
    unfold Dat.owesAt Pipeline.owesWithin
    icases Ho with ⟨%W, %hW, HO⟩
    rw [show (dats m ρ 0 c).owed t₀.castSucc = O₀ c from rfl]
    unfold O₀ O₁ O₂ O₃ rhPts chPts rsPts csPts
    ihave Hx := (Entails.of_eq (xPts_eq c _).symm) $$ Hx
    ihave Hout := (Entails.of_eq (oPts_eq c _).symm) $$ Hout
    unfold xPts oPts
    have hmw : (levAts L lv : sProp 𝕄) ⊢ MayWait (c : Thread nD τ) (.reg barS) ()
        (tallyAt (crecvCell (colPeer c)) () N + tallyAt (rrecvCell (rowPeer c)) () N) := mayWait_bar c
    sl_exec (disch := simp only [dev3_eq, dev4_eq])
    ihave Hp := (Entails.of_eq (sep_raw _ _)) $$ HatB_pay1
    icases Hp with ⟨⟨⟨%fnr, HrhP⟩, -⟩, ⟨%fnc, HchP⟩, -⟩
    rw [writes_rs, writes_cs]
    first | rw [rowStg_top m ρ c hr] | rw [rowStg_bot m ρ c hr]
    first | rw [colStg_left m ρ c hc] | rw [colStg_right m ρ c hc]
    iapply (wp_send_row m ρ K c _ (dev3_eq c) fnr _ _ _ rfl) $$ [Hrs HrhP HO HtRS HtRRp]
    · isplitr; · iexact HIrs
      isplitr; · iexact HIrrP
      isplitl [Hrs]; · iexact Hrs
      isplitl [HrhP]; · iexact HrhP
      isplitl [HO]; · iexact HO
      isplitl [HtRS]; · iexact HtRS
      isplitr; · iexact HrRS
      isplitl [HtRRp]; · iexact HtRRp
      iexact HrRRp
    iintro ⟨HcRS, HO⟩
    iapply (wp_send_col m ρ K c _ (dev4_eq c) fnc _ _ 0 (zero_add _).symm) $$ [Hcs HchP HO HtCS HtCRp]
    · isplitr; · iexact HIcs
      isplitr; · iexact HIcrP
      isplitl [Hcs]; · iexact Hcs
      isplitl [HchP]; · iexact HchP
      isplitl [HO]; · iexact HO
      isplitl [HtCS]; · iexact HtCS
      isplitr; · iexact HrCS
      isplitl [HtCRp]; · iexact HtCRp
      iexact HrCRp
    iintro ⟨HcCS, HO⟩
    sl_exec
    imod (Rounds.cell_close ER (haloRd m ρ) (Set.mem_univ (K (c, 1))) (fun h => h) (R := 1) (duties_later m ρ (rsendCell c))) $$ [HatRS] with HzRS
    · isplitr; · iexact HIrs
      iexact HatRS
    imod (Rounds.cell_close ER (haloRd m ρ) (Set.mem_univ (K (c, 2))) (fun h => h) (R := 1) (duties_later m ρ (rrecvCell c))) $$ [HatRR] with HzRR
    · isplitr; · iexact HIrr
      iexact HatRR
    imod (Rounds.cell_close ER (haloRd m ρ) (Set.mem_univ (K (c, 3))) (fun h => h) (R := 1) (duties_later m ρ (csendCell c))) $$ [HatCS] with HzCS
    · isplitr; · iexact HIcs
      iexact HatCS
    imod (Rounds.cell_close ER (haloRd m ρ) (Set.mem_univ (K (c, 4))) (fun h => h) (R := 1) (duties_later m ρ (crecvCell c))) $$ [HatCR] with HzCR
    · isplitr; · iexact HIcr
      iexact HatCR
    sl_step
    unfold bodyPost Φ₁ Dat.owesAt Pipeline.owesWithin rhPts chPts rsPts csPts
    rw [show (dats m ρ 0 c).owed t₀.succ = 0 from rfl]
    isplitl [HatRR_pay1 HatCR_pay1 HatRS_pay1 HatCS_pay1 HzRS HzRR HzCS HzCR]
    · isplitl [HatRR_pay1]; · iexact HatRR_pay1
      isplitl [HatCR_pay1]; · iexact HatCR_pay1
      isplitl [HatRS_pay1]; · iexact HatRS_pay1
      isplitl [HatCS_pay1]; · iexact HatCS_pay1
      isplitl [HzRS]; · iexact HzRS
      isplitl [HzRR]; · iexact HzRR
      isplitl [HzCS]; · iexact HzCS
      iexact HzCR
    isplitl [HO]
    · iexists (insert (SemLoc.dma crecvS.sem, ()) (insert (SemLoc.dma csendS.sem, ()) (insert (SemLoc.dma rrecvS.sem, ())
        (insert (SemLoc.dma rsendS.sem, ()) (insert (SemLoc.reg barS, ()) W)))))
      isplitr; · ipureintro; exact fun _ _ => Or.inl trivial
      iexact HO
    isplitl [Hx]
    · iexists _; isplitr; · (ipureintro; rfl)
      iapply (Entails.of_eq (xPts_eq c _)); unfold xPts; iexact Hx
    iexists (outAt m ρ c); isplitr; · (ipureintro; rfl)
    iapply (Entails.of_eq (oPts_eq c _)); unfold oPts
    first
      | rw [← outAt_tl m ρ c hr hc g1]
      | rw [← outAt_tr m ρ c hr hc g1]
      | rw [← outAt_bl m ρ c hr hc g1]
      | rw [← outAt_br m ρ c hr hc g1]
    iexact Hout

  )

end Body

/-! ## The obligation as the pipeline states it -/

set_option maxRecDepth 4000 in
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
/-- The pipeline's body obligation on device `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body xM (Memref.isWhole_whole _) oM (Memref.isWhole_whole _) rhM (Memref.isWhole_whole _) chM (Memref.isWhole_whole _)
      rsM (Memref.isWhole_whole _) csM (Memref.isWhole_whole _) rsendS rrecvS csendS crecvS) (fun _ => bodyPost m ρ c)
  unfold bodyPre' Φ₀ start
  iintro ⟨⟨⟨⟨%K', Hg⟩, HcB, HcRR, HcCR, Hlev⟩, Hrh, Hch, Hrs, Hcs⟩, Ho, Hx, Hout⟩
  iapply (sound_body m ρ K' c)
  unfold bodyPre
  isplitl [Hg HcB HcRR HcCR Hlev Hrh Hch Hrs Hcs]
  · isplitl [Hg]; · iexact Hg
    isplitl [HcB]; · iexact HcB
    isplitl [HcRR]; · iexact HcRR
    isplitl [HcCR]; · iexact HcCR
    isplitl [Hlev]; · iexact Hlev
    isplitl [Hrh]; · iexact Hrh
    isplitl [Hch]; · iexact Hch
    isplitl [Hrs]; · iexact Hrs
    iexact Hcs
  isplitl [Ho]; · iexact Ho
  isplitl [Hx] <;> iassumption

/-- info: 'Cert.KernelIdeal.Halo.body_obligation' depends on axioms: [propext, Classical.choice, Quot.sound] -/
#guard_msgs in #print axioms body_obligation

end Cert.KernelIdeal.Halo

end
-- ==== Proof.HaloLaunch.lean ====
/-
  The launch of the halo exchange on the 2 × 2 mesh: the exchange's ghost state funded from the launch element, its
  cells' invariants allocated for all four devices under one update (the barrier cell of a device is signalled by
  both its peers), the duty tokens dealt across the two cuts of the mesh (each involution carries a device's own
  cells' tokens to the peer that pays them), the launch credit of the three cells a device waits on for others'
  units, and the run of the program from any memory with every counter at zero: each device's result array ends at
  the block its body computes, its argument array unchanged.
-/
import proofs.«900193_g7700000000000194_dist_halo2d_stencil_xy_m256_n256_v7x_xy2x2_f32_1_alg».proof.Proof.HaloProto

noncomputable section

namespace Cert.KernelIdeal.Halo

open Cert.KernelIdeal
open Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch element and what it funds -/

theorem ownSemFacts : Pipeline.OwnSemFacts cfg0.spec osem := by decide

theorem share_eq (c : Dev nD) (w : Fin cfg0.W) : (dats m ρ 0 c).share w = fullShare := by unfold Dat.share; split <;> rfl

theorem kcell_injective : Function.Injective (kcell : Dev nD × Fin 5 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
/-- The exchange's cells: five a device. -/
def haloCells : Finset (GSem nD τ sig) := Finset.univ.map ⟨kcell, kcell_injective⟩

/-- A device's own cells' duty tokens as minted: (device, which duty) — its barrier's `false` and `true`, then the
    one duty of its row send, row receive, column send and column receive cells. -/
abbrev tokOf (cj : Dev nD × Fin 6) : GSem nD τ sig × ℕ × Bool := match cj.2 with
  | 0 => (barCell cj.1, 0, false) | 1 => (barCell cj.1, 0, true) | 2 => (rsendCell cj.1, 0, false)
  | 3 => (rrecvCell cj.1, 0, false) | 4 => (csendCell cj.1, 0, false) | 5 => (crecvCell cj.1, 0, false)
theorem tokOf_injective : Function.Injective (tokOf : Dev nD × Fin 6 → GSem nD τ sig × ℕ × Bool) := by
  rintro ⟨c, j⟩ ⟨c', j'⟩ h
  have h1 : c = c' := by
    have := congrArg (fun x : GSem nD τ sig × ℕ × Bool => x.1.1.1) h
    fin_cases j <;> fin_cases j' <;> exact this
  subst h1
  have : j = j' := by
    fin_cases j <;> fin_cases j' <;> first | rfl | exact absurd (congrArg (fun x : GSem nD τ sig × ℕ × Bool => (x.1.2, x.2.2)) h) (fun h' => by cases h')
  subst this; rfl
def haloToks : Finset (GSem nD τ sig × ℕ × Bool) := Finset.univ.map ⟨tokOf, tokOf_injective⟩

def u₀ : UU :=
  (initOf (Pipeline.cells cfgs cellOf_inj) (Pipeline.launchToks cfgs cellOf_inj), initOf haloCells haloToks)

/-- The duty tokens of device `c`'s own cells. -/
def toks (c : Dev nD) : sProp 𝕄 :=
  iprop(dutyTok ER (barCell c) 0 false ∗ dutyTok ER (barCell c) 0 true ∗ dutyTok ER (rsendCell c) 0 false
    ∗ dutyTok ER (rrecvCell c) 0 false ∗ dutyTok ER (csendCell c) 0 false ∗ dutyTok ER (crecvCell c) 0 false)

/-- What the launch element deals device `c`: its five cells' round states, its positions in them with round 0 of each
    reached, and its own cells' tokens. -/
def G (c : Dev nD) : sProp 𝕄 :=
  iprop((bigSep Finset.univ fun k : Fin 5 => roundState ER (haloRd m ρ) (kcell (c, k)) 0)
    ∗ (bigSep Finset.univ fun k : Fin 5 => iprop(atPos ER (kcell (c, k)) 0 ∅ 0 ∗ reached ER (kcell (c, k)) 0)) ∗ toks c)

/-- What the global step makes of it: the ghost state the body starts from, at some names. -/
def G' (c : Dev nD) : sProp 𝕄 := iprop(∃ K, ghost m ρ K c)

omit [FloatOps F] in
theorem bigSep_fin5 (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ
omit [FloatOps F] in
theorem bigSep_fin6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

omit [FloatOps F] in
theorem fund_halo : BI.own (ER (initOf haloCells haloToks)) ⊢ (|==> bigSep Finset.univ (G m ρ) : sProp 𝕄) := by
  have hX (Φ : GSem nD τ sig → sProp 𝕄) : bigSep haloCells Φ = bigSep Finset.univ fun c : Dev nD => bigSep Finset.univ fun k : Fin 5 => Φ (kcell (c, k)) := by
    unfold haloCells; rw [bigSep_map, bigSep_univ_prod]; rfl
  have hT : bigSep haloToks (fun x => (dutyTok ER x.1 x.2.1 x.2.2 : sProp 𝕄)) = bigSep Finset.univ fun c : Dev nD => toks c := by
    unfold haloToks; rw [bigSep_map, bigSep_univ_prod]
    exact bigSep_congr fun c _ => by unfold toks; rw [bigSep_fin6]; rfl
  iintro HX
  imod (Rounds.fund ER (haloRd m ρ) haloCells haloToks) $$ HX with ⟨Hst, Hr, Hat, Htok⟩
  imodintro
  ihave Hst' := (Entails.of_eq (hX fun g => roundState ER (haloRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The global step: every device's cells allocated at once, the tokens dealt across the cuts -/

omit [FloatOps F] in
/-- The four transfer semaphores are the kernel's own; -/
theorem ownSems0_eq (c : Dev nD) : (Pipeline.ownSems0 (Ix := Unit) (Name := ℕ) (U := UU) (Lvl := ℕ) (Val := Elt F) (τ := τ) osem c : sProp 𝕄)
    = iprop(semVal (rsendCell c) 0 ∗ semVal (rrecvCell c) 0 ∗ semVal (csendCell c) 0 ∗ semVal (crecvCell c) 0) := by
  rw [Pipeline.ownSems0_eq_of_list c osem [0, 1, 2, 3] (by decide) (by decide)]; rfl
omit [FloatOps F] in
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 5 => semVal (kcell (c, k)) 0 : sProp 𝕄) := by
  rw [ownSems0_eq, unscopedSems0_eq, bigSep_fin5]
  iintro ⟨⟨H1, H2, H3, H4⟩, HB⟩
  isplitl [HB]; · iexact HB
  isplitl [H1]; · iexact H1
  isplitl [H2]; · iexact H2
  isplitl [H3]; · iexact H3
  iexact H4

omit [FloatOps F] in
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (haloRd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 5 => semVal (kcell (c, k)) 0) ∗ bigSep Finset.univ fun k : Fin 5 => roundState ER (haloRd m ρ) (kcell (c, k)) 0)
      ⊢ (|={Set.univ}=> bigSep Finset.univ fun k => iprop(∃ κ : ℕ, cellInv ER (haloRd m ρ) κ (kcell (c, k))) : sProp 𝕄) from by
        rw [← bigSep_sep']
        exact (bigSep_mono fun k _ => (Rounds.body_intro ER (haloRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The persistent part, shared by all devices: every cell's invariant at the allocated names, round 0 of every cell reached. -/
def records (K : Dev nD × Fin 5 → ℕ) : sProp 𝕄 :=
  iprop((bigSep Finset.univ fun ck : Dev nD × Fin 5 => cellInv ER (haloRd m ρ) (K ck) (kcell ck))
    ∗ bigSep Finset.univ fun ck : Dev nD × Fin 5 => reached ER (kcell ck) 0)

instance records_persistent (K : Dev nD × Fin 5 → ℕ) : BI.Persistent (records m ρ K) := by unfold records; infer_instance

omit [FloatOps F] in
theorem inv_at (K : Dev nD × Fin 5 → ℕ) (ck : Dev nD × Fin 5) :
    (bigSep Finset.univ fun ck : Dev nD × Fin 5 => (cellInv ER (haloRd m ρ) (K ck) (kcell ck) : sProp 𝕄)) ⊢ cellInv ER (haloRd m ρ) (K ck) (kcell ck) :=
  bigSep_elim (Finset.mem_univ ck)
omit [FloatOps F] in
theorem reached_at (ck : Dev nD × Fin 5) :
    (bigSep Finset.univ fun ck : Dev nD × Fin 5 => (reached ER (kcell ck) 0 : sProp 𝕄)) ⊢ reached ER (kcell ck) 0 :=
  bigSep_elim (Finset.mem_univ ck)

/-- What stays with device `c`: its positions, and the tokens of the six duties IT pays. -/
def payToks (c : Dev nD) : sProp 𝕄 :=
  iprop(dutyTok ER (barCell (rowPeer c)) 0 false ∗ dutyTok ER (barCell (colPeer c)) 0 true
    ∗ dutyTok ER (rrecvCell (rowPeer c)) 0 false ∗ dutyTok ER (crecvCell (colPeer c)) 0 false
    ∗ dutyTok ER (rsendCell c) 0 false ∗ dutyTok ER (csendCell c) 0 false)
def linear (c : Dev nD) : sProp 𝕄 :=
  iprop((atPos ER (barCell c) 0 ∅ 0 ∗ atPos ER (rsendCell c) 0 ∅ 0 ∗ atPos ER (rrecvCell c) 0 ∅ 0 ∗ atPos ER (csendCell c) 0 ∅ 0 ∗ atPos ER (crecvCell c) 0 ∅ 0)
    ∗ payToks c)

omit [FloatOps F] in
theorem ghost_intro (K : Dev nD × Fin 5 → ℕ) (c : Dev nD) : iprop(records m ρ K ∗ linear c) ⊢ G' m ρ c := by
  unfold records linear payToks G' ghost invs
  iintro ⟨⟨#HI, #HR⟩, ⟨Ha0, Ha1, Ha2, Ha3, Ha4⟩, Ht1, Ht2, Ht3, Ht4, Ht5, Ht6⟩
  iexists K
  isplitr
  · isplitr; · iapply (inv_at m ρ K (c, 0)); iexact HI
    isplitr; · iapply (inv_at m ρ K (c, 1)); iexact HI
    isplitr; · iapply (inv_at m ρ K (c, 2)); iexact HI
    isplitr; · iapply (inv_at m ρ K (c, 3)); iexact HI
    isplitr; · iapply (inv_at m ρ K (c, 4)); iexact HI
    isplitr; · iapply (inv_at m ρ K (rowPeer c, 0)); iexact HI
    isplitr; · iapply (inv_at m ρ K (colPeer c, 0)); iexact HI
    isplitr; · iapply (inv_at m ρ K (rowPeer c, 2)); iexact HI
    iapply (inv_at m ρ K (colPeer c, 4)); iexact HI
  isplitl [Ha0]; · iexact Ha0
  isplitl [Ha1]; · iexact Ha1
  isplitl [Ha2]; · iexact Ha2
  isplitl [Ha3]; · iexact Ha3
  isplitl [Ha4]; · iexact Ha4
  isplitr; · iapply (reached_at (F := F) (rowPeer c, 0)); iexact HR
  isplitr; · iapply (reached_at (F := F) (colPeer c, 0)); iexact HR
  isplitr; · iapply (reached_at (F := F) (rowPeer c, 2)); iexact HR
  isplitr; · iapply (reached_at (F := F) (colPeer c, 4)); iexact HR
  isplitr; · iapply (reached_at (F := F) (c, 1)); iexact HR
  isplitr; · iapply (reached_at (F := F) (c, 2)); iexact HR
  isplitr; · iapply (reached_at (F := F) (c, 3)); iexact HR
  isplitr; · iapply (reached_at (F := F) (c, 4)); iexact HR
  isplitl [Ht1]; · iexact Ht1
  isplitl [Ht2]; · iexact Ht2
  isplitl [Ht3]; · iexact Ht3
  isplitl [Ht4]; · iexact Ht4
  isplitl [Ht5]; · iexact Ht5
  iexact Ht6

omit [FloatOps F] in
/-- The tokens dealt across the cuts: a barrier's `false` token and the row receive's token go to the row peer, the
    barrier's `true` token and the column receive's to the column peer (each cut an involution of the devices); the
    send tokens stay. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep', bigSep_sep', bigSep_sep', bigSep_sep', bigSep_sep',
    bigSep_univ_equiv rowSwap (fun c : Dev nD => (dutyTok ER (barCell c) 0 false : sProp 𝕄)),
    bigSep_univ_equiv colSwap (fun c : Dev nD => (dutyTok ER (barCell c) 0 true : sProp 𝕄)),
    bigSep_univ_equiv rowSwap (fun c : Dev nD => (dutyTok ER (rrecvCell c) 0 false : sProp 𝕄)),
    bigSep_univ_equiv colSwap (fun c : Dev nD => (dutyTok ER (crecvCell c) 0 false : sProp 𝕄))]
  iintro ⟨H1, H2, H3, H4, H5, H6⟩
  isplitl [H1]; · iexact H1
  isplitl [H2]; · iexact H2
  isplitl [H4]; · iexact H4
  isplitl [H6]; · iexact H6
  isplitl [H3]; · iexact H3
  iexact H5

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem regroup :
    (bigSep Finset.univ fun c : Dev nD => iprop((bigSep Finset.univ fun k => iprop(∃ κ : ℕ, cellInv ER (haloRd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 5 => iprop(∃ κ : ℕ, cellInv ER (haloRd m ρ) κ (kcell ck))),
    bigSep_congr (s := Finset.univ) (fun (c : Dev nD) _ => bigSep_sep' Finset.univ (fun k : Fin 5 => (atPos ER (kcell (c, k)) 0 ∅ 0 : sProp 𝕄)) (fun k => reached ER (kcell (c, k)) 0)),
    bigSep_sep', ← bigSep_univ_prod (fun ck : Dev nD × Fin 5 => (reached ER (kcell ck) 0 : sProp 𝕄))]
  iintro ⟨HI, ⟨Hat, #HR⟩, Htok⟩
  ihave HK := (BI.bigSep_exists_pi Finset.univ (fun (ck : Dev nD × Fin 5) (κ : ℕ) => (cellInv ER (haloRd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Fin 5 => (atPos ER (kcell (c, k)) 0 ∅ 0 : sProp 𝕄)) payToks).symm).trans
      (bigSep_mono fun c _ => show _ ⊢ linear c from Entails.of_eq (by unfold linear; rw [bigSep_fin5])))
    isplitl [Hat]; · iexact Hat
    iexact Htk

omit [FloatOps F] in
/-- The global step: own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

omit [FloatOps F] in
/-- Every device owes one unit to each peer's barrier cell and a halo's credit to each peer's receive cell, and each
    cut is a bijection of the devices: so a device's launch credit is two units on its barrier cell and a halo's
    credit on each of its receive cells. -/
theorem creds (c : Dev nD) :
    (Pipeline.launchCred O₀ c : sProp 𝕄)
      ⊢ iprop(cred (tallyAt (barCell c) () 2) ∗ cred (tallyAt (rrecvCell c) () N) ∗ cred (tallyAt (crecvCell c) () N)) := by
  have e : (O₀ : Dev nD → CellTallies nD τ sig Unit)
      = fun d => ((tallyAt (crecvCell (colPeer d)) () N + tallyAt (rrecvCell (rowPeer d)) () N) + tallyAt (barCell (colPeer d)) () 1)
          + tallyAt (barCell (rowPeer d)) () 1 := rfl
  have h2 : (tallyAt (barCell c) () 2 : CellTallies nD τ sig Unit) = tallyAt (barCell c) () 1 + tallyAt (barCell c) () 1 :=
    (tallyAt_add (barCell c) () 1 1).symm
  rw [e, Pipeline.launchCred_add, Pipeline.launchCred_add, Pipeline.launchCred_add, h2]
  iintro ⟨⟨⟨HC, HR⟩, HB2⟩, HB1⟩
  ihave HC' := (Pipeline.launchCred_tallyAt (.dma crecvS.sem) colPeer colPeer colPeer_colPeer colPeer_colPeer () N c) $$ HC
  ihave HR' := (Pipeline.launchCred_tallyAt (.dma rrecvS.sem) rowPeer rowPeer rowPeer_rowPeer rowPeer_rowPeer () N c) $$ HR
  ihave HB2' := (Pipeline.launchCred_tallyAt (.reg barS) colPeer colPeer colPeer_colPeer colPeer_colPeer () 1 c) $$ HB2
  ihave HB1' := (Pipeline.launchCred_tallyAt (.reg barS) rowPeer rowPeer rowPeer_rowPeer rowPeer_rowPeer () 1 c) $$ HB1
  isplitl [HB1' HB2']
  · iapply (cred_add _ _).2
    isplitl [HB1'] <;> iassumption
  isplitl [HR']; · iexact HR'
  iexact HC'

/-! ## The launch rule's side conditions -/

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HR, HC⟩
  imodintro
  unfold start G'
  isplitl
  · isplitl [HG]; · iexact HG
    isplitl [H1]; · iexact H1
    isplitl [HR]; · iexact HR
    isplitl [HC]; · iexact HC
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, ⟨%f0, H0⟩, ⟨%f1, H1⟩, ⟨%f2, H2⟩, ⟨%f3, H3⟩⟩
  isplitl [Hs]; · iexact Hs
  isplitl [H0]; · iexists f0; rw [rhPts_eq]; iexact H0
  isplitl [H1]; · iexists f1; rw [chPts_eq]; iexact H1
  isplitl [H2]; · iexists f2; rw [rsPts_eq]; iexact H2
  iexists f3; rw [csPts_eq]; iexact H3

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ m ρ c from rfl, scopedRest0_eq, ownSems0_eq]
  unfold Φ₁
  iintro ⟨H0, H1, H2, H3, Z1, Z2, Z3, Z4⟩
  isplitr; · iempintro
  isplitl [Z1 Z2 Z3 Z4]
  · isplitl [Z1]; · iexact Z1
    isplitl [Z2]; · iexact Z2
    isplitl [Z3]; · iexact Z3
    iexact Z4
  isplitl [H0]; · iexists (rowLanded m ρ c); rw [← rhPts_eq]; iexact H0
  isplitl [H1]; · iexists (colLanded m ρ c); rw [← chPts_eq]; iexact H1
  isplitl [H2]; · iexists (rowStg m ρ c); rw [← rsPts_eq]; iexact H2
  iexists (colStg m ρ c); rw [← csPts_eq]; iexact H3

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) (by fin_cases w <;> fin_cases s <;> decide) _ (by
      rcases t with ⟨_ | _, ht⟩
      · exact Or.inl rfl
      · exact Or.inr rfl)

/-! ## The arrays after the run -/

/-- The argument array after the run holds what it held. -/
theorem finalA_x (c : Dev nD) : (dats m ρ 0 c).arrAt (0 : Fin 2) cfg0.N = m ((c.tc : Thread nD τ).loc main_arg0) :=
  (dats (F := F) m ρ 0 c).arrAt_in (0 : Fin 2) rfl _

/-- The result array after the run: the one point writes the whole block back, so it holds what the body left in the
    result's staging buffer. -/
theorem finalA_out (c : Dev nD) : (dats m ρ 0 c).arrAt (1 : Fin 2) cfg0.N = outAt m ρ c := by
  show (dats m ρ 0 c).arrAt (1 : Fin 2) ((t₀ : Fin cfg0.N).val + 1) = outAt m ρ c
  rw [Dat.arrAt_succ, flush0_1 t₀, if_pos rfl]
  exact Memref.write_access_unit_zero_univ (Elt F) main_v1 (funext fun a => Nat.zero_mul _) _ _ _

/-! ## The run -/

set_option maxRecDepth 8000 in
/-- At the compiled mesh of four devices, for any float values, from any memory with zero counters, given the body's
    obligation at every device: every weakly fair execution of @main — the four kernels handshaking with both peers on
    the runtime's barrier semaphore, then exchanging a boundary row and a boundary column — terminates, and every final
    state has each device's result array at the block its body computes and its argument array unchanged. -/
theorem run_main (m : (ℓ : Loc nD τ sig) → Buf (Elt F) ℓ) (ρ : Dev nD → PrngReg)
    (hbody : ∀ c, BodyObligation (dats (F := F) m ρ 0 c) (defs₀ (F := F)) 𝒱₀ () Set.univ) :
    θ_run defs (onTc (τ := τ) (main (F := F))) (s₀ m ρ)
      (fun r => ∀ c : Dev nD, r.2.mem ((c.tc : Thread nD τ).loc main_v1) = outAt m ρ c
                            ∧ r.2.mem ((c.tc : Thread nD τ).loc main_arg0) = m ((c.tc : Thread nD τ).loc main_arg0)) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (hbody c).loose) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_halo m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c => ⟨((h c).1 (1 : Fin 2)).trans (finalA_out m ρ c), ((h c).1 (0 : Fin 2)).trans (finalA_x m ρ c)⟩)

/-- info: 'Cert.KernelIdeal.Halo.run_main' depends on axioms: [propext, Classical.choice, Quot.sound] -/
#guard_msgs in #print axioms run_main

end Cert.KernelIdeal.Halo

end
-- ==== Proof.KHaloProto.lean ====
/-
  The halo exchange of the five-point stencil on the 2 × 2 mesh: the devices, the cells of its protocol and what each
  landing hands over, what every device owes at launch, the levels, and the data the pipeline's rule is applied with.

  Device `c` sits at mesh position (c / 2, c % 2). Its ROW peer is the device across the horizontal cut (c ± 2), its
  COLUMN peer the one across the vertical cut (c ± 1). At entry it signals both peers' barrier semaphores and waits for
  two units on its own: both peers are then inside the kernel, and each has handed over the halo buffer the transfer
  addressed to it will fill. It copies its boundary row (its last row if it is in the top half, its first otherwise)
  from the row staging buffer into the row peer's row halo, and its boundary column (transposed to a row) from the
  column staging buffer into the column peer's column halo; it waits for its two sends and its two receives.
  One round: the barrier cell has two unit duties (`false` paid by the row peer, `true` by the column peer); each of
  the four transfer cells one duty of a halo's credit. A receive's payload is the halo buffer holding the sender's
  staged row; a send's payload the staging buffer back.
-/
import proofs.«900193_g7700000000000194_dist_halo2d_stencil_xy_m256_n256_v7x_xy2x2_f32_1_alg».proof.Proof.Gen.Kernel
import proofs.«900193_g7700000000000194_dist_halo2d_stencil_xy_m256_n256_v7x_xy2x2_f32_1_alg».proof.Proof.Gen.Kernel.Skeleton
import proofs.«900193_g7700000000000194_dist_halo2d_stencil_xy_m256_n256_v7x_xy2x2_f32_1_alg».proof.Proof.Gen.Kernel.Launch
import proofs.«900193_g7700000000000194_dist_halo2d_stencil_xy_m256_n256_v7x_xy2x2_f32_1_alg».proof.Proof.Gen.Kernel.Points
import Idealize.ShloMosaic.Lib.Pipeline.Launch
import Idealize.ShloMosaic.Lib.Pipeline.Kit
import Idealize.ShloMosaic.Lib.Tactic

noncomputable section

namespace Cert.Kernel.Halo

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy (duties `Unit`) beside the exchange's (duties `Bool`) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The mesh -/

/-- The device across the horizontal cut: the same column of the mesh, the other row. -/
def rowPeer (c : Dev nD) : Dev nD := ⟨((c.val % 2) + 2) - 2 * (c.val / 2), by revert c; decide⟩
/-- The device across the vertical cut: the same row of the mesh, the other column. -/
def colPeer (c : Dev nD) : Dev nD := ⟨(2 * (c.val / 2) + 1) - (c.val % 2), by revert c; decide⟩

theorem rowPeer_rowPeer (c : Dev nD) : rowPeer (rowPeer c) = c := by revert c; decide
theorem colPeer_colPeer (c : Dev nD) : colPeer (colPeer c) = c := by revert c; decide
theorem rowPeer_ne_colPeer (c : Dev nD) : rowPeer c ≠ colPeer c := by revert c; decide
theorem rowPeer_ne (c : Dev nD) : rowPeer c ≠ c := by revert c; decide
theorem colPeer_ne (c : Dev nD) : colPeer c ≠ c := by revert c; decide
/-- Crossing the horizontal cut changes the row of the mesh and keeps the column; the vertical cut the other way. -/
theorem rowPeer_row (c : Dev nD) : (rowPeer c).val / 2 = 1 - c.val / 2 := by revert c; decide
theorem rowPeer_col (c : Dev nD) : (rowPeer c).val % 2 = c.val % 2 := by revert c; decide
theorem colPeer_row (c : Dev nD) : (colPeer c).val / 2 = c.val / 2 := by revert c; decide
theorem colPeer_col (c : Dev nD) : (colPeer c).val % 2 = 1 - c.val % 2 := by revert c; decide

/-- The kernel's device chains: both signals and both transfers name the two peers. -/
theorem dev1_eq (c : Dev nD) : (⟨k0_dev1 c, k0_dev1_lt c⟩ : Dev nD) = rowPeer c := Fin.ext (k0_dev1_eq c)
theorem dev2_eq (c : Dev nD) : (⟨k0_dev2 c, k0_dev2_lt c⟩ : Dev nD) = colPeer c := Fin.ext (k0_dev2_eq c)
theorem dev3_eq (c : Dev nD) : (⟨k0_dev3 c, k0_dev3_lt c⟩ : Dev nD) = rowPeer c := Fin.ext (k0_dev3_eq c)
theorem dev4_eq (c : Dev nD) : (⟨k0_dev4 c, k0_dev4_lt c⟩ : Dev nD) = colPeer c := Fin.ext (k0_dev4_eq c)

def rowSwap : Dev nD ≃ Dev nD := ⟨rowPeer, rowPeer, rowPeer_rowPeer, rowPeer_rowPeer⟩
def colSwap : Dev nD ≃ Dev nD := ⟨colPeer, colPeer, colPeer_colPeer, colPeer_colPeer⟩

/-! ## The memrefs and cells -/

abbrev xM : Memref sig .tc .vmem S256x256 .f32 := Memref.whole cc0_stg0_0
abbrev oM : Memref sig .tc .vmem S256x256 .f32 := Memref.whole cc0_stg1_0
/-- The row halo and the column halo (landing buffers), the row and column staging buffers (sources). -/
abbrev rhM : Memref sig .tc .vmem S1x256 .f32 := Memref.whole cc0_scratch0
abbrev chM : Memref sig .tc .vmem S1x256 .f32 := Memref.whole cc0_scratch1
abbrev rsM : Memref sig .tc .vmem S1x256 .f32 := Memref.whole cc0_scratch2
abbrev csM : Memref sig .tc .vmem S1x256 .f32 := Memref.whole cc0_scratch3

/-- The runtime's barrier semaphore of collective id 0 (unscoped); the four DMA semaphores (scoped scratch). -/
abbrev barS : Sem sig := (SemArray.scalar (sig.barrier 0 rfl) : Sems sig S_).sem
abbrev rsendS : DmaSems sig S_ := cc0_scratch4
abbrev rrecvS : DmaSems sig S_ := cc0_scratch5
abbrev csendS : DmaSems sig S_ := cc0_scratch6
abbrev crecvS : DmaSems sig S_ := cc0_scratch7

abbrev barCell (c : Dev nD) : GSem nD τ sig := ((c : Thread nD τ), .reg barS)
abbrev rsendCell (c : Dev nD) : GSem nD τ sig := ((c : Thread nD τ), .dma rsendS.sem)
abbrev rrecvCell (c : Dev nD) : GSem nD τ sig := ((c : Thread nD τ), .dma rrecvS.sem)
abbrev csendCell (c : Dev nD) : GSem nD τ sig := ((c : Thread nD τ), .dma csendS.sem)
abbrev crecvCell (c : Dev nD) : GSem nD τ sig := ((c : Thread nD τ), .dma crecvS.sem)

/-- The kernel's OWN (scoped) semaphores, as the launch rule indexes them; -/
abbrev osem : Fin 4 → SemLoc sig := fun | 0 => .dma rsendS.sem | 1 => .dma rrecvS.sem | 2 => .dma csendS.sem | 3 => .dma crecvS.sem
/-- all five of the exchange's: barrier, row send, row receive, column send, column receive. -/
abbrev csem : Fin 5 → SemLoc sig := fun | 0 => .reg barS | 1 => .dma rsendS.sem | 2 => .dma rrecvS.sem | 3 => .dma csendS.sem | 4 => .dma crecvS.sem
abbrev kcell (ck : Dev nD × Fin 5) : GSem nD τ sig := ((ck.1 : Thread nD τ), csem ck.2)

/-- A halo's credit: the units a transfer of one 1 × 256 row is worth. -/
abbrev N : ℕ := (rhM : Memref sig .tc .vmem S1x256 .f32).view.dmaCredit
theorem N_pos : 0 < N := View.dmaCredit_pos _ (by decide)

/-! ## Contents -/

abbrev XC : Type := (cc0_stg0_0 : Ref sig .tc).ty.Contents (Elt F)
abbrev VC : Type := (cc0_scratch0 : Ref sig .tc).ty.Contents (Elt F)

/-- The rectangles the body reads and writes: the whole block, a row, a column, a whole halo, an entry of a halo. -/
abbrev rFull : Rect S256x256 := Rect.unit (s := S256x256) ![0, 0] S256x256.size inb_S256x256_S256x256_0_0
abbrev rRow0 : Rect S256x256 := Rect.unit (s := S256x256) ![0, 0] S1x256.size inb_S256x256_S1x256_0_0
abbrev rRow1 : Rect S256x256 := Rect.unit (s := S256x256) ![1, 0] S1x256.size inb_S256x256_S1x256_1_0
abbrev rRow254 : Rect S256x256 := Rect.unit (s := S256x256) ![254, 0] S1x256.size inb_S256x256_S1x256_254_0
abbrev rRow255 : Rect S256x256 := Rect.unit (s := S256x256) ![255, 0] S1x256.size inb_S256x256_S1x256_255_0
abbrev rCol0 : Rect S256x256 := Rect.unit (s := S256x256) ![0, 0] S256x1.size inb_S256x256_S256x1_0_0
abbrev rCol1 : Rect S256x256 := Rect.unit (s := S256x256) ![0, 1] S256x1.size inb_S256x256_S256x1_0_1
abbrev rCol254 : Rect S256x256 := Rect.unit (s := S256x256) ![0, 254] S256x1.size inb_S256x256_S256x1_0_254
abbrev rCol255 : Rect S256x256 := Rect.unit (s := S256x256) ![0, 255] S256x1.size inb_S256x256_S256x1_0_255
abbrev rVec : Rect S1x256 := Rect.unit (s := S1x256) ![0, 0] S1x256.size inb_S1x256_S1x256_0_0
abbrev rPt0 : Rect S1x256 := Rect.unit (s := S1x256) ![0, 0] S1x1.size inb_S1x256_S1x1_0_0
abbrev rPt255 : Rect S1x256 := Rect.unit (s := S1x256) ![0, 255] S1x1.size inb_S1x256_S1x1_0_255

/-- Device `c`'s block of `x`, as the pipeline stages it. -/
def xstg (c : Dev nD) : XC (F := F) :=
  (win0_0.blk (0 : Fin 1)).view.read (Elt F) ((s₀ m ρ).mem ((c : Thread nD τ).loc main_arg0))

/-- What device `c` stages for its row peer: its last row in the top half of the mesh, its first row in the bottom half. -/
def rowStg (c : Dev nD) : VC (F := F) :=
  if c.val / 2 = 0 then k0_pay2 ((xM : Memref sig .tc .vmem S256x256 .f32).view.readAt (Elt F) rRow255.toLoadRect (xstg m ρ c))
  else k0_pay3 ((xM : Memref sig .tc .vmem S256x256 .f32).view.readAt (Elt F) rRow0.toLoadRect (xstg m ρ c))
/-- What it stages for its column peer: its last column in the left half, its first in the right half, as a row. -/
def colStg (c : Dev nD) : VC (F := F) :=
  if c.val % 2 = 0 then k0_pay4 ((xM : Memref sig .tc .vmem S256x256 .f32).view.readAt (Elt F) rCol255.toLoadRect (xstg m ρ c))
  else k0_pay5 ((xM : Memref sig .tc .vmem S256x256 .f32).view.readAt (Elt F) rCol0.toLoadRect (xstg m ρ c))

/-- What lands in device `c`'s halos: its peers' staged rows. -/
def rowLanded (c : Dev nD) : VC (F := F) := rowStg m ρ (rowPeer c)
def colLanded (c : Dev nD) : VC (F := F) := colStg m ρ (colPeer c)

/-- Reading the block, a halo. -/
abbrev xld (r : Rect S256x256) (f : XC (F := F)) := (xM : Memref sig .tc .vmem S256x256 .f32).view.readAt (Elt F) r.toLoadRect f
abbrev rhld (r : Rect S1x256) (f : VC (F := F)) := (rhM : Memref sig .tc .vmem S1x256 .f32).view.readAt (Elt F) r.toLoadRect f
abbrev chld (r : Rect S1x256) (f : VC (F := F)) := (chM : Memref sig .tc .vmem S1x256 .f32).view.readAt (Elt F) r.toLoadRect f

/-- What the body leaves in the result's staging buffer on device `c`: the plain update of the whole block (its rim rows
    and columns taking the block's own edge as the missing neighbour), then the row next to the row peer patched with
    the row halo, the column next to the column peer patched with the column halo (the corner they share is written
    twice, the second time with both halos), then the two rim lines of the WHOLE array copied from `x`. -/
def outAt (c : Dev nD) : XC (F := F) :=
  let x := xstg m ρ c
  let rh := rowLanded m ρ c
  let ch := colLanded m ρ c
  let o1 : XC (F := F) := k0_pay6 (xld rFull x)
  let o2 : XC (F := F) :=
    if c.val / 2 = 0 then
      ((oM : Memref sig .tc .vmem S256x256 .f32).access rRow255 : View sig .tc _ _ _).write (Elt F) o1
        (k0_pay8 (xld rRow254 x) (rhld rVec rh) (xld rRow255 x) (chld rPt255 ch)) Finset.univ
    else
      ((oM : Memref sig .tc .vmem S256x256 .f32).access rRow0 : View sig .tc _ _ _).write (Elt F) o1
        (k0_pay9 (rhld rVec rh) (xld rRow1 x) (xld rRow0 x) (chld rPt0 ch)) Finset.univ
  let o3 : XC (F := F) :=
    if c.val % 2 = 0 then
      ((oM : Memref sig .tc .vmem S256x256 .f32).access rCol255 : View sig .tc _ _ _).write (Elt F) o2
        (k0_pay10 (chld rVec ch) (xld rCol254 x) (xld rCol255 x) (rhld rPt255 rh)) Finset.univ
    else
      ((oM : Memref sig .tc .vmem S256x256 .f32).access rCol0 : View sig .tc _ _ _).write (Elt F) o2
        (k0_pay11 (chld rVec ch) (xld rCol1 x) (xld rCol0 x) (rhld rPt0 rh)) Finset.univ
  let o4 : XC (F := F) :=
    if c.val / 2 = 0 then
      ((oM : Memref sig .tc .vmem S256x256 .f32).access rRow0 : View sig .tc _ _ _).write (Elt F) o3 (k0_pay12 (xld rRow0 x)) Finset.univ
    else
      ((oM : Memref sig .tc .vmem S256x256 .f32).access rRow255 : View sig .tc _ _ _).write (Elt F) o3 (k0_pay13 (xld rRow255 x)) Finset.univ
  if c.val % 2 = 0 then
    ((oM : Memref sig .tc .vmem S256x256 .f32).access rCol0 : View sig .tc _ _ _).write (Elt F) o4 (k0_pay14 (xld rCol0 x)) Finset.univ
  else
    ((oM : Memref sig .tc .vmem S256x256 .f32).access rCol255 : View sig .tc _ _ _).write (Elt F) o4 (k0_pay1 (xld rCol255 x)) Finset.univ

/-! ## The scratch buffers as points-to facts -/

def rhPts (c : Dev nD) (f : Buf (Elt F) ((rhM : Memref sig .tc .vmem S1x256 .f32).view.loc (c : Thread nD τ))) : sProp 𝕄 :=
  (rhM : Memref sig .tc .vmem S1x256 .f32).view.loc (c : Thread nD τ) ↦[(rhM : Memref sig .tc .vmem S1x256 .f32).view.set]{fullShare} f
def chPts (c : Dev nD) (f : Buf (Elt F) ((chM : Memref sig .tc .vmem S1x256 .f32).view.loc (c : Thread nD τ))) : sProp 𝕄 :=
  (chM : Memref sig .tc .vmem S1x256 .f32).view.loc (c : Thread nD τ) ↦[(chM : Memref sig .tc .vmem S1x256 .f32).view.set]{fullShare} f
def rsPts (c : Dev nD) (f : Buf (Elt F) ((rsM : Memref sig .tc .vmem S1x256 .f32).view.loc (c : Thread nD τ))) : sProp 𝕄 :=
  (rsM : Memref sig .tc .vmem S1x256 .f32).view.loc (c : Thread nD τ) ↦[(rsM : Memref sig .tc .vmem S1x256 .f32).view.set]{fullShare} f
def csPts (c : Dev nD) (f : Buf (Elt F) ((csM : Memref sig .tc .vmem S1x256 .f32).view.loc (c : Thread nD τ))) : sProp 𝕄 :=
  (csM : Memref sig .tc .vmem S1x256 .f32).view.loc (c : Thread nD τ) ↦[(csM : Memref sig .tc .vmem S1x256 .f32).view.set]{fullShare} f

omit [FloatOps F] in
instance rhPts_storable (c : Dev nD) (f) : BI.Storable (upEmb : UEmb _ 𝕄) (rhPts (F := F) c f) := by unfold rhPts; infer_instance
omit [FloatOps F] in
instance chPts_storable (c : Dev nD) (f) : BI.Storable (upEmb : UEmb _ 𝕄) (chPts (F := F) c f) := by unfold chPts; infer_instance
omit [FloatOps F] in
instance rsPts_storable (c : Dev nD) (f) : BI.Storable (upEmb : UEmb _ 𝕄) (rsPts (F := F) c f) := by unfold rsPts; infer_instance
omit [FloatOps F] in
instance csPts_storable (c : Dev nD) (f) : BI.Storable (upEmb : UEmb _ 𝕄) (csPts (F := F) c f) := by unfold csPts; infer_instance

omit [FloatOps F] in
theorem rhPts_eq (c : Dev nD) (f : Buf (Elt F) ((c : Thread nD τ).loc cc0_scratch0)) :
    rhPts c f = (((c : Thread nD τ).loc cc0_scratch0) ↦{fullShare} f : sProp 𝕄) := by unfold rhPts; rw [View.set_whole]
omit [FloatOps F] in
theorem chPts_eq (c : Dev nD) (f : Buf (Elt F) ((c : Thread nD τ).loc cc0_scratch1)) :
    chPts c f = (((c : Thread nD τ).loc cc0_scratch1) ↦{fullShare} f : sProp 𝕄) := by unfold chPts; rw [View.set_whole]
omit [FloatOps F] in
theorem rsPts_eq (c : Dev nD) (f : Buf (Elt F) ((c : Thread nD τ).loc cc0_scratch2)) :
    rsPts c f = (((c : Thread nD τ).loc cc0_scratch2) ↦{fullShare} f : sProp 𝕄) := by unfold rsPts; rw [View.set_whole]
omit [FloatOps F] in
theorem csPts_eq (c : Dev nD) (f : Buf (Elt F) ((c : Thread nD τ).loc cc0_scratch3)) :
    csPts c f = (((c : Thread nD τ).loc cc0_scratch3) ↦{fullShare} f : sProp 𝕄) := by unfold csPts; rw [View.set_whole]

/-- A transfer of a whole staging buffer into a whole halo leaves the halo holding the staging buffer's contents. -/
theorem row_landed_eq (c : Dev nD) (fd : Buf (Elt F) ((rhM : Memref sig .tc .vmem S1x256 .f32).view.loc (c : Thread nD τ))) (fs : VC (F := F)) :
    (rhM : Memref sig .tc .vmem S1x256 .f32).view.write (Elt F) fd ((rsM : Memref sig .tc .vmem S1x256 .f32).view.read (Elt F) fs) Finset.univ = fs := by
  show (View.whole cc0_scratch0).write (Elt F) fd ((View.whole cc0_scratch2).read (Elt F) fs) Finset.univ = fs
  rw [View.read_whole]
  exact View.write_whole_univ _ _ _
theorem col_landed_eq (c : Dev nD) (fd : Buf (Elt F) ((chM : Memref sig .tc .vmem S1x256 .f32).view.loc (c : Thread nD τ))) (fs : VC (F := F)) :
    (chM : Memref sig .tc .vmem S1x256 .f32).view.write (Elt F) fd ((csM : Memref sig .tc .vmem S1x256 .f32).view.read (Elt F) fs) Finset.univ = fs := by
  show (View.whole cc0_scratch1).write (Elt F) fd ((View.whole cc0_scratch3).read (Elt F) fs) Finset.univ = fs
  rw [View.read_whole]
  exact View.write_whole_univ _ _ _

/-! ## The schedule -/

/-- What the row peer's signal (duty `false` of `c`'s barrier cell) hands `c`: the row peer's row halo, and that the row
    peer has reached round 0 of its row-receive cell — what the transfer into it needs. The column peer's (duty `true`)
    likewise with the column halo. -/
def barPayR (c : Dev nD) : sProp 𝕄 := iprop((∃ f, rhPts (rowPeer c) f) ∗ reached ER (rrecvCell (rowPeer c)) 0)
def barPayC (c : Dev nD) : sProp 𝕄 := iprop((∃ f, chPts (colPeer c) f) ∗ reached ER (crecvCell (colPeer c)) 0)
def rrecvPay (c : Dev nD) : sProp 𝕄 := rhPts c (rowLanded m ρ c)
def crecvPay (c : Dev nD) : sProp 𝕄 := chPts c (colLanded m ρ c)
def rsendPay (c : Dev nD) : sProp 𝕄 := rsPts c (rowStg m ρ c)
def csendPay (c : Dev nD) : sProp 𝕄 := csPts c (colStg m ρ c)

abbrev IsBar (g : GSem nD τ sig) : Prop := g.1.2 = .tc ∧ g.2 = .reg barS
abbrev IsXfer (g : GSem nD τ sig) : Prop :=
  g.1.2 = .tc ∧ (g.2 = .dma rsendS.sem ∨ g.2 = .dma rrecvS.sem ∨ g.2 = .dma csendS.sem ∨ g.2 = .dma crecvS.sem)

/-- One round, round 0: a barrier cell has the two unit duties `false` (from the row peer) and `true` (from the column
    peer); each transfer cell the duty `false` of a halo's credit. -/
def haloRd : Rounds.Schedule (GSem nD τ sig) Bool 𝕄 where
  duties g r := if r = 0 ∧ IsBar g then Finset.univ else if r = 0 ∧ IsXfer g then {false} else ∅
  unitless _ := False
  amount g _ _ := if g.2 = .reg barS then 1 else N
  payload g _ d :=
    if g.2 = .reg barS then (if d then barPayC g.1.1 else barPayR g.1.1)
    else if g.2 = .dma rrecvS.sem then rrecvPay m ρ g.1.1
    else if g.2 = .dma rsendS.sem then rsendPay m ρ g.1.1
    else if g.2 = .dma crecvS.sem then crecvPay m ρ g.1.1
    else if g.2 = .dma csendS.sem then csendPay m ρ g.1.1
    else iprop(emp)
  amount_pos g _ _ _ := by
    by_cases h : g.2 = .reg barS
    · rw [if_pos h]; exact Nat.one_pos
    · rw [if_neg h]; exact N_pos

instance haloRd_payload_storable (g : GSem nD τ sig) (r : ℕ) (d : Bool) :
    BI.Storable (upEmb : UEmb _ 𝕄) ((haloRd (F := F) m ρ).payload g r d) := by
  show BI.Storable upEmb (if g.2 = .reg barS then (if d then barPayC g.1.1 else barPayR g.1.1)
    else if g.2 = .dma rrecvS.sem then rrecvPay m ρ g.1.1
    else if g.2 = .dma rsendS.sem then rsendPay m ρ g.1.1
    else if g.2 = .dma crecvS.sem then crecvPay m ρ g.1.1
    else if g.2 = .dma csendS.sem then csendPay m ρ g.1.1
    else iprop(emp))
  unfold barPayR barPayC rrecvPay rsendPay crecvPay csendPay
  (repeat' split) <;> infer_instance

section Sched
variable (c : Dev nD)

theorem rsend_ne_bar : (SemLoc.dma rsendS.sem : SemLoc sig) ≠ .reg barS := fun h => by cases h
theorem rrecv_ne_bar : (SemLoc.dma rrecvS.sem : SemLoc sig) ≠ .reg barS := fun h => by cases h
theorem csend_ne_bar : (SemLoc.dma csendS.sem : SemLoc sig) ≠ .reg barS := fun h => by cases h
theorem crecv_ne_bar : (SemLoc.dma crecvS.sem : SemLoc sig) ≠ .reg barS := fun h => by cases h
theorem rsend_ne_rrecv : (SemLoc.dma rsendS.sem : SemLoc sig) ≠ .dma rrecvS.sem := by decide
theorem crecv_ne_rrecv : (SemLoc.dma crecvS.sem : SemLoc sig) ≠ .dma rrecvS.sem := by decide
theorem crecv_ne_rsend : (SemLoc.dma crecvS.sem : SemLoc sig) ≠ .dma rsendS.sem := by decide
theorem csend_ne_rrecv : (SemLoc.dma csendS.sem : SemLoc sig) ≠ .dma rrecvS.sem := by decide
theorem csend_ne_rsend : (SemLoc.dma csendS.sem : SemLoc sig) ≠ .dma rsendS.sem := by decide
theorem csend_ne_crecv : (SemLoc.dma csendS.sem : SemLoc sig) ≠ .dma crecvS.sem := by decide

omit [FloatOps F] in
theorem duties_bar : (haloRd (F := F) m ρ).duties (barCell c) 0 = Finset.univ := by dsimp only [haloRd]; exact if_pos ⟨rfl, rfl, rfl⟩
omit [FloatOps F] in
theorem duties_rsend : (haloRd (F := F) m ρ).duties (rsendCell c) 0 = {false} := by
  dsimp only [haloRd]; rw [if_neg (fun h => rsend_ne_bar h.2.2)]; exact if_pos ⟨rfl, rfl, .inl rfl⟩
omit [FloatOps F] in
theorem duties_rrecv : (haloRd (F := F) m ρ).duties (rrecvCell c) 0 = {false} := by
  dsimp only [haloRd]; rw [if_neg (fun h => rrecv_ne_bar h.2.2)]; exact if_pos ⟨rfl, rfl, .inr (.inl rfl)⟩
omit [FloatOps F] in
theorem duties_csend : (haloRd (F := F) m ρ).duties (csendCell c) 0 = {false} := by
  dsimp only [haloRd]; rw [if_neg (fun h => csend_ne_bar h.2.2)]; exact if_pos ⟨rfl, rfl, .inr (.inr (.inl rfl))⟩
omit [FloatOps F] in
theorem duties_crecv : (haloRd (F := F) m ρ).duties (crecvCell c) 0 = {false} := by
  dsimp only [haloRd]; rw [if_neg (fun h => crecv_ne_bar h.2.2)]; exact if_pos ⟨rfl, rfl, .inr (.inr (.inr rfl))⟩
omit [FloatOps F] in
theorem duties_later (g : GSem nD τ sig) : ∀ r, 1 ≤ r → (haloRd (F := F) m ρ).duties g r = ∅ :=
  fun r hr => by dsimp only [haloRd]; rw [if_neg fun h => by omega, if_neg fun h => by omega]

omit [FloatOps F] in
theorem amount_bar (d : Bool) : (haloRd (F := F) m ρ).amount (barCell c) 0 d = 1 := by dsimp only [haloRd]; exact if_pos rfl
omit [FloatOps F] in
theorem amount_rsend (d : Bool) : (haloRd (F := F) m ρ).amount (rsendCell c) 0 d = N := by dsimp only [haloRd]; exact if_neg rsend_ne_bar
omit [FloatOps F] in
theorem amount_rrecv (d : Bool) : (haloRd (F := F) m ρ).amount (rrecvCell c) 0 d = N := by dsimp only [haloRd]; exact if_neg rrecv_ne_bar
omit [FloatOps F] in
theorem amount_csend (d : Bool) : (haloRd (F := F) m ρ).amount (csendCell c) 0 d = N := by dsimp only [haloRd]; exact if_neg csend_ne_bar
omit [FloatOps F] in
theorem amount_crecv (d : Bool) : (haloRd (F := F) m ρ).amount (crecvCell c) 0 d = N := by dsimp only [haloRd]; exact if_neg crecv_ne_bar

omit [FloatOps F] in
theorem expect_bar : (haloRd (F := F) m ρ).expect (barCell c) 0 = 2 := by
  unfold Schedule.expect Schedule.amountOf
  rw [duties_bar, Finset.sum_congr rfl fun d _ => amount_bar m ρ c d, Finset.sum_const, Finset.card_univ, Fintype.card_bool, smul_eq_mul]
omit [FloatOps F] in
theorem expect_rsend : (haloRd (F := F) m ρ).expect (rsendCell c) 0 = N := by
  unfold Schedule.expect Schedule.amountOf; rw [duties_rsend, Finset.sum_singleton, amount_rsend]
omit [FloatOps F] in
theorem expect_rrecv : (haloRd (F := F) m ρ).expect (rrecvCell c) 0 = N := by
  unfold Schedule.expect Schedule.amountOf; rw [duties_rrecv, Finset.sum_singleton, amount_rrecv]
omit [FloatOps F] in
theorem expect_csend : (haloRd (F := F) m ρ).expect (csendCell c) 0 = N := by
  unfold Schedule.expect Schedule.amountOf; rw [duties_csend, Finset.sum_singleton, amount_csend]
omit [FloatOps F] in
theorem expect_crecv : (haloRd (F := F) m ρ).expect (crecvCell c) 0 = N := by
  unfold Schedule.expect Schedule.amountOf; rw [duties_crecv, Finset.sum_singleton, amount_crecv]

omit [FloatOps F] in
theorem payload_bar_true : (haloRd (F := F) m ρ).payload (barCell c) 0 true = barPayC c := by dsimp only [haloRd]; rw [if_pos rfl, if_pos rfl]
omit [FloatOps F] in
theorem payload_bar_false : (haloRd (F := F) m ρ).payload (barCell c) 0 false = barPayR c := by
  dsimp only [haloRd]; rw [if_pos rfl]; exact if_neg Bool.false_ne_true
omit [FloatOps F] in
theorem payload_rrecv (d : Bool) : (haloRd (F := F) m ρ).payload (rrecvCell c) 0 d = rrecvPay m ρ c := by
  dsimp only [haloRd]; rw [if_neg rrecv_ne_bar, if_pos rfl]
omit [FloatOps F] in
theorem payload_rsend (d : Bool) : (haloRd (F := F) m ρ).payload (rsendCell c) 0 d = rsendPay m ρ c := by
  dsimp only [haloRd]; rw [if_neg rsend_ne_bar, if_neg rsend_ne_rrecv, if_pos rfl]
omit [FloatOps F] in
theorem payload_crecv (d : Bool) : (haloRd (F := F) m ρ).payload (crecvCell c) 0 d = crecvPay m ρ c := by
  dsimp only [haloRd]; rw [if_neg crecv_ne_bar, if_neg crecv_ne_rrecv, if_neg crecv_ne_rsend, if_pos rfl]
omit [FloatOps F] in
theorem payload_csend (d : Bool) : (haloRd (F := F) m ρ).payload (csendCell c) 0 d = csendPay m ρ c := by
  dsimp only [haloRd]; rw [if_neg csend_ne_bar, if_neg csend_ne_rrecv, if_neg csend_ne_rsend, if_neg csend_ne_crecv, if_pos rfl]

omit [FloatOps F] in
/-- The rest of the barrier cell's round, no duty taken: both peers' payloads. -/
theorem rest_bar : bigSep ((haloRd (F := F) m ρ).duties (barCell c) 0 \ ∅) (fun d => (haloRd (F := F) m ρ).payload (barCell c) 0 d) = iprop(barPayR c ∗ barPayC c) := by
  rw [Finset.sdiff_empty, duties_bar, bigSep_univ_eq_bigSepL [false, true] (by decide) (by decide), bigSepL_cons_cons, bigSepL_singleton,
    payload_bar_false, payload_bar_true]
  rfl
omit [FloatOps F] in
theorem rest_rsend : bigSep ((haloRd (F := F) m ρ).duties (rsendCell c) 0 \ ∅) (fun d => (haloRd (F := F) m ρ).payload (rsendCell c) 0 d) = rsendPay m ρ c := by
  rw [Finset.sdiff_empty, duties_rsend, bigSep_singleton, payload_rsend]
omit [FloatOps F] in
theorem rest_rrecv : bigSep ((haloRd (F := F) m ρ).duties (rrecvCell c) 0 \ ∅) (fun d => (haloRd (F := F) m ρ).payload (rrecvCell c) 0 d) = rrecvPay m ρ c := by
  rw [Finset.sdiff_empty, duties_rrecv, bigSep_singleton, payload_rrecv]
omit [FloatOps F] in
theorem rest_csend : bigSep ((haloRd (F := F) m ρ).duties (csendCell c) 0 \ ∅) (fun d => (haloRd (F := F) m ρ).payload (csendCell c) 0 d) = csendPay m ρ c := by
  rw [Finset.sdiff_empty, duties_csend, bigSep_singleton, payload_csend]
omit [FloatOps F] in
theorem rest_crecv : bigSep ((haloRd (F := F) m ρ).duties (crecvCell c) 0 \ ∅) (fun d => (haloRd (F := F) m ρ).payload (crecvCell c) 0 d) = crecvPay m ρ c := by
  rw [Finset.sdiff_empty, duties_crecv, bigSep_singleton, payload_crecv]

end Sched

/-! ## What each device owes at launch; the levels -/

/-- Device `c` owes each peer's receive cell a halo's credit and each peer's barrier cell one unit — summed so that the
    body's steps peel the summands from the right: the signal to the row peer, the signal to the column peer, the row
    transfer, the column transfer. -/
def O₃ (c : Dev nD) : CellTallies nD τ sig Unit := tallyAt (crecvCell (colPeer c)) () N
def O₂ (c : Dev nD) : CellTallies nD τ sig Unit := O₃ c + tallyAt (rrecvCell (rowPeer c)) () N
def O₁ (c : Dev nD) : CellTallies nD τ sig Unit := O₂ c + tallyAt (barCell (colPeer c)) () 1
def O₀ (c : Dev nD) : CellTallies nD τ sig Unit := O₁ c + tallyAt (barCell (rowPeer c)) () 1

def L (g : GSem nD τ sig) : Finset Unit := if g.1.2 = .tc then {()} else ∅
/-- Barrier cells at 1, receive cells at 2, everything else (staging, send) at 0. -/
def lv (g : GSem nD τ sig) (_ : Unit) : ℕ :=
  if g.2 = .reg barS then 1 else if g.2 = .dma rrecvS.sem ∨ g.2 = .dma crecvS.sem then 2 else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) (u : Unit) : lv (barCell c) u = 1 := by dsimp only [lv]; rw [if_pos rfl]
theorem lv_rrecv (c : Dev nD) (u : Unit) : lv (rrecvCell c) u = 2 := by dsimp only [lv]; rw [if_neg rrecv_ne_bar, if_pos (.inl rfl)]
theorem lv_crecv (c : Dev nD) (u : Unit) : lv (crecvCell c) u = 2 := by dsimp only [lv]; rw [if_neg crecv_ne_bar, if_pos (.inr rfl)]

theorem O₂_pos {c : Dev nD} {g : GSem nD τ sig} {u : Unit} (h : 0 < O₂ c g u) :
    g = crecvCell (colPeer c) ∨ g = rrecvCell (rowPeer c) := by
  unfold O₂ O₃ at h
  rw [Pi.add_apply, Finsupp.add_apply, tallyAt_apply, tallyAt_apply] at h
  by_contra hn
  rw [not_or] at hn
  rw [if_neg (fun h' => hn.1 h'.1), if_neg (fun h' => hn.2 h'.1)] at h
  exact Nat.lt_irrefl 0 h

theorem O₀_pos {c : Dev nD} {g : GSem nD τ sig} {u : Unit} (h : 0 < O₀ c g u) :
    g = crecvCell (colPeer c) ∨ g = rrecvCell (rowPeer c) ∨ g = barCell (colPeer c) ∨ g = barCell (rowPeer c) := by
  unfold O₀ O₁ O₂ O₃ at h
  rw [Pi.add_apply, Finsupp.add_apply, Pi.add_apply, Finsupp.add_apply, Pi.add_apply, Finsupp.add_apply,
    tallyAt_apply, tallyAt_apply, tallyAt_apply, tallyAt_apply] at h
  by_contra hn
  rw [not_or, not_or, not_or] at hn
  rw [if_neg (fun h' => hn.1 h'.1), if_neg (fun h' => hn.2.1 h'.1), if_neg (fun h' => hn.2.2.1 h'.1), if_neg (fun h' => hn.2.2.2 h'.1)] at h
  exact Nat.lt_irrefl 0 h

omit [FloatOps F] in
/-- A wait on a staging or send semaphore (level 0) is below everything a device owes at launch. -/
theorem mayWait_stage (c : Dev nD) (q : DmaSem sig) (hq : SemLoc.dma q ≠ .dma rrecvS.sem) (hq' : SemLoc.dma q ≠ .dma crecvS.sem)
    (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl | rfl | rfl <;> exact Finset.mem_singleton_self _)
      (fun p hp => by rw [Finset.mem_singleton.mp hp]; dsimp only [lv]; rw [if_neg (fun h => by cases h), if_neg (fun h => h.elim hq hq')])
      (fun g u hg => by
        rcases O₀_pos hg with rfl | rfl | rfl | rfl
        · rw [lv_crecv]; decide
        · rw [lv_rrecv]; decide
        · rw [lv_bar]; decide
        · rw [lv_bar]; decide)
  · rw [MayWait_zero]; iintro -; iempintro

omit [FloatOps F] in
/-- At its barrier wait a device owes its peers' receive credits only: receive cells, above its barrier cell. -/
theorem mayWait_bar (c : Dev nD) :
    (levAts L lv : sProp 𝕄) ⊢ MayWait (c : Thread nD τ) (.reg barS) () (O₂ c) :=
  MayOwe.of_cut (L := L) (lev := lv) 1 (fun p hp => by rw [Finset.mem_singleton.mp hp, L_tc]; exact Finset.mem_singleton_self _)
    (fun g u hg => by rcases O₂_pos hg with rfl | rfl <;> (rw [L_tc]; exact Finset.mem_singleton_self _))
    (fun p hp => by rw [Finset.mem_singleton.mp hp]; exact (lv_bar c _).le)
    (fun g u hg => by
      rcases O₂_pos hg with rfl | rfl
      · rw [lv_crecv]; decide
      · rw [lv_rrecv]; decide)

/-! ## The pipeline's data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The cells' invariants device `c`'s body opens, under the names `K` the launch allocated them at: its own five, both
    peers' barrier cells (its signals), each peer's receive cell (its transfers). -/
def invs (K : Dev nD × Fin 5 → ℕ) (c : Dev nD) : sProp 𝕄 :=
  iprop(cellInv ER (haloRd m ρ) (K (c, 0)) (barCell c) ∗ cellInv ER (haloRd m ρ) (K (c, 1)) (rsendCell c) ∗ cellInv ER (haloRd m ρ) (K (c, 2)) (rrecvCell c)
    ∗ cellInv ER (haloRd m ρ) (K (c, 3)) (csendCell c) ∗ cellInv ER (haloRd m ρ) (K (c, 4)) (crecvCell c)
    ∗ cellInv ER (haloRd m ρ) (K (rowPeer c, 0)) (barCell (rowPeer c)) ∗ cellInv ER (haloRd m ρ) (K (colPeer c, 0)) (barCell (colPeer c))
    ∗ cellInv ER (haloRd m ρ) (K (rowPeer c, 2)) (rrecvCell (rowPeer c)) ∗ cellInv ER (haloRd m ρ) (K (colPeer c, 4)) (crecvCell (colPeer c)))

instance invs_persistent (K : Dev nD × Fin 5 → ℕ) (c : Dev nD) : BI.Persistent (invs m ρ K c) := by unfold invs; infer_instance

/-- The exchange's ghost state device `c` starts from: the invariants; its positions at round 0 of its five cells; the
    reached-marks of the cells it pays and of its own transfer cells; the six duty tokens it pays with — the row
    peer's barrier duty `false`, the column peer's barrier duty `true`, each peer's receive duty, its own two send duties. -/
def ghost (K : Dev nD × Fin 5 → ℕ) (c : Dev nD) : sProp 𝕄 :=
  iprop(invs m ρ K c
    ∗ atPos ER (barCell c) 0 ∅ 0 ∗ atPos ER (rsendCell c) 0 ∅ 0 ∗ atPos ER (rrecvCell c) 0 ∅ 0 ∗ atPos ER (csendCell c) 0 ∅ 0 ∗ atPos ER (crecvCell c) 0 ∅ 0
    ∗ reached ER (barCell (rowPeer c)) 0 ∗ reached ER (barCell (colPeer c)) 0 ∗ reached ER (rrecvCell (rowPeer c)) 0 ∗ reached ER (crecvCell (colPeer c)) 0
    ∗ reached ER (rsendCell c) 0 ∗ reached ER (rrecvCell c) 0 ∗ reached ER (csendCell c) 0 ∗ reached ER (crecvCell c) 0
    ∗ dutyTok ER (barCell (rowPeer c)) 0 false ∗ dutyTok ER (barCell (colPeer c)) 0 true
    ∗ dutyTok ER (rrecvCell (rowPeer c)) 0 false ∗ dutyTok ER (crecvCell (colPeer c)) 0 false
    ∗ dutyTok ER (rsendCell c) 0 false ∗ dutyTok ER (csendCell c) 0 false)

/-- What device `c`'s body starts from: that at some names, its three credit tokens (its barrier's two units, each of
    its receive cells' credit) and the level facts. -/
def start (c : Dev nD) : sProp 𝕄 :=
  iprop((∃ K, ghost m ρ K c) ∗ cred (tallyAt (barCell c) () 2) ∗ cred (tallyAt (rrecvCell c) () N) ∗ cred (tallyAt (crecvCell c) () N) ∗ levAts L lv)

/-- Before the point: that, and the four scratch buffers at some contents. -/
def Φ₀ (c : Dev nD) : sProp 𝕄 :=
  iprop(start m ρ c ∗ (∃ f, rhPts c f) ∗ (∃ f, chPts c f) ∗ (∃ f, rsPts c f) ∗ (∃ f, csPts c f))
/-- After the point: the halos holding the peers' staged rows, the staging buffers back, the four OWN cells at zero, closed
    (the barrier cell is the runtime's: nothing to hand back). -/
def Φ₁ (c : Dev nD) : sProp 𝕄 :=
  iprop(rhPts c (rowLanded m ρ c) ∗ chPts c (colLanded m ρ c) ∗ rsPts c (rowStg m ρ c) ∗ csPts c (colStg m ρ c)
    ∗ semVal (rsendCell c) 0 ∗ semVal (rrecvCell c) 0 ∗ semVal (csendCell c) 0 ∗ semVal (crecvCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

abbrev 𝒱₀ : Variants := Variants.none

end Cert.Kernel.Halo

end
-- ==== Proof.KHaloBody.lean ====
/-
  The body obligation of the halo exchange: one device's body, stepped from what the launch deals it to what the pipeline
  expects after the point.

  The device signals both peers' barrier cells — handing the row peer its own row halo and the column peer its own column
  halo, each with the word that it stands at round 0 of the matching receive cell —, stages its boundary row and its
  boundary column (which ones: by its position in the mesh), waits for the two units on its own barrier cell while it
  still owes the two receive credits (receive cells lie above barrier cells), and so holds both peers' halos. It copies
  the staged row into the row peer's row halo and the staged column into the column peer's column halo — what lands there
  is what the peer's receive duty promises, since the peer of the peer is the device itself —, computes the plain update
  of its block, waits for its two sends and its two receives (owing nothing by then), closes its four own cells, patches
  the line next to each peer with the landed halos and copies the two rim lines of the whole array from its block.
  The contents left in the result's staging buffer are five stores, the first through the whole buffer: exactly the
  value the protocol's statement names.
-/
import proofs.«900193_g7700000000000194_dist_halo2d_stencil_xy_m256_n256_v7x_xy2x2_f32_1_alg».proof.Proof.KHaloProto
import Idealize.ShloMosaic.Lib.Exec
import Idealize.ShloMosaic.Lib.Tactic

noncomputable section

namespace Cert.Kernel.Halo

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ) (ρ : Dev nD → PrngReg)

/-! ## The printed branch conditions, decided by the device's position in the mesh -/

/-- The row coordinate of the device is 0 exactly in the top half of the mesh, 1 in the bottom half; likewise the column
    coordinate. Each printed `scf.if` tests one of these four words. -/
theorem cond_r0 (c : Dev nD) :
    (Scalar.cmpi .ne (Scalar.extui (Scalar.cmpi .eq (Scalar.remsi (Scalar.divsi (Dev.word c) 2#32) 2#32) 0#32)) 0#32 = 1#1) = (c.val / 2 = 0) := by
  revert c; decide
theorem cond_r1 (c : Dev nD) :
    (Scalar.cmpi .ne (Scalar.extui (Scalar.cmpi .eq (Scalar.remsi (Scalar.divsi (Dev.word c) 2#32) 2#32) 1#32)) 0#32 = 1#1) = ¬ (c.val / 2 = 0) := by
  revert c; decide
theorem cond_c0 (c : Dev nD) :
    (Scalar.cmpi .ne (Scalar.extui (Scalar.cmpi .eq (Scalar.remsi (Scalar.divsi (Dev.word c) 1#32) 2#32) 0#32)) 0#32 = 1#1) = (c.val % 2 = 0) := by
  revert c; decide
theorem cond_c1 (c : Dev nD) :
    (Scalar.cmpi .ne (Scalar.extui (Scalar.cmpi .eq (Scalar.remsi (Scalar.divsi (Dev.word c) 1#32) 2#32) 1#32)) 0#32 = 1#1) = ¬ (c.val % 2 = 0) := by
  revert c; decide

omit [FloatOps F] in
theorem hz : (![0, 0] : Fin 2 → Nat) = fun _ => 0 := funext fun a => by fin_cases a <;> rfl

/-! ## The schedule's tables, each payload spelt as the buffer it hands over -/

omit [FloatOps F] in
theorem duties_bar2 (c : Dev nD) : (haloRd (F := F) m ρ).duties (barCell c) 0 = {false, true} := by
  rw [duties_bar]; decide
omit [FloatOps F] in
theorem pay_bar_false (c : Dev nD) : (haloRd (F := F) m ρ).payload (barCell c) 0 false
    = iprop((∃ f, (rhM : Memref sig .tc .vmem S1x256 .f32).view.loc (rowPeer c : Thread nD τ) ↦[(rhM : Memref sig .tc .vmem S1x256 .f32).view.set]{fullShare} f)
        ∗ reached ER (rrecvCell (rowPeer c)) 0) := by
  rw [payload_bar_false]; rfl
omit [FloatOps F] in
theorem pay_bar_true (c : Dev nD) : (haloRd (F := F) m ρ).payload (barCell c) 0 true
    = iprop((∃ f, (chM : Memref sig .tc .vmem S1x256 .f32).view.loc (colPeer c : Thread nD τ) ↦[(chM : Memref sig .tc .vmem S1x256 .f32).view.set]{fullShare} f)
        ∗ reached ER (crecvCell (colPeer c)) 0) := by
  rw [payload_bar_true]; rfl
omit [FloatOps F] in
/-- What a device hands its row peer with its signal: its OWN row halo, and that it is at round 0 of its row-receive cell. -/
theorem pay_bar_false_peer (c : Dev nD) : (haloRd (F := F) m ρ).payload (barCell (rowPeer c)) 0 false
    = iprop((∃ f, (rhM : Memref sig .tc .vmem S1x256 .f32).view.loc (c : Thread nD τ) ↦[(rhM : Memref sig .tc .vmem S1x256 .f32).view.set]{fullShare} f)
        ∗ reached ER (rrecvCell c) 0) := by
  rw [payload_bar_false]; unfold barPayR rhPts; rw [rowPeer_rowPeer]
omit [FloatOps F] in
theorem pay_bar_true_peer (c : Dev nD) : (haloRd (F := F) m ρ).payload (barCell (colPeer c)) 0 true
    = iprop((∃ f, (chM : Memref sig .tc .vmem S1x256 .f32).view.loc (c : Thread nD τ) ↦[(chM : Memref sig .tc .vmem S1x256 .f32).view.set]{fullShare} f)
        ∗ reached ER (crecvCell c) 0) := by
  rw [payload_bar_true]; unfold barPayC chPts; rw [colPeer_colPeer]
omit [FloatOps F] in
theorem pay_rrecv (c : Dev nD) (d : Bool) : (haloRd (F := F) m ρ).payload (rrecvCell c) 0 d
    = ((rhM : Memref sig .tc .vmem S1x256 .f32).view.loc (c : Thread nD τ) ↦[(rhM : Memref sig .tc .vmem S1x256 .f32).view.set]{fullShare} rowLanded m ρ c) := by
  rw [payload_rrecv]; rfl
omit [FloatOps F] in
theorem pay_crecv (c : Dev nD) (d : Bool) : (haloRd (F := F) m ρ).payload (crecvCell c) 0 d
    = ((chM : Memref sig .tc .vmem S1x256 .f32).view.loc (c : Thread nD τ) ↦[(chM : Memref sig .tc .vmem S1x256 .f32).view.set]{fullShare} colLanded m ρ c) := by
  rw [payload_crecv]; rfl
omit [FloatOps F] in
theorem pay_rsend (c : Dev nD) (d : Bool) : (haloRd (F := F) m ρ).payload (rsendCell c) 0 d
    = ((rsM : Memref sig .tc .vmem S1x256 .f32).view.loc (c : Thread nD τ) ↦[(rsM : Memref sig .tc .vmem S1x256 .f32).view.set]{fullShare} rowStg m ρ c) := by
  rw [payload_rsend]; rfl
omit [FloatOps F] in
theorem pay_csend (c : Dev nD) (d : Bool) : (haloRd (F := F) m ρ).payload (csendCell c) 0 d
    = ((csM : Memref sig .tc .vmem S1x256 .f32).view.loc (c : Thread nD τ) ↦[(csM : Memref sig .tc .vmem S1x256 .f32).view.set]{fullShare} colStg m ρ c) := by
  rw [payload_csend]; rfl

omit [FloatOps F] in
/-- What lands in the row peer's halo is this device's staged row; in the column peer's, its staged column. -/
theorem pay_rrecv_peer (c : Dev nD) (d : Bool) : (haloRd (F := F) m ρ).payload (rrecvCell (rowPeer c)) 0 d
    = ((rhM : Memref sig .tc .vmem S1x256 .f32).view.loc (rowPeer c : Thread nD τ) ↦[(rhM : Memref sig .tc .vmem S1x256 .f32).view.set]{fullShare} rowStg m ρ c) := by
  rw [pay_rrecv, rowLanded, rowPeer_rowPeer]
omit [FloatOps F] in
theorem pay_crecv_peer (c : Dev nD) (d : Bool) : (haloRd (F := F) m ρ).payload (crecvCell (colPeer c)) 0 d
    = ((chM : Memref sig .tc .vmem S1x256 .f32).view.loc (colPeer c : Thread nD τ) ↦[(chM : Memref sig .tc .vmem S1x256 .f32).view.set]{fullShare} colStg m ρ c) := by
  rw [pay_crecv, colLanded, colPeer_colPeer]

/-! ## Contents: a store through the whole of a 1 × 256 buffer leaves the stored row; the staged rows by mesh position -/

omit [FloatOps F] in
theorem writes_rs (f w : (cc0_scratch2 : Ref sig .tc).ty.Contents (Elt F)) :
    (rsM : Memref sig .tc .vmem S1x256 .f32).view.writes (Elt F) f [⟨rVec, w⟩] = w := by
  show ((rsM : Memref sig .tc .vmem S1x256 .f32).access rVec : View sig .tc _ _ _).write (Elt F) f w Finset.univ = w
  exact Memref.write_access_unit_zero_univ (Elt F) cc0_scratch2 hz _ f w
omit [FloatOps F] in
theorem writes_cs (f w : (cc0_scratch3 : Ref sig .tc).ty.Contents (Elt F)) :
    (csM : Memref sig .tc .vmem S1x256 .f32).view.writes (Elt F) f [⟨rVec, w⟩] = w := by
  show ((csM : Memref sig .tc .vmem S1x256 .f32).access rVec : View sig .tc _ _ _).write (Elt F) f w Finset.univ = w
  exact Memref.write_access_unit_zero_univ (Elt F) cc0_scratch3 hz _ f w
omit [FloatOps F] in
theorem sep_raw (A B : sProp 𝕄) : BI.sep A B = iprop(A ∗ B) := rfl
theorem rowStg_top (c : Dev nD) (h : c.val / 2 = 0) : k0_pay2 (xld rRow255 (xstg m ρ c)) = rowStg m ρ c := by rw [rowStg, if_pos h]
theorem rowStg_bot (c : Dev nD) (h : ¬ c.val / 2 = 0) : k0_pay3 (xld rRow0 (xstg m ρ c)) = rowStg m ρ c := by rw [rowStg, if_neg h]
theorem colStg_left (c : Dev nD) (h : c.val % 2 = 0) : k0_pay4 (xld rCol255 (xstg m ρ c)) = colStg m ρ c := by rw [colStg, if_pos h]
theorem colStg_right (c : Dev nD) (h : ¬ c.val % 2 = 0) : k0_pay5 (xld rCol0 (xstg m ρ c)) = colStg m ρ c := by rw [colStg, if_neg h]

/-! ## The two staged windows as points-to facts through their memrefs -/

def xPts (c : Dev nD) (f : Buf (Elt F) ((xM : Memref sig .tc .vmem S256x256 .f32).view.loc (c : Thread nD τ))) : sProp 𝕄 :=
  (xM : Memref sig .tc .vmem S256x256 .f32).view.loc (c : Thread nD τ) ↦[(xM : Memref sig .tc .vmem S256x256 .f32).view.set]{fullShare} f
def oPts (c : Dev nD) (f : Buf (Elt F) ((oM : Memref sig .tc .vmem S256x256 .f32).view.loc (c : Thread nD τ))) : sProp 𝕄 :=
  (oM : Memref sig .tc .vmem S256x256 .f32).view.loc (c : Thread nD τ) ↦[(oM : Memref sig .tc .vmem S256x256 .f32).view.set]{fullShare} f
omit [FloatOps F] in
theorem xPts_eq (c : Dev nD) (f : Buf (Elt F) ((c : Thread nD τ).loc cc0_stg0_0)) :
    xPts c f = (((c : Thread nD τ).loc cc0_stg0_0) ↦{fullShare} f : sProp 𝕄) := by unfold xPts; rw [View.set_whole]
omit [FloatOps F] in
theorem oPts_eq (c : Dev nD) (f : Buf (Elt F) ((c : Thread nD τ).loc cc0_stg1_0)) :
    oPts c f = (((c : Thread nD τ).loc cc0_stg1_0) ↦{fullShare} f : sProp 𝕄) := by unfold oPts; rw [View.set_whole]

omit [FloatOps F] in
/-- The first store into the result's staging buffer goes through the whole of it: it leaves the stored block. -/
theorem write_out (f w : (cc0_stg1_0 : Ref sig .tc).ty.Contents (Elt F)) :
    ((oM : Memref sig .tc .vmem S256x256 .f32).view.slice rFull).write (Elt F) f w Finset.univ = w :=
  Memref.write_access_unit_zero_univ (Elt F) cc0_stg1_0 hz _ f w

/-! ## What the body leaves in the result's staging buffer, by mesh position

Five stores: the whole block, then four lines. The first, through the whole buffer, forgets what the buffer held. -/

omit [FloatOps F] in
theorem out_writes (g : (cc0_stg1_0 : Ref sig .tc).ty.Contents (Elt F)) (r5 r4 r3 r2 : Rect S256x256)
    (w5 : r5.shape.Idx → Elt F .f32) (w4 : r4.shape.Idx → Elt F .f32) (w3 : r3.shape.Idx → Elt F .f32) (w2 : r2.shape.Idx → Elt F .f32)
    (w1 : (cc0_stg1_0 : Ref sig .tc).ty.Contents (Elt F)) :
    (oM : Memref sig .tc .vmem S256x256 .f32).view.writes (Elt F) g [⟨r5, w5⟩, ⟨r4, w4⟩, ⟨r3, w3⟩, ⟨r2, w2⟩, ⟨rFull, w1⟩]
      = ((oM : Memref sig .tc .vmem S256x256 .f32).access r5 : View sig .tc _ _ _).write (Elt F)
          (((oM : Memref sig .tc .vmem S256x256 .f32).access r4 : View sig .tc _ _ _).write (Elt F)
            (((oM : Memref sig .tc .vmem S256x256 .f32).access r3 : View sig .tc _ _ _).write (Elt F)
              (((oM : Memref sig .tc .vmem S256x256 .f32).access r2 : View sig .tc _ _ _).write (Elt F) w1 w2 Finset.univ) w3 Finset.univ) w4 Finset.univ) w5 Finset.univ := by
  show ((oM : Memref sig .tc .vmem S256x256 .f32).access r5 : View sig .tc _ _ _).write (Elt F)
          (((oM : Memref sig .tc .vmem S256x256 .f32).access r4 : View sig .tc _ _ _).write (Elt F)
            (((oM : Memref sig .tc .vmem S256x256 .f32).access r3 : View sig .tc _ _ _).write (Elt F)
              (((oM : Memref sig .tc .vmem S256x256 .f32).access r2 : View sig .tc _ _ _).write (Elt F)
                (((oM : Memref sig .tc .vmem S256x256 .f32).view.slice rFull).write (Elt F) g w1 Finset.univ) w2 Finset.univ) w3 Finset.univ) w4 Finset.univ) w5 Finset.univ = _
  rw [write_out]

theorem outAt_tl (c : Dev nD) (hr : c.val / 2 = 0) (hc : c.val % 2 = 0) (g : (cc0_stg1_0 : Ref sig .tc).ty.Contents (Elt F)) :
    (oM : Memref sig .tc .vmem S256x256 .f32).view.writes (Elt F) g
      [⟨rCol0, k0_pay14 (xld rCol0 (xstg m ρ c))⟩, ⟨rRow0, k0_pay12 (xld rRow0 (xstg m ρ c))⟩,
       ⟨rCol255, k0_pay10 (chld rVec (colLanded m ρ c)) (xld rCol254 (xstg m ρ c)) (xld rCol255 (xstg m ρ c)) (rhld rPt255 (rowLanded m ρ c))⟩,
       ⟨rRow255, k0_pay8 (xld rRow254 (xstg m ρ c)) (rhld rVec (rowLanded m ρ c)) (xld rRow255 (xstg m ρ c)) (chld rPt255 (colLanded m ρ c))⟩,
       ⟨rFull, k0_pay6 (xld rFull (xstg m ρ c))⟩] = outAt m ρ c := by
  rw [out_writes]; unfold outAt; simp only [if_pos hr, if_pos hc]
theorem outAt_tr (c : Dev nD) (hr : c.val / 2 = 0) (hc : ¬ c.val % 2 = 0) (g : (cc0_stg1_0 : Ref sig .tc).ty.Contents (Elt F)) :
    (oM : Memref sig .tc .vmem S256x256 .f32).view.writes (Elt F) g
      [⟨rCol255, k0_pay1 (xld rCol255 (xstg m ρ c))⟩, ⟨rRow0, k0_pay12 (xld rRow0 (xstg m ρ c))⟩,
       ⟨rCol0, k0_pay11 (chld rVec (colLanded m ρ c)) (xld rCol1 (xstg m ρ c)) (xld rCol0 (xstg m ρ c)) (rhld rPt0 (rowLanded m ρ c))⟩,
       ⟨rRow255, k0_pay8 (xld rRow254 (xstg m ρ c)) (rhld rVec (rowLanded m ρ c)) (xld rRow255 (xstg m ρ c)) (chld rPt255 (colLanded m ρ c))⟩,
       ⟨rFull, k0_pay6 (xld rFull (xstg m ρ c))⟩] = outAt m ρ c := by
  rw [out_writes]; unfold outAt; simp only [if_pos hr, if_neg hc]
theorem outAt_bl (c : Dev nD) (hr : ¬ c.val / 2 = 0) (hc : c.val % 2 = 0) (g : (cc0_stg1_0 : Ref sig .tc).ty.Contents (Elt F)) :
    (oM : Memref sig .tc .vmem S256x256 .f32).view.writes (Elt F) g
      [⟨rCol0, k0_pay14 (xld rCol0 (xstg m ρ c))⟩, ⟨rRow255, k0_pay13 (xld rRow255 (xstg m ρ c))⟩,
       ⟨rCol255, k0_pay10 (chld rVec (colLanded m ρ c)) (xld rCol254 (xstg m ρ c)) (xld rCol255 (xstg m ρ c)) (rhld rPt255 (rowLanded m ρ c))⟩,
       ⟨rRow0, k0_pay9 (rhld rVec (rowLanded m ρ c)) (xld rRow1 (xstg m ρ c)) (xld rRow0 (xstg m ρ c)) (chld rPt0 (colLanded m ρ c))⟩,
       ⟨rFull, k0_pay6 (xld rFull (xstg m ρ c))⟩] = outAt m ρ c := by
  rw [out_writes]; unfold outAt; simp only [if_neg hr, if_pos hc]
theorem outAt_br (c : Dev nD) (hr : ¬ c.val / 2 = 0) (hc : ¬ c.val % 2 = 0) (g : (cc0_stg1_0 : Ref sig .tc).ty.Contents (Elt F)) :
    (oM : Memref sig .tc .vmem S256x256 .f32).view.writes (Elt F) g
      [⟨rCol255, k0_pay1 (xld rCol255 (xstg m ρ c))⟩, ⟨rRow255, k0_pay13 (xld rRow255 (xstg m ρ c))⟩,
       ⟨rCol0, k0_pay11 (chld rVec (colLanded m ρ c)) (xld rCol1 (xstg m ρ c)) (xld rCol0 (xstg m ρ c)) (rhld rPt0 (rowLanded m ρ c))⟩,
       ⟨rRow0, k0_pay9 (rhld rVec (rowLanded m ρ c)) (xld rRow1 (xstg m ρ c)) (xld rRow0 (xstg m ρ c)) (chld rPt0 (colLanded m ρ c))⟩,
       ⟨rFull, k0_pay6 (xld rFull (xstg m ρ c))⟩] = outAt m ρ c := by
  rw [out_writes]; unfold outAt; simp only [if_neg hr, if_neg hc]

/-! ## The body's precondition and postcondition -/

section Body

variable (K : Dev nD × Fin 5 → ℕ)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((ghost m ρ K c ∗ cred (tallyAt (barCell c) () 2) ∗ cred (tallyAt (rrecvCell c) () N) ∗ cred (tallyAt (crecvCell c) () N) ∗ levAts L lv
      ∗ (∃ f, rhPts c f) ∗ (∃ f, chPts c f) ∗ (∃ f, rsPts c f) ∗ (∃ f, csPts c f))
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ m ρ c ∗ (dats m ρ 0 c).owesAt () t₀.succ ∗ stg c cc0_stg0_0 (xstg m ρ c) ∗ stg c cc0_stg1_0 (outAt m ρ c))

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The two addressed transfers

`Rounds.wp_send_pointsTo` at this exchange's cells. The printed transfer names its target by the kernel's device chain; the
target is taken as a variable equal to the peer and substituted, since the transfer's evidence is typed over it. -/

theorem wp_send_row (c n : Dev nD) (hn : n = rowPeer c)
    {hsc : (rhM : Memref sig (Dev.tc n : Thread nD τ).2.kind .vmem S1x256 .f32).view.ref.isScScratch = false}
    {hsrc : (rsM : Memref sig .tc .vmem S1x256 .f32).view.WordExact} {hdst : (rhM : Memref sig .tc .vmem S1x256 .f32).view.WordExact}
    {hsem : DmaTarget.Typed .vmem (.dma rrecvS.sem) (.remote (Dev.tc n : Thread nD τ) (rhM : Memref sig .tc .vmem S1x256 .f32) (.dma rsendS.sem) hsc)}
    {α : Type} {Q : α → sProp 𝕄} {k : PUnit → Prog (TpuEff nD τ sig (Elt F) Λ₀ .tc) α}
    (fn : Buf (Elt F) ((rhM : Memref sig .tc .vmem S1x256 .f32).view.loc (rowPeer c : Thread nD τ))) (W : Waits sig Unit)
    (O₀ O : CellTallies nD τ sig Unit) (hO : O₀ = O + tallyAt (rrecvCell (rowPeer c)) () N) :
    iprop(cellInv ER (haloRd m ρ) (K (c, 1)) (rsendCell c) ∗ cellInv ER (haloRd m ρ) (K (rowPeer c, 2)) (rrecvCell (rowPeer c))
        ∗ ((rsM : Memref sig .tc .vmem S1x256 .f32).view.loc (c : Thread nD τ) ↦[(rsM : Memref sig .tc .vmem S1x256 .f32).view.set]{fullShare} rowStg m ρ c)
        ∗ ((rhM : Memref sig .tc .vmem S1x256 .f32).view.loc (rowPeer c : Thread nD τ) ↦[(rhM : Memref sig .tc .vmem S1x256 .f32).view.set]{fullShare} fn)
        ∗ owes (c : Thread nD τ) O₀ W
        ∗ dutyTok ER (rsendCell c) 0 false ∗ reached ER (rsendCell c) 0
        ∗ dutyTok ER (rrecvCell (rowPeer c)) 0 false ∗ reached ER (rrecvCell (rowPeer c)) 0)
      ⊢ iprop(((cred (tallyAt (rsendCell c) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma rsM (.remote (Dev.tc n : Thread nD τ) rhM (.dma rsendS.sem) hsc) (.dma rrecvS.sem) hsrc hdst hsem) k) Q) := by
  subst hn
  exact Rounds.wp_send_pointsTo 𝒱₀ ER (haloRd m ρ) (c : Thread nD τ) none (κ₁ := K (c, 1)) (κ₂ := K (rowPeer c, 2))
    (r₁ := 0) (r₂ := 0) (d₁ := false) (d₂ := false) (fd := fn)
    (by rw [duties_rsend]; exact Finset.mem_singleton_self _) (by rw [duties_rrecv]; exact Finset.mem_singleton_self _)
    () () N rfl (amount_rsend m ρ c false) (amount_rrecv m ρ (rowPeer c) false) O hO (W := W)
    (by rw [pay_rsend])
    (by rw [pay_rrecv_peer, row_landed_eq])

theorem wp_send_col (c n : Dev nD) (hn : n = colPeer c)
    {hsc : (chM : Memref sig (Dev.tc n : Thread nD τ).2.kind .vmem S1x256 .f32).view.ref.isScScratch = false}
    {hsrc : (csM : Memref sig .tc .vmem S1x256 .f32).view.WordExact} {hdst : (chM : Memref sig .tc .vmem S1x256 .f32).view.WordExact}
    {hsem : DmaTarget.Typed .vmem (.dma crecvS.sem) (.remote (Dev.tc n : Thread nD τ) (chM : Memref sig .tc .vmem S1x256 .f32) (.dma csendS.sem) hsc)}
    {α : Type} {Q : α → sProp 𝕄} {k : PUnit → Prog (TpuEff nD τ sig (Elt F) Λ₀ .tc) α}
    (fn : Buf (Elt F) ((chM : Memref sig .tc .vmem S1x256 .f32).view.loc (colPeer c : Thread nD τ))) (W : Waits sig Unit)
    (O₀ O : CellTallies nD τ sig Unit) (hO : O₀ = O + tallyAt (crecvCell (colPeer c)) () N) :
    iprop(cellInv ER (haloRd m ρ) (K (c, 3)) (csendCell c) ∗ cellInv ER (haloRd m ρ) (K (colPeer c, 4)) (crecvCell (colPeer c))
        ∗ ((csM : Memref sig .tc .vmem S1x256 .f32).view.loc (c : Thread nD τ) ↦[(csM : Memref sig .tc .vmem S1x256 .f32).view.set]{fullShare} colStg m ρ c)
        ∗ ((chM : Memref sig .tc .vmem S1x256 .f32).view.loc (colPeer c : Thread nD τ) ↦[(chM : Memref sig .tc .vmem S1x256 .f32).view.set]{fullShare} fn)
        ∗ owes (c : Thread nD τ) O₀ W
        ∗ dutyTok ER (csendCell c) 0 false ∗ reached ER (csendCell c) 0
        ∗ dutyTok ER (crecvCell (colPeer c)) 0 false ∗ reached ER (crecvCell (colPeer c)) 0)
      ⊢ iprop(((cred (tallyAt (csendCell c) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma csM (.remote (Dev.tc n : Thread nD τ) chM (.dma csendS.sem) hsc) (.dma crecvS.sem) hsrc hdst hsem) k) Q) := by
  subst hn
  exact Rounds.wp_send_pointsTo 𝒱₀ ER (haloRd m ρ) (c : Thread nD τ) none (κ₁ := K (c, 3)) (κ₂ := K (colPeer c, 4))
    (r₁ := 0) (r₂ := 0) (d₁ := false) (d₂ := false) (fd := fn)
    (by rw [duties_csend]; exact Finset.mem_singleton_self _) (by rw [duties_crecv]; exact Finset.mem_singleton_self _)
    () () N rfl (amount_csend m ρ c false) (amount_crecv m ρ (colPeer c) false) O hO (W := W)
    (by rw [pay_csend])
    (by rw [pay_crecv_peer, col_landed_eq])

/-! ## The body -/

attribute [local sl_canon] dev1_eq dev2_eq dev3_eq dev4_eq
attribute [local sl_rounds] duties_bar2 duties_rsend duties_rrecv duties_csend duties_crecv amount_bar amount_rsend amount_rrecv amount_csend amount_crecv
  expect_bar expect_rsend expect_rrecv expect_csend expect_crecv pay_bar_false pay_bar_true pay_rrecv pay_crecv pay_rsend pay_csend
attribute [local sl_rounds high] pay_bar_false_peer pay_bar_true_peer pay_rrecv_peer pay_crecv_peer

set_option maxHeartbeats 6400000 in
/-- One device's body from `bodyPre` to `bodyPost`, at each of the four mesh positions by the same steps: the position
    decides every conditional, and the body is then a straight line. In order: the two signals (each peer is handed this
    device's own halo and that its receive cell stands at round 0), the two stagings, the barrier wait (both peers'
    halos come with it), the two transfers (each pays the peer's receive duty with the staged line landed), the plain
    update, the four waits, the four own cells closed, the two patches and the two rim lines. -/
theorem sound_body (c : Dev nD) :
    bodyPre m ρ K c
      ⊢ wp frame (wpE (defs₀ (F := F)) 𝒱₀ c none) Set.univ
          (cc0_body xM (Memref.isWhole_whole _) oM (Memref.isWhole_whole _) rhM (Memref.isWhole_whole _) chM (Memref.isWhole_whole _)
            rsM (Memref.isWhole_whole _) csM (Memref.isWhole_whole _) rsendS rrecvS csendS crecvS) (fun _ => bodyPost m ρ c) := by
  by_cases hr : c.val / 2 = 0 <;> by_cases hc : c.val % 2 = 0 <;> (

    rw [cc0_body_eq_skeleton]; unfold cc0_body_skel
    rw [k0_part1_eq_skeleton, k0_part2_eq_skeleton, k0_part3_eq_skeleton]
    unfold k0_part1_skel k0_part2_skel k0_part3_skel
    simp only [semSignalWord, semWaitWord, Prog.lift, Prog.bind_op, Prog.bind_ret, Prog.pure_eq_ret, wp_deviceId, dev1_eq, dev2_eq, dev3_eq, dev4_eq,
      cond_r0, cond_r1, cond_c0, cond_c1, hr, hc, not_true_eq_false, not_false_eq_true, ↓reduceDIte]
    unfold bodyPre ghost invs
    iintro ⟨⟨⟨⟨#HIbar, #HIrs, #HIrr, #HIcs, #HIcr, #HIbarR, #HIbarC, #HIrrP, #HIcrP⟩, HatB, HatRS, HatRR, HatCS, HatCR,
        #HrBR, #HrBC, #HrRRp, #HrCRp, #HrRS, #HrRR, #HrCS, #HrCR, HtBR, HtBC, HtRRp, HtCRp, HtRS, HtCS⟩,
        HcB, HcRR, HcCR, #Hlev, ⟨%frh, Hrh⟩, ⟨%fch, Hch⟩, ⟨%frs, Hrs⟩, ⟨%fcs, Hcs⟩⟩,
      Ho, ⟨%d0, %g0, %hg0, Hx⟩, ⟨%d1, %g1, %hg1, Hout⟩⟩
    have hx : g0 = xstg m ρ c := by rw [hg0]; unfold Dat.before; rw [if_pos (fetch_0 t₀)]; rfl
    subst hx
    unfold Dat.owesAt Pipeline.owesWithin
    icases Ho with ⟨%W, %hW, HO⟩
    rw [show (dats m ρ 0 c).owed t₀.castSucc = O₀ c from rfl]
    unfold O₀ O₁ O₂ O₃ rhPts chPts rsPts csPts
    ihave Hx := (Entails.of_eq (xPts_eq c _).symm) $$ Hx
    ihave Hout := (Entails.of_eq (oPts_eq c _).symm) $$ Hout
    unfold xPts oPts
    have hmw : (levAts L lv : sProp 𝕄) ⊢ MayWait (c : Thread nD τ) (.reg barS) ()
        (tallyAt (crecvCell (colPeer c)) () N + tallyAt (rrecvCell (rowPeer c)) () N) := mayWait_bar c
    sl_exec (disch := simp only [dev3_eq, dev4_eq])
    ihave Hp := (Entails.of_eq (sep_raw _ _)) $$ HatB_pay1
    icases Hp with ⟨⟨⟨%fnr, HrhP⟩, -⟩, ⟨%fnc, HchP⟩, -⟩
    rw [writes_rs, writes_cs]
    first | rw [rowStg_top m ρ c hr] | rw [rowStg_bot m ρ c hr]
    first | rw [colStg_left m ρ c hc] | rw [colStg_right m ρ c hc]
    iapply (wp_send_row m ρ K c _ (dev3_eq c) fnr _ _ _ rfl) $$ [Hrs HrhP HO HtRS HtRRp]
    · isplitr; · iexact HIrs
      isplitr; · iexact HIrrP
      isplitl [Hrs]; · iexact Hrs
      isplitl [HrhP]; · iexact HrhP
      isplitl [HO]; · iexact HO
      isplitl [HtRS]; · iexact HtRS
      isplitr; · iexact HrRS
      isplitl [HtRRp]; · iexact HtRRp
      iexact HrRRp
    iintro ⟨HcRS, HO⟩
    iapply (wp_send_col m ρ K c _ (dev4_eq c) fnc _ _ 0 (zero_add _).symm) $$ [Hcs HchP HO HtCS HtCRp]
    · isplitr; · iexact HIcs
      isplitr; · iexact HIcrP
      isplitl [Hcs]; · iexact Hcs
      isplitl [HchP]; · iexact HchP
      isplitl [HO]; · iexact HO
      isplitl [HtCS]; · iexact HtCS
      isplitr; · iexact HrCS
      isplitl [HtCRp]; · iexact HtCRp
      iexact HrCRp
    iintro ⟨HcCS, HO⟩
    sl_exec
    imod (Rounds.cell_close ER (haloRd m ρ) (Set.mem_univ (K (c, 1))) (fun h => h) (R := 1) (duties_later m ρ (rsendCell c))) $$ [HatRS] with HzRS
    · isplitr; · iexact HIrs
      iexact HatRS
    imod (Rounds.cell_close ER (haloRd m ρ) (Set.mem_univ (K (c, 2))) (fun h => h) (R := 1) (duties_later m ρ (rrecvCell c))) $$ [HatRR] with HzRR
    · isplitr; · iexact HIrr
      iexact HatRR
    imod (Rounds.cell_close ER (haloRd m ρ) (Set.mem_univ (K (c, 3))) (fun h => h) (R := 1) (duties_later m ρ (csendCell c))) $$ [HatCS] with HzCS
    · isplitr; · iexact HIcs
      iexact HatCS
    imod (Rounds.cell_close ER (haloRd m ρ) (Set.mem_univ (K (c, 4))) (fun h => h) (R := 1) (duties_later m ρ (crecvCell c))) $$ [HatCR] with HzCR
    · isplitr; · iexact HIcr
      iexact HatCR
    sl_step
    unfold bodyPost Φ₁ Dat.owesAt Pipeline.owesWithin rhPts chPts rsPts csPts
    rw [show (dats m ρ 0 c).owed t₀.succ = 0 from rfl]
    isplitl [HatRR_pay1 HatCR_pay1 HatRS_pay1 HatCS_pay1 HzRS HzRR HzCS HzCR]
    · isplitl [HatRR_pay1]; · iexact HatRR_pay1
      isplitl [HatCR_pay1]; · iexact HatCR_pay1
      isplitl [HatRS_pay1]; · iexact HatRS_pay1
      isplitl [HatCS_pay1]; · iexact HatCS_pay1
      isplitl [HzRS]; · iexact HzRS
      isplitl [HzRR]; · iexact HzRR
      isplitl [HzCS]; · iexact HzCS
      iexact HzCR
    isplitl [HO]
    · iexists (insert (SemLoc.dma crecvS.sem, ()) (insert (SemLoc.dma csendS.sem, ()) (insert (SemLoc.dma rrecvS.sem, ())
        (insert (SemLoc.dma rsendS.sem, ()) (insert (SemLoc.reg barS, ()) W)))))
      isplitr; · ipureintro; exact fun _ _ => Or.inl trivial
      iexact HO
    isplitl [Hx]
    · iexists _; isplitr; · (ipureintro; rfl)
      iapply (Entails.of_eq (xPts_eq c _)); unfold xPts; iexact Hx
    iexists (outAt m ρ c); isplitr; · (ipureintro; rfl)
    iapply (Entails.of_eq (oPts_eq c _)); unfold oPts
    first
      | rw [← outAt_tl m ρ c hr hc g1]
      | rw [← outAt_tr m ρ c hr hc g1]
      | rw [← outAt_bl m ρ c hr hc g1]
      | rw [← outAt_br m ρ c hr hc g1]
    iexact Hout

  )

end Body

/-! ## The obligation as the pipeline states it -/

set_option maxRecDepth 4000 in
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
/-- The pipeline's body obligation on device `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body xM (Memref.isWhole_whole _) oM (Memref.isWhole_whole _) rhM (Memref.isWhole_whole _) chM (Memref.isWhole_whole _)
      rsM (Memref.isWhole_whole _) csM (Memref.isWhole_whole _) rsendS rrecvS csendS crecvS) (fun _ => bodyPost m ρ c)
  unfold bodyPre' Φ₀ start
  iintro ⟨⟨⟨⟨%K', Hg⟩, HcB, HcRR, HcCR, Hlev⟩, Hrh, Hch, Hrs, Hcs⟩, Ho, Hx, Hout⟩
  iapply (sound_body m ρ K' c)
  unfold bodyPre
  isplitl [Hg HcB HcRR HcCR Hlev Hrh Hch Hrs Hcs]
  · isplitl [Hg]; · iexact Hg
    isplitl [HcB]; · iexact HcB
    isplitl [HcRR]; · iexact HcRR
    isplitl [HcCR]; · iexact HcCR
    isplitl [Hlev]; · iexact Hlev
    isplitl [Hrh]; · iexact Hrh
    isplitl [Hch]; · iexact Hch
    isplitl [Hrs]; · iexact Hrs
    iexact Hcs
  isplitl [Ho]; · iexact Ho
  isplitl [Hx] <;> iassumption

/-- info: 'Cert.Kernel.Halo.body_obligation' depends on axioms: [propext, Classical.choice, Quot.sound] -/
#guard_msgs in #print axioms body_obligation

end Cert.Kernel.Halo

end
-- ==== Proof.KHaloLaunch.lean ====
/-
  The launch of the halo exchange on the 2 × 2 mesh: the exchange's ghost state funded from the launch element, its
  cells' invariants allocated for all four devices under one update (the barrier cell of a device is signalled by
  both its peers), the duty tokens dealt across the two cuts of the mesh (each involution carries a device's own
  cells' tokens to the peer that pays them), the launch credit of the three cells a device waits on for others'
  units, and the run of the program from any memory with every counter at zero: each device's result array ends at
  the block its body computes, its argument array unchanged.
-/
import proofs.«900193_g7700000000000194_dist_halo2d_stencil_xy_m256_n256_v7x_xy2x2_f32_1_alg».proof.Proof.KHaloProto

noncomputable section

namespace Cert.Kernel.Halo

open Cert.Kernel
open Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch element and what it funds -/

theorem ownSemFacts : Pipeline.OwnSemFacts cfg0.spec osem := by decide

theorem share_eq (c : Dev nD) (w : Fin cfg0.W) : (dats m ρ 0 c).share w = fullShare := by unfold Dat.share; split <;> rfl

theorem kcell_injective : Function.Injective (kcell : Dev nD × Fin 5 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
/-- The exchange's cells: five a device. -/
def haloCells : Finset (GSem nD τ sig) := Finset.univ.map ⟨kcell, kcell_injective⟩

/-- A device's own cells' duty tokens as minted: (device, which duty) — its barrier's `false` and `true`, then the
    one duty of its row send, row receive, column send and column receive cells. -/
abbrev tokOf (cj : Dev nD × Fin 6) : GSem nD τ sig × ℕ × Bool := match cj.2 with
  | 0 => (barCell cj.1, 0, false) | 1 => (barCell cj.1, 0, true) | 2 => (rsendCell cj.1, 0, false)
  | 3 => (rrecvCell cj.1, 0, false) | 4 => (csendCell cj.1, 0, false) | 5 => (crecvCell cj.1, 0, false)
theorem tokOf_injective : Function.Injective (tokOf : Dev nD × Fin 6 → GSem nD τ sig × ℕ × Bool) := by
  rintro ⟨c, j⟩ ⟨c', j'⟩ h
  have h1 : c = c' := by
    have := congrArg (fun x : GSem nD τ sig × ℕ × Bool => x.1.1.1) h
    fin_cases j <;> fin_cases j' <;> exact this
  subst h1
  have : j = j' := by
    fin_cases j <;> fin_cases j' <;> first | rfl | exact absurd (congrArg (fun x : GSem nD τ sig × ℕ × Bool => (x.1.2, x.2.2)) h) (fun h' => by cases h')
  subst this; rfl
def haloToks : Finset (GSem nD τ sig × ℕ × Bool) := Finset.univ.map ⟨tokOf, tokOf_injective⟩

def u₀ : UU :=
  (initOf (Pipeline.cells cfgs cellOf_inj) (Pipeline.launchToks cfgs cellOf_inj), initOf haloCells haloToks)

/-- The duty tokens of device `c`'s own cells. -/
def toks (c : Dev nD) : sProp 𝕄 :=
  iprop(dutyTok ER (barCell c) 0 false ∗ dutyTok ER (barCell c) 0 true ∗ dutyTok ER (rsendCell c) 0 false
    ∗ dutyTok ER (rrecvCell c) 0 false ∗ dutyTok ER (csendCell c) 0 false ∗ dutyTok ER (crecvCell c) 0 false)

/-- What the launch element deals device `c`: its five cells' round states, its positions in them with round 0 of each
    reached, and its own cells' tokens. -/
def G (c : Dev nD) : sProp 𝕄 :=
  iprop((bigSep Finset.univ fun k : Fin 5 => roundState ER (haloRd m ρ) (kcell (c, k)) 0)
    ∗ (bigSep Finset.univ fun k : Fin 5 => iprop(atPos ER (kcell (c, k)) 0 ∅ 0 ∗ reached ER (kcell (c, k)) 0)) ∗ toks c)

/-- What the global step makes of it: the ghost state the body starts from, at some names. -/
def G' (c : Dev nD) : sProp 𝕄 := iprop(∃ K, ghost m ρ K c)

omit [FloatOps F] in
theorem bigSep_fin5 (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ
omit [FloatOps F] in
theorem bigSep_fin6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

omit [FloatOps F] in
theorem fund_halo : BI.own (ER (initOf haloCells haloToks)) ⊢ (|==> bigSep Finset.univ (G m ρ) : sProp 𝕄) := by
  have hX (Φ : GSem nD τ sig → sProp 𝕄) : bigSep haloCells Φ = bigSep Finset.univ fun c : Dev nD => bigSep Finset.univ fun k : Fin 5 => Φ (kcell (c, k)) := by
    unfold haloCells; rw [bigSep_map, bigSep_univ_prod]; rfl
  have hT : bigSep haloToks (fun x => (dutyTok ER x.1 x.2.1 x.2.2 : sProp 𝕄)) = bigSep Finset.univ fun c : Dev nD => toks c := by
    unfold haloToks; rw [bigSep_map, bigSep_univ_prod]
    exact bigSep_congr fun c _ => by unfold toks; rw [bigSep_fin6]; rfl
  iintro HX
  imod (Rounds.fund ER (haloRd m ρ) haloCells haloToks) $$ HX with ⟨Hst, Hr, Hat, Htok⟩
  imodintro
  ihave Hst' := (Entails.of_eq (hX fun g => roundState ER (haloRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The global step: every device's cells allocated at once, the tokens dealt across the cuts -/

omit [FloatOps F] in
/-- The four transfer semaphores are the kernel's own; -/
theorem ownSems0_eq (c : Dev nD) : (Pipeline.ownSems0 (Ix := Unit) (Name := ℕ) (U := UU) (Lvl := ℕ) (Val := Elt F) (τ := τ) osem c : sProp 𝕄)
    = iprop(semVal (rsendCell c) 0 ∗ semVal (rrecvCell c) 0 ∗ semVal (csendCell c) 0 ∗ semVal (crecvCell c) 0) := by
  rw [Pipeline.ownSems0_eq_of_list c osem [0, 1, 2, 3] (by decide) (by decide)]; rfl
omit [FloatOps F] in
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 5 => semVal (kcell (c, k)) 0 : sProp 𝕄) := by
  rw [ownSems0_eq, unscopedSems0_eq, bigSep_fin5]
  iintro ⟨⟨H1, H2, H3, H4⟩, HB⟩
  isplitl [HB]; · iexact HB
  isplitl [H1]; · iexact H1
  isplitl [H2]; · iexact H2
  isplitl [H3]; · iexact H3
  iexact H4

omit [FloatOps F] in
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (haloRd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 5 => semVal (kcell (c, k)) 0) ∗ bigSep Finset.univ fun k : Fin 5 => roundState ER (haloRd m ρ) (kcell (c, k)) 0)
      ⊢ (|={Set.univ}=> bigSep Finset.univ fun k => iprop(∃ κ : ℕ, cellInv ER (haloRd m ρ) κ (kcell (c, k))) : sProp 𝕄) from by
        rw [← bigSep_sep']
        exact (bigSep_mono fun k _ => (Rounds.body_intro ER (haloRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The persistent part, shared by all devices: every cell's invariant at the allocated names, round 0 of every cell reached. -/
def records (K : Dev nD × Fin 5 → ℕ) : sProp 𝕄 :=
  iprop((bigSep Finset.univ fun ck : Dev nD × Fin 5 => cellInv ER (haloRd m ρ) (K ck) (kcell ck))
    ∗ bigSep Finset.univ fun ck : Dev nD × Fin 5 => reached ER (kcell ck) 0)

instance records_persistent (K : Dev nD × Fin 5 → ℕ) : BI.Persistent (records m ρ K) := by unfold records; infer_instance

omit [FloatOps F] in
theorem inv_at (K : Dev nD × Fin 5 → ℕ) (ck : Dev nD × Fin 5) :
    (bigSep Finset.univ fun ck : Dev nD × Fin 5 => (cellInv ER (haloRd m ρ) (K ck) (kcell ck) : sProp 𝕄)) ⊢ cellInv ER (haloRd m ρ) (K ck) (kcell ck) :=
  bigSep_elim (Finset.mem_univ ck)
omit [FloatOps F] in
theorem reached_at (ck : Dev nD × Fin 5) :
    (bigSep Finset.univ fun ck : Dev nD × Fin 5 => (reached ER (kcell ck) 0 : sProp 𝕄)) ⊢ reached ER (kcell ck) 0 :=
  bigSep_elim (Finset.mem_univ ck)

/-- What stays with device `c`: its positions, and the tokens of the six duties IT pays. -/
def payToks (c : Dev nD) : sProp 𝕄 :=
  iprop(dutyTok ER (barCell (rowPeer c)) 0 false ∗ dutyTok ER (barCell (colPeer c)) 0 true
    ∗ dutyTok ER (rrecvCell (rowPeer c)) 0 false ∗ dutyTok ER (crecvCell (colPeer c)) 0 false
    ∗ dutyTok ER (rsendCell c) 0 false ∗ dutyTok ER (csendCell c) 0 false)
def linear (c : Dev nD) : sProp 𝕄 :=
  iprop((atPos ER (barCell c) 0 ∅ 0 ∗ atPos ER (rsendCell c) 0 ∅ 0 ∗ atPos ER (rrecvCell c) 0 ∅ 0 ∗ atPos ER (csendCell c) 0 ∅ 0 ∗ atPos ER (crecvCell c) 0 ∅ 0)
    ∗ payToks c)

omit [FloatOps F] in
theorem ghost_intro (K : Dev nD × Fin 5 → ℕ) (c : Dev nD) : iprop(records m ρ K ∗ linear c) ⊢ G' m ρ c := by
  unfold records linear payToks G' ghost invs
  iintro ⟨⟨#HI, #HR⟩, ⟨Ha0, Ha1, Ha2, Ha3, Ha4⟩, Ht1, Ht2, Ht3, Ht4, Ht5, Ht6⟩
  iexists K
  isplitr
  · isplitr; · iapply (inv_at m ρ K (c, 0)); iexact HI
    isplitr; · iapply (inv_at m ρ K (c, 1)); iexact HI
    isplitr; · iapply (inv_at m ρ K (c, 2)); iexact HI
    isplitr; · iapply (inv_at m ρ K (c, 3)); iexact HI
    isplitr; · iapply (inv_at m ρ K (c, 4)); iexact HI
    isplitr; · iapply (inv_at m ρ K (rowPeer c, 0)); iexact HI
    isplitr; · iapply (inv_at m ρ K (colPeer c, 0)); iexact HI
    isplitr; · iapply (inv_at m ρ K (rowPeer c, 2)); iexact HI
    iapply (inv_at m ρ K (colPeer c, 4)); iexact HI
  isplitl [Ha0]; · iexact Ha0
  isplitl [Ha1]; · iexact Ha1
  isplitl [Ha2]; · iexact Ha2
  isplitl [Ha3]; · iexact Ha3
  isplitl [Ha4]; · iexact Ha4
  isplitr; · iapply (reached_at (F := F) (rowPeer c, 0)); iexact HR
  isplitr; · iapply (reached_at (F := F) (colPeer c, 0)); iexact HR
  isplitr; · iapply (reached_at (F := F) (rowPeer c, 2)); iexact HR
  isplitr; · iapply (reached_at (F := F) (colPeer c, 4)); iexact HR
  isplitr; · iapply (reached_at (F := F) (c, 1)); iexact HR
  isplitr; · iapply (reached_at (F := F) (c, 2)); iexact HR
  isplitr; · iapply (reached_at (F := F) (c, 3)); iexact HR
  isplitr; · iapply (reached_at (F := F) (c, 4)); iexact HR
  isplitl [Ht1]; · iexact Ht1
  isplitl [Ht2]; · iexact Ht2
  isplitl [Ht3]; · iexact Ht3
  isplitl [Ht4]; · iexact Ht4
  isplitl [Ht5]; · iexact Ht5
  iexact Ht6

omit [FloatOps F] in
/-- The tokens dealt across the cuts: a barrier's `false` token and the row receive's token go to the row peer, the
    barrier's `true` token and the column receive's to the column peer (each cut an involution of the devices); the
    send tokens stay. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep', bigSep_sep', bigSep_sep', bigSep_sep', bigSep_sep',
    bigSep_univ_equiv rowSwap (fun c : Dev nD => (dutyTok ER (barCell c) 0 false : sProp 𝕄)),
    bigSep_univ_equiv colSwap (fun c : Dev nD => (dutyTok ER (barCell c) 0 true : sProp 𝕄)),
    bigSep_univ_equiv rowSwap (fun c : Dev nD => (dutyTok ER (rrecvCell c) 0 false : sProp 𝕄)),
    bigSep_univ_equiv colSwap (fun c : Dev nD => (dutyTok ER (crecvCell c) 0 false : sProp 𝕄))]
  iintro ⟨H1, H2, H3, H4, H5, H6⟩
  isplitl [H1]; · iexact H1
  isplitl [H2]; · iexact H2
  isplitl [H4]; · iexact H4
  isplitl [H6]; · iexact H6
  isplitl [H3]; · iexact H3
  iexact H5

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem regroup :
    (bigSep Finset.univ fun c : Dev nD => iprop((bigSep Finset.univ fun k => iprop(∃ κ : ℕ, cellInv ER (haloRd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 5 => iprop(∃ κ : ℕ, cellInv ER (haloRd m ρ) κ (kcell ck))),
    bigSep_congr (s := Finset.univ) (fun (c : Dev nD) _ => bigSep_sep' Finset.univ (fun k : Fin 5 => (atPos ER (kcell (c, k)) 0 ∅ 0 : sProp 𝕄)) (fun k => reached ER (kcell (c, k)) 0)),
    bigSep_sep', ← bigSep_univ_prod (fun ck : Dev nD × Fin 5 => (reached ER (kcell ck) 0 : sProp 𝕄))]
  iintro ⟨HI, ⟨Hat, #HR⟩, Htok⟩
  ihave HK := (BI.bigSep_exists_pi Finset.univ (fun (ck : Dev nD × Fin 5) (κ : ℕ) => (cellInv ER (haloRd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Fin 5 => (atPos ER (kcell (c, k)) 0 ∅ 0 : sProp 𝕄)) payToks).symm).trans
      (bigSep_mono fun c _ => show _ ⊢ linear c from Entails.of_eq (by unfold linear; rw [bigSep_fin5])))
    isplitl [Hat]; · iexact Hat
    iexact Htk

omit [FloatOps F] in
/-- The global step: own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

omit [FloatOps F] in
/-- Every device owes one unit to each peer's barrier cell and a halo's credit to each peer's receive cell, and each
    cut is a bijection of the devices: so a device's launch credit is two units on its barrier cell and a halo's
    credit on each of its receive cells. -/
theorem creds (c : Dev nD) :
    (Pipeline.launchCred O₀ c : sProp 𝕄)
      ⊢ iprop(cred (tallyAt (barCell c) () 2) ∗ cred (tallyAt (rrecvCell c) () N) ∗ cred (tallyAt (crecvCell c) () N)) := by
  have e : (O₀ : Dev nD → CellTallies nD τ sig Unit)
      = fun d => ((tallyAt (crecvCell (colPeer d)) () N + tallyAt (rrecvCell (rowPeer d)) () N) + tallyAt (barCell (colPeer d)) () 1)
          + tallyAt (barCell (rowPeer d)) () 1 := rfl
  have h2 : (tallyAt (barCell c) () 2 : CellTallies nD τ sig Unit) = tallyAt (barCell c) () 1 + tallyAt (barCell c) () 1 :=
    (tallyAt_add (barCell c) () 1 1).symm
  rw [e, Pipeline.launchCred_add, Pipeline.launchCred_add, Pipeline.launchCred_add, h2]
  iintro ⟨⟨⟨HC, HR⟩, HB2⟩, HB1⟩
  ihave HC' := (Pipeline.launchCred_tallyAt (.dma crecvS.sem) colPeer colPeer colPeer_colPeer colPeer_colPeer () N c) $$ HC
  ihave HR' := (Pipeline.launchCred_tallyAt (.dma rrecvS.sem) rowPeer rowPeer rowPeer_rowPeer rowPeer_rowPeer () N c) $$ HR
  ihave HB2' := (Pipeline.launchCred_tallyAt (.reg barS) colPeer colPeer colPeer_colPeer colPeer_colPeer () 1 c) $$ HB2
  ihave HB1' := (Pipeline.launchCred_tallyAt (.reg barS) rowPeer rowPeer rowPeer_rowPeer rowPeer_rowPeer () 1 c) $$ HB1
  isplitl [HB1' HB2']
  · iapply (cred_add _ _).2
    isplitl [HB1'] <;> iassumption
  isplitl [HR']; · iexact HR'
  iexact HC'

/-! ## The launch rule's side conditions -/

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HR, HC⟩
  imodintro
  unfold start G'
  isplitl
  · isplitl [HG]; · iexact HG
    isplitl [H1]; · iexact H1
    isplitl [HR]; · iexact HR
    isplitl [HC]; · iexact HC
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, ⟨%f0, H0⟩, ⟨%f1, H1⟩, ⟨%f2, H2⟩, ⟨%f3, H3⟩⟩
  isplitl [Hs]; · iexact Hs
  isplitl [H0]; · iexists f0; rw [rhPts_eq]; iexact H0
  isplitl [H1]; · iexists f1; rw [chPts_eq]; iexact H1
  isplitl [H2]; · iexists f2; rw [rsPts_eq]; iexact H2
  iexists f3; rw [csPts_eq]; iexact H3

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ m ρ c from rfl, scopedRest0_eq, ownSems0_eq]
  unfold Φ₁
  iintro ⟨H0, H1, H2, H3, Z1, Z2, Z3, Z4⟩
  isplitr; · iempintro
  isplitl [Z1 Z2 Z3 Z4]
  · isplitl [Z1]; · iexact Z1
    isplitl [Z2]; · iexact Z2
    isplitl [Z3]; · iexact Z3
    iexact Z4
  isplitl [H0]; · iexists (rowLanded m ρ c); rw [← rhPts_eq]; iexact H0
  isplitl [H1]; · iexists (colLanded m ρ c); rw [← chPts_eq]; iexact H1
  isplitl [H2]; · iexists (rowStg m ρ c); rw [← rsPts_eq]; iexact H2
  iexists (colStg m ρ c); rw [← csPts_eq]; iexact H3

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) (by fin_cases w <;> fin_cases s <;> decide) _ (by
      rcases t with ⟨_ | _, ht⟩
      · exact Or.inl rfl
      · exact Or.inr rfl)

/-! ## The arrays after the run -/

/-- The argument array after the run holds what it held. -/
theorem finalA_x (c : Dev nD) : (dats m ρ 0 c).arrAt (0 : Fin 2) cfg0.N = m ((c.tc : Thread nD τ).loc main_arg0) :=
  (dats (F := F) m ρ 0 c).arrAt_in (0 : Fin 2) rfl _

/-- The result array after the run: the one point writes the whole block back, so it holds what the body left in the
    result's staging buffer. -/
theorem finalA_out (c : Dev nD) : (dats m ρ 0 c).arrAt (1 : Fin 2) cfg0.N = outAt m ρ c := by
  show (dats m ρ 0 c).arrAt (1 : Fin 2) ((t₀ : Fin cfg0.N).val + 1) = outAt m ρ c
  rw [Dat.arrAt_succ, flush0_1 t₀, if_pos rfl]
  exact Memref.write_access_unit_zero_univ (Elt F) main_v1 (funext fun a => Nat.zero_mul _) _ _ _

/-! ## The run -/

set_option maxRecDepth 8000 in
/-- At the compiled mesh of four devices, for any float values, from any memory with zero counters, given the body's
    obligation at every device: every weakly fair execution of @main — the four kernels handshaking with both peers on
    the runtime's barrier semaphore, then exchanging a boundary row and a boundary column — terminates, and every final
    state has each device's result array at the block its body computes and its argument array unchanged. -/
theorem run_main (m : (ℓ : Loc nD τ sig) → Buf (Elt F) ℓ) (ρ : Dev nD → PrngReg)
    (hbody : ∀ c, BodyObligation (dats (F := F) m ρ 0 c) (defs₀ (F := F)) 𝒱₀ () Set.univ) :
    θ_run defs (onTc (τ := τ) (main (F := F))) (s₀ m ρ)
      (fun r => ∀ c : Dev nD, r.2.mem ((c.tc : Thread nD τ).loc main_v1) = outAt m ρ c
                            ∧ r.2.mem ((c.tc : Thread nD τ).loc main_arg0) = m ((c.tc : Thread nD τ).loc main_arg0)) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (hbody c).loose) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_halo m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c => ⟨((h c).1 (1 : Fin 2)).trans (finalA_out m ρ c), ((h c).1 (0 : Fin 2)).trans (finalA_x m ρ c)⟩)

/-- info: 'Cert.Kernel.Halo.run_main' depends on axioms: [propext, Classical.choice, Quot.sound] -/
#guard_msgs in #print axioms run_main

end Cert.Kernel.Halo

end
-- ==== Proof.Spec.lean ====
/-
  The five-point update on the extended reals, in the two groupings the two programs spell, and the law that joins
  them on real entries. The reference adds the four weighted neighbours to the weighted centre one at a time,
  (((½·c + ⅛·n) + ⅛·s) + ⅛·w) + ⅛·e; the kernel weights the sum of the neighbours once, ½·c + ⅛·(((n + s) + w) + e).
  Distributing ⅛ over a sum is sound on reals (it fails at opposite infinities), so the law is stated over real
  entries. Also here: the whole-array function the reference computes on a 512 × 512 array — the update strictly
  inside, the entry itself on the rim.
-/
import Idealize.ShloMosaic.PureOps.Ideal
import Idealize.ShloMosaic.Lib.ValueIdx

noncomputable section

namespace Cert.Spec

open Idealize.ShloMosaic Idealize.ShloMosaic.ValueIdx

/-- The weight of the centre, the word both programs print for one half. -/
abbrev half : EReal := Ideal.ofBits .f32 0x3F000000#32
/-- The weight of a neighbour, the word both programs print for one eighth. -/
abbrev eighth : EReal := Ideal.ofBits .f32 0x3E000000#32

theorem half_eq : half = (((1 / 2 : ℝ)) : EReal) := by
  simp [half, Ideal.ofBits, Ideal.ieee, -EReal.coe_mul]; norm_num

theorem eighth_eq : eighth = (((1 / 8 : ℝ)) : EReal) := by
  simp [eighth, Ideal.ofBits, Ideal.ieee, -EReal.coe_mul]; norm_num

/-- The update as the reference groups it. -/
def updR (c n s w e : EReal) : EReal := half * c + eighth * n + eighth * s + eighth * w + eighth * e
/-- The update as the kernel groups it. -/
def updK (c n s w e : EReal) : EReal := half * c + eighth * (n + s + w + e)

/-- On real entries the two groupings agree: ⅛ distributes over the sum of the four neighbours. -/
theorem updK_eq_updR (c n s w e : ℝ) : updK c n s w e = updR c n s w e := by
  unfold updK updR
  rw [half_eq, eighth_eq]
  simp only [← EReal.coe_add, ← EReal.coe_mul]
  congr 1
  ring

/-- What the reference leaves at entry (I, J) of a 512 × 512 array `X`: strictly inside, the update of the entry by its
    four neighbours; on the rim, the entry. -/
def refAt (X : Fin 512 → Fin 512 → EReal) (I J : Fin 512) : EReal :=
  if h : 1 ≤ I.val ∧ I.val ≤ 510 ∧ 1 ≤ J.val ∧ J.val ≤ 510 then
    updR (X I J) (X ⟨I.val - 1, by omega⟩ J) (X ⟨I.val + 1, by omega⟩ J) (X I ⟨J.val - 1, by omega⟩) (X I ⟨J.val + 1, by omega⟩)
  else X I J

end Cert.Spec

end
-- ==== Proof.RefValue.lean ====
/-
  The reference side, read as one function of the argument array. The reference takes five 510 × 510 windows of a
  512 × 512 array — the interior and its four neighbours one step north, south, west and east —, weights the interior
  by one half and each neighbour by one eighth, adds them one at a time, and writes the sum back over the interior by a
  scatter of ONE whole window at the index vector (1, 1) whose body returns the update. First the scatter in general:
  its fold over the updates leaves an element no update lands at untouched, and an element exactly one update lands at
  holding that update. Then this scatter's result index — the update's index moved one row down and one column right,
  always inside —, hence the result entry by entry: strictly inside, the update one row up and one column left; on the
  rim, the operand. Last the update at an entry is the five-point update of the entry's neighbourhood, so the result
  is `G`, and the reference's run is restated with its result named `G` of the argument.
-/
import proofs.«900193_g7700000000000194_dist_halo2d_stencil_xy_m256_n256_v7x_xy2x2_f32_1_alg».proof.Defs
import proofs.«900193_g7700000000000194_dist_halo2d_stencil_xy_m256_n256_v7x_xy2x2_f32_1_alg».proof.Proof.Gen.ReferenceIdeal
import proofs.«900193_g7700000000000194_dist_halo2d_stencil_xy_m256_n256_v7x_xy2x2_f32_1_alg».proof.Proof.Gen.ReferenceIdeal.Run
import proofs.«900193_g7700000000000194_dist_halo2d_stencil_xy_m256_n256_v7x_xy2x2_f32_1_alg».proof.Proof.Gen.ReferenceIdeal.Read
import proofs.«900193_g7700000000000194_dist_halo2d_stencil_xy_m256_n256_v7x_xy2x2_f32_1_alg».proof.Proof.Gen.Pre_finite_inputs_ReferenceIdeal
import proofs.«900193_g7700000000000194_dist_halo2d_stencil_xy_m256_n256_v7x_xy2x2_f32_1_alg».proof.Proof.Spec
import Idealize.ShloMosaic.Lib.ValueIdx
import Idealize.ShloMosaic.Lib.Pipeline.Value
import Idealize.ShloMosaic.PureOps.Ideal.Laws
import Idealize.ShloMosaic.Lib.StableHlo.Run

noncomputable section

namespace Cert.RefVal

open Idealize.ShloMosaic Idealize.ShloMosaic.ValueIdx

section Scatter

variable {α : Type} {s si u : Shape} {w : Nat}

/-- One step of the scatter's fold: update number `n` (row-major) lands where its result index says, or is dropped. -/
def scatStep (d : ScatterDims s si u) (f : α → α → α) (idx : IVec si w) (upd : u.Idx → α)
    (r : s.Idx → α) (n : Fin u.numel) : s.Idx → α :=
  match d.resultIdx? (u.rowMajor.symm n) idx with
  | some i => fun i' => if i' = i then f (r i) (upd (u.rowMajor.symm n)) else r i'
  | none => r

theorem scatter_eq_foldl (d : ScatterDims s si u) (f : α → α → α) (x : s.Idx → α) (idx : IVec si w) (upd : u.Idx → α) :
    Host.scatter d f x idx upd = (List.finRange u.numel).foldl (scatStep d f idx upd) x := rfl

theorem scatStep_miss (d : ScatterDims s si u) (f : α → α → α) (idx : IVec si w) (upd : u.Idx → α)
    (r : s.Idx → α) (n : Fin u.numel) (i' : s.Idx) (h : d.resultIdx? (u.rowMajor.symm n) idx ≠ some i') :
    scatStep d f idx upd r n i' = r i' := by
  unfold scatStep
  generalize d.resultIdx? (u.rowMajor.symm n) idx = o at h
  cases o with
  | none => rfl
  | some i =>
    have hne : i' ≠ i := fun e => h (by rw [e])
    exact if_neg hne

theorem scatStep_hit (d : ScatterDims s si u) (idx : IVec si w) (upd : u.Idx → α)
    (r : s.Idx → α) (n : Fin u.numel) (i' : s.Idx) (h : d.resultIdx? (u.rowMajor.symm n) idx = some i') :
    scatStep d (fun _ b => b) idx upd r n i' = upd (u.rowMajor.symm n) := by
  unfold scatStep
  rw [h]
  exact if_pos rfl

theorem foldl_miss (d : ScatterDims s si u) (f : α → α → α) (idx : IVec si w) (upd : u.Idx → α) (i' : s.Idx) :
    ∀ (L : List (Fin u.numel)) (_ : ∀ n ∈ L, d.resultIdx? (u.rowMajor.symm n) idx ≠ some i') (r : s.Idx → α),
      L.foldl (scatStep d f idx upd) r i' = r i'
  | [], _, _ => rfl
  | n :: L, h, r => by
    rw [List.foldl_cons, foldl_miss d f idx upd i' L (fun m hm => h m (List.mem_cons_of_mem _ hm))]
    exact scatStep_miss d f idx upd r n i' (h n List.mem_cons_self)

theorem foldl_hit (d : ScatterDims s si u) (idx : IVec si w) (upd : u.Idx → α) (i' : s.Idx) (n₀ : Fin u.numel)
    (hhit : d.resultIdx? (u.rowMajor.symm n₀) idx = some i') :
    ∀ (L : List (Fin u.numel)) (_ : n₀ ∈ L)
      (_ : ∀ n ∈ L, d.resultIdx? (u.rowMajor.symm n) idx = some i' → n = n₀) (r : s.Idx → α),
      L.foldl (scatStep d (fun _ b => b) idx upd) r i' = upd (u.rowMajor.symm n₀)
  | [], hm, _, _ => absurd hm (by simp)
  | m :: L, hm, hu, r => by
    rw [List.foldl_cons]
    by_cases hL : n₀ ∈ L
    · exact foldl_hit d idx upd i' n₀ hhit L hL (fun n hn => hu n (List.mem_cons_of_mem _ hn)) _
    · have hmn : m = n₀ := by
        rcases List.mem_cons.1 hm with e | e
        · exact e.symm
        · exact absurd e hL
      subst hmn
      rw [foldl_miss d _ idx upd i' L (fun n hn e => hL (hu n (List.mem_cons_of_mem _ hn) e ▸ hn))]
      exact scatStep_hit d idx upd r m i' hhit

/-- A scatter leaves an element no update lands at as the operand has it. -/
theorem scatter_apply_of_miss (d : ScatterDims s si u) (f : α → α → α) (x : s.Idx → α) (idx : IVec si w) (upd : u.Idx → α)
    (i' : s.Idx) (h : ∀ j : u.Idx, d.resultIdx? j idx ≠ some i') : Host.scatter d f x idx upd i' = x i' := by
  rw [scatter_eq_foldl]
  exact foldl_miss d f idx upd i' _ (fun n _ => h _) x

/-- A scatter whose body returns the update holds, at an element exactly one update lands at, that update. -/
theorem scatter_set_apply_of_hit (d : ScatterDims s si u) (x : s.Idx → α) (idx : IVec si w) (upd : u.Idx → α)
    (i' : s.Idx) (j : u.Idx) (hj : d.resultIdx? j idx = some i')
    (huniq : ∀ j' : u.Idx, d.resultIdx? j' idx = some i' → j' = j) :
    Host.scatter d (fun _ b => b) x idx upd i' = upd j := by
  rw [scatter_eq_foldl]
  have e : u.rowMajor.symm (u.rowMajor j) = j := u.rowMajor.symm_apply_apply j
  have := foldl_hit d idx upd i' (u.rowMajor j) (by rw [e]; exact hj) (List.finRange u.numel) (List.mem_finRange _)
    (fun n _ hn => by rw [← huniq _ hn]; exact (u.rowMajor.apply_symm_apply n).symm) x
  rw [this, e]

end Scatter

section Window

open Cert.ReferenceIdeal Cert.ReferenceIdeal.Gen

variable {α : Type}

theorem start_eq (idx : IVec S2 32) (j : S510x510.Idx) (a : Fin 2) :
    scatter_S512x512_S2_S510x510_01_n_01_0.start j idx a = (idx (ix1 a)).toInt := by
  unfold ScatterDims.start
  match a with
  | ⟨0, _⟩ =>
    rw [dif_pos (show (⟨0, _⟩ : Fin 2) ∈ scatter_S512x512_S2_S510x510_01_n_01_0.scatterDimsToOperandDims from List.mem_cons_self)]
    refine congrArg (fun k => (idx k).toInt) (funext fun b => Fin.ext ?_)
    match b with
    | ⟨0, _⟩ => rfl
  | ⟨1, _⟩ =>
    rw [dif_pos (show (⟨1, _⟩ : Fin 2) ∈ scatter_S512x512_S2_S510x510_01_n_01_0.scatterDimsToOperandDims from List.mem_cons_of_mem _ List.mem_cons_self)]
    refine congrArg (fun k => (idx k).toInt) (funext fun b => Fin.ext ?_)
    match b with
    | ⟨0, _⟩ => rfl

theorem window_eq (j : S510x510.Idx) (a : Fin 2) :
    scatter_S512x512_S2_S510x510_01_n_01_0.window j a = (j a).val := by
  unfold ScatterDims.window
  match a with
  | ⟨0, _⟩ => rfl
  | ⟨1, _⟩ => rfl

/-- The window's element `j` one row down and one column right, as an element of the whole array. -/
def shift (j : S510x510.Idx) : S512x512.Idx :=
  ix2 ⟨(j 0).val + 1, by have := idx2_lt0 j; omega⟩ ⟨(j 1).val + 1, by have := idx2_lt1 j; omega⟩

theorem one_toInt : (1#32 : BitVec 32).toInt = 1 := by decide

theorem resultIdx_eq (idx : IVec S2 32) (h0 : idx (ix1 0) = 1#32) (h1 : idx (ix1 1) = 1#32) (j : S510x510.Idx) :
    scatter_S512x512_S2_S510x510_01_n_01_0.resultIdx? j idx = some (shift j) := by
  have hs : ∀ a : Fin 2, scatter_S512x512_S2_S510x510_01_n_01_0.start j idx a
      + scatter_S512x512_S2_S510x510_01_n_01_0.window j a = (((j a).val + 1 : Nat) : Int) := by
    intro a
    rw [start_eq, window_eq]
    match a with
    | ⟨0, _⟩ => rw [show ix1 (⟨0, by omega⟩ : Fin 2) = ix1 0 from rfl, h0, one_toInt]; push_cast; omega
    | ⟨1, _⟩ => rw [show ix1 (⟨1, by omega⟩ : Fin 2) = ix1 1 from rfl, h1, one_toInt]; push_cast; omega
  have hb : ∀ a : Fin 2, (j a).val + 1 < S512x512.size a := by
    intro a
    match a with
    | ⟨0, _⟩ => have := idx2_lt0 j; show (j 0).val + 1 < 512; omega
    | ⟨1, _⟩ => have := idx2_lt1 j; show (j 1).val + 1 < 512; omega
  unfold ScatterDims.resultIdx?
  rw [dif_pos (fun a => by rw [hs a]; exact ⟨by omega, by exact_mod_cast hb a⟩)]
  refine congrArg some (funext fun a => Fin.ext ?_)
  show (scatter_S512x512_S2_S510x510_01_n_01_0.start j idx a
      + scatter_S512x512_S2_S510x510_01_n_01_0.window j a).toNat = _
  rw [hs a]
  match a with
  | ⟨0, _⟩ => rfl
  | ⟨1, _⟩ => rfl

/-- ONE WHOLE WINDOW WRITTEN AT (1, 1): a scatter of a 510 × 510 update into a 512 × 512 operand at the index vector
    (1, 1), its body returning the update, holds strictly inside the update one row up and one column left, and on the rim
    the operand. -/
theorem scatter_window_apply (x : S512x512.Idx → α) (idx : IVec S2 32) (upd : S510x510.Idx → α)
    (h0 : idx (ix1 0) = 1#32) (h1 : idx (ix1 1) = 1#32) (I J : Fin 512) :
    Host.scatter scatter_S512x512_S2_S510x510_01_n_01_0 (fun _ b => b) x idx upd (ix2 I J) =
      if h : 1 ≤ I.val ∧ I.val ≤ 510 ∧ 1 ≤ J.val ∧ J.val ≤ 510 then
        upd (ix2 ⟨I.val - 1, by omega⟩ ⟨J.val - 1, by omega⟩)
      else x (ix2 I J) := by
  by_cases h : 1 ≤ I.val ∧ I.val ≤ 510 ∧ 1 ≤ J.val ∧ J.val ≤ 510
  · rw [dif_pos h]
    refine scatter_set_apply_of_hit _ x idx upd _ _ ?_ ?_
    · rw [resultIdx_eq idx h0 h1]
      refine congrArg some (funext fun a => Fin.ext ?_)
      match a with
      | ⟨0, _⟩ => show I.val - 1 + 1 = I.val; omega
      | ⟨1, _⟩ => show J.val - 1 + 1 = J.val; omega
    · intro j' hj'
      rw [resultIdx_eq idx h0 h1] at hj'
      have e := Option.some.inj hj'
      have e0 : (j' 0).val + 1 = I.val := congrArg (fun k : S512x512.Idx => (k 0).val) e
      have e1 : (j' 1).val + 1 = J.val := congrArg (fun k : S512x512.Idx => (k 1).val) e
      funext a
      refine Fin.ext ?_
      match a with
      | ⟨0, _⟩ => show (j' 0).val = I.val - 1; omega
      | ⟨1, _⟩ => show (j' 1).val = J.val - 1; omega
  · rw [dif_neg h]
    refine scatter_apply_of_miss _ _ x idx upd _ ?_
    intro j hj
    rw [resultIdx_eq idx h0 h1] at hj
    have e := Option.some.inj hj
    have e0 : (j 0).val + 1 = I.val := congrArg (fun k : S512x512.Idx => (k 0).val) e
    have e1 : (j 1).val + 1 = J.val := congrArg (fun k : S512x512.Idx => (k 1).val) e
    have b0 := idx2_lt0 j
    have b1 := idx2_lt1 j
    omega

/-- The reference's index vector — two broadcast constants 1 joined along their one axis — is (1, 1). -/
theorem idxvec_0 {F : FTy → Type} [FloatOps F] :
    (concatenate S2 0 [⟨S1, (broadcastInDim S1 ![] bcast_S_S1 (constantI S_ 32 1#32))⟩, ⟨S1, (broadcastInDim S1 ![] bcast_S_S1 (constantI S_ 32 1#32))⟩] concatenates_S1_S1_S2_d0 : IVec S2 32) (ix1 0) = 1#32 := by
  rw [concatenate_pair_apply_left (0 : Fin S2.rank) _ _ concatenates_S1_S1_S2_d0 (ix1 0) rfl (ix1 0) (fun b => by match b with | ⟨0, _⟩ => rfl)]
  rfl

theorem idxvec_1 {F : FTy → Type} [FloatOps F] :
    (concatenate S2 0 [⟨S1, (broadcastInDim S1 ![] bcast_S_S1 (constantI S_ 32 1#32))⟩, ⟨S1, (broadcastInDim S1 ![] bcast_S_S1 (constantI S_ 32 1#32))⟩] concatenates_S1_S1_S2_d0 : IVec S2 32) (ix1 1) = 1#32 := by
  rw [concatenate_pair_apply_right (0 : Fin S2.rank) _ _ concatenates_S1_S1_S2_d0 (ix1 1) rfl rfl (ix1 0)
    (fun b hb => by match b with | ⟨0, _⟩ => exact absurd rfl hb) rfl]
  rfl

end Window

section Value

open Cert.ReferenceIdeal Cert.ReferenceIdeal.Gen Cert.ReferenceIdeal.Read Idealize.ShloMosaic.TcCoe Idealize.SL.Sem Idealize.ShloMosaic.StableHlo

/-- What the reference leaves in its result, as one function of its argument array: entry by entry, the five-point
    update strictly inside and the entry itself on the rim. -/
def G (X : (⟨S512x512, .f32⟩ : BufTy).Contents (Elt Ideal)) : (⟨S512x512, .f32⟩ : BufTy).Contents (Elt Ideal) :=
  fun idx => Cert.Spec.refAt (fun I J => X (ix2 I J)) (idx 0) (idx 1)

theorem G_apply (X : (⟨S512x512, .f32⟩ : BufTy).Contents (Elt Ideal)) (I J : Fin 512) :
    G X (ix2 I J) = Cert.Spec.refAt (fun I J => X (ix2 I J)) I J := rfl

/-- The update the reference computes before it writes it back, at entry (p, q) of the 510 × 510 interior: the
    five-point update of entry (p + 1, q + 1) of the whole array. -/
theorem update_apply (X : (⟨S512x512, .f32⟩ : BufTy).Contents (Elt Ideal)) (I J : Fin 512)
    (h : 1 ≤ I.val ∧ I.val ≤ 510 ∧ 1 ≤ J.val ∧ J.val ≤ 510) :
    val_main_v18 (F := Ideal) X (ix2 ⟨I.val - 1, by omega⟩ ⟨J.val - 1, by omega⟩) =
      Cert.Spec.updR (X (ix2 I J)) (X (ix2 ⟨I.val - 1, by omega⟩ J)) (X (ix2 ⟨I.val + 1, by omega⟩ J))
        (X (ix2 I ⟨J.val - 1, by omega⟩)) (X (ix2 I ⟨J.val + 1, by omega⟩)) := by
  have ec : idx_main_v0 (ix2 (⟨I.val - 1, by omega⟩ : Fin 510) (⟨J.val - 1, by omega⟩ : Fin 510)) = ix2 I J :=
    funext fun a => Fin.ext (by match a with
      | ⟨0, _⟩ => show 1 + (I.val - 1) = I.val; omega
      | ⟨1, _⟩ => show 1 + (J.val - 1) = J.val; omega)
  have en : idx_main_v3 (ix2 (⟨I.val - 1, by omega⟩ : Fin 510) (⟨J.val - 1, by omega⟩ : Fin 510))
      = ix2 (⟨I.val - 1, by omega⟩ : Fin 512) J :=
    funext fun a => Fin.ext (by match a with
      | ⟨0, _⟩ => rfl
      | ⟨1, _⟩ => show 1 + (J.val - 1) = J.val; omega)
  have es : idx_main_v7 (ix2 (⟨I.val - 1, by omega⟩ : Fin 510) (⟨J.val - 1, by omega⟩ : Fin 510))
      = ix2 (⟨I.val + 1, by omega⟩ : Fin 512) J :=
    funext fun a => Fin.ext (by match a with
      | ⟨0, _⟩ => show 2 + (I.val - 1) = I.val + 1; omega
      | ⟨1, _⟩ => show 1 + (J.val - 1) = J.val; omega)
  have ew : idx_main_v11 (ix2 (⟨I.val - 1, by omega⟩ : Fin 510) (⟨J.val - 1, by omega⟩ : Fin 510))
      = ix2 I (⟨J.val - 1, by omega⟩ : Fin 512) :=
    funext fun a => Fin.ext (by match a with
      | ⟨0, _⟩ => show 1 + (I.val - 1) = I.val; omega
      | ⟨1, _⟩ => rfl)
  have ee : idx_main_v15 (ix2 (⟨I.val - 1, by omega⟩ : Fin 510) (⟨J.val - 1, by omega⟩ : Fin 510))
      = ix2 I (⟨J.val + 1, by omega⟩ : Fin 512) :=
    funext fun a => Fin.ext (by match a with
      | ⟨0, _⟩ => show 1 + (I.val - 1) = I.val; omega
      | ⟨1, _⟩ => show 2 + (J.val - 1) = J.val + 1; omega)
  rw [val_main_v18_apply, val_main_v14_apply, val_main_v10_apply, val_main_v6_apply,
    val_main_v2_apply, val_main_v5_apply, val_main_v9_apply, val_main_v13_apply, val_main_v17_apply,
    val_main_v1_apply, val_main_v4_apply, val_main_v8_apply, val_main_v12_apply, val_main_v16_apply,
    val_main_cst_apply, val_main_cst_0_apply, val_main_cst_1_apply, val_main_cst_2_apply, val_main_cst_3_apply,
    val_main_v0_apply, val_main_v3_apply, val_main_v7_apply, val_main_v11_apply, val_main_v15_apply,
    ec, en, es, ew, ee]
  simp only [Ideal.addf_def, Ideal.mulf_def, Ideal.ofBits_def]
  rfl

/-- THE REFERENCE'S RESULT IS `G`: the term its run states for the result buffer, read entry by entry. -/
theorem result_eq (X : (⟨S512x512, .f32⟩ : BufTy).Contents (Elt Ideal)) :
    Host.scatter scatter_S512x512_S2_S510x510_01_n_01_0 (fun _ b => b) (X) (concatenate S2 0 [⟨S1, (broadcastInDim S1 ![] bcast_S_S1 (constantI S_ 32 1#32))⟩, ⟨S1, (broadcastInDim S1 ![] bcast_S_S1 (constantI S_ 32 1#32))⟩] concatenates_S1_S1_S2_d0) (addf (F := Ideal) (addf (addf (addf (mulf (broadcastInDim S510x510 ![] bcast_S_S510x510 (constant S_ .f32 0x3F000000#32)) (extractStridedSlice S510x510 ![1, 1] (X) slices_S512x512_S510x510_1_1)) (mulf (broadcastInDim S510x510 ![] bcast_S_S510x510 (constant S_ .f32 0x3E000000#32)) (extractStridedSlice S510x510 ![0, 1] (X) slices_S512x512_S510x510_0_1))) (mulf (broadcastInDim S510x510 ![] bcast_S_S510x510 (constant S_ .f32 0x3E000000#32)) (extractStridedSlice S510x510 ![2, 1] (X) slices_S512x512_S510x510_2_1))) (mulf (broadcastInDim S510x510 ![] bcast_S_S510x510 (constant S_ .f32 0x3E000000#32)) (extractStridedSlice S510x510 ![1, 0] (X) slices_S512x512_S510x510_1_0))) (mulf (broadcastInDim S510x510 ![] bcast_S_S510x510 (constant S_ .f32 0x3E000000#32)) (extractStridedSlice S510x510 ![1, 2] (X) slices_S512x512_S510x510_1_2)))
      = G X := by
  rw [val_main_v22_eq (F := Ideal) X]
  funext i
  obtain ⟨I, J, rfl⟩ : ∃ (I : Fin 512) (J : Fin 512), i = ix2 I J := ⟨i 0, i 1, eq_ix2 i⟩
  unfold val_main_v22
  rw [scatter_window_apply X (val_main_v21 (F := Ideal)) _ (idxvec_0 (F := Ideal)) (idxvec_1 (F := Ideal)) I J, G_apply]
  unfold Cert.Spec.refAt
  by_cases h : 1 ≤ I.val ∧ I.val ≤ 510 ∧ 1 ≤ J.val ∧ J.val ≤ 510
  · rw [dif_pos h, dif_pos h]
    exact update_apply X I J h
  · rw [dif_neg h, dif_neg h]

/-- The reference's run with its result named: every weakly fair execution ends with the result buffer at `G` of the
    argument array and the argument unchanged. -/
theorem run_G (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩
      (fun r =>
        r.2.mem (((0 : Dev Cert.ReferenceIdeal.nD).tc : Thread Cert.ReferenceIdeal.nD Cert.ReferenceIdeal.τ).loc Cert.ReferenceIdeal.main_v22)
            = G (m' (((0 : Dev Cert.ReferenceIdeal.nD).tc : Thread Cert.ReferenceIdeal.nD Cert.ReferenceIdeal.τ).loc Cert.ReferenceIdeal.main_arg0))
          ∧ r.2.mem (((0 : Dev Cert.ReferenceIdeal.nD).tc : Thread Cert.ReferenceIdeal.nD Cert.ReferenceIdeal.τ).loc Cert.ReferenceIdeal.main_arg0)
            = m' (((0 : Dev Cert.ReferenceIdeal.nD).tc : Thread Cert.ReferenceIdeal.nD Cert.ReferenceIdeal.τ).loc Cert.ReferenceIdeal.main_arg0)) :=
  (θ_run Cert.ReferenceIdeal.defs _ _).mono
    (fun _ h => ⟨(h 0).1.trans (result_eq _), (h 0).2⟩)
    (Cert.ReferenceIdeal.Value.run (F := Ideal) m' ρ')

/-- The reference leaves its argument as it found it. -/
theorem frame_ri : Cert.frame_ReferenceIdeal :=
  fun m ρ _ => (θ_run Cert.ReferenceIdeal.defs _ _).mono (fun _ h c => (h c).2) (Cert.ReferenceIdeal.Value.run (F := Ideal) m ρ)

end Value

/-- info: 'Cert.RefVal.run_G' depends on axioms: [propext, Classical.choice, Quot.sound] -/
#guard_msgs in #print axioms Cert.RefVal.run_G

/-- info: 'Cert.RefVal.frame_ri' depends on axioms: [propext, Classical.choice, Quot.sound] -/
#guard_msgs in #print axioms Cert.RefVal.frame_ri

end Cert.RefVal

end
-- ==== Proof.PayValue.lean ====
/-
  Each payload of the idealized stencil kernel read AT AN INDEX, over the extended reals. The interior payload is the
  five-point update of an entry by its four neighbours inside the block, the block's edge row or column standing in
  for the missing neighbour (the body's concatenations duplicate it); the four edge payloads are the same update on
  one row or column, the neighbours across the edge supplied by the halo vectors and the two ends by a 1 × 1 corner
  word; the remaining payloads only re-lay a vector (a cast to its own shape, a transpose of a row or a column).
-/
import proofs.«900193_g7700000000000194_dist_halo2d_stencil_xy_m256_n256_v7x_xy2x2_f32_1_alg».proof.Proof.Gen.KernelIdeal.Skeleton
import proofs.«900193_g7700000000000194_dist_halo2d_stencil_xy_m256_n256_v7x_xy2x2_f32_1_alg».proof.Proof.Spec
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout

noncomputable section

namespace Cert.PayVal

open Cert.KernelIdeal Cert.KernelIdeal.Gen Idealize.ShloMosaic Idealize.ShloMosaic.ValueIdx

/-! ## A two-piece concatenation of matrices at an index -/

section Cat
variable {α : Type}

/-- Along the rows, a row index below the first piece's height reads the first piece at the same place. -/
theorem cat_rows_fst {a1 a2 n b : Nat} (x1 : (⟨2, ![a1, b]⟩ : Shape).Idx → α) (x2 : (⟨2, ![a2, b]⟩ : Shape).Idx → α)
    (a : Fin (⟨2, ![n, b]⟩ : Shape).rank)
    (h : Shape.Concatenates [⟨2, ![a1, b]⟩, ⟨2, ![a2, b]⟩] ⟨2, ![n, b]⟩ a)
    (i : Fin n) (j : Fin b) (i' : Fin a1) (hi : i'.val = i.val) :
    concatenate ⟨2, ![n, b]⟩ a [⟨⟨2, ![a1, b]⟩, x1⟩, ⟨⟨2, ![a2, b]⟩, x2⟩] h (ix2 i j) = x1 (ix2 i' j) :=
  concatenate_pair_apply_left a x1 x2 h (ix2 i j) rfl (ix2 i' j) (fun c => by
    match c with
    | ⟨0, _⟩ => exact hi
    | ⟨1, _⟩ => rfl)

/-- Along the rows, a row index at or past the first piece's height reads the second piece, that height less. -/
theorem cat_rows_snd {a1 a2 n b : Nat} (x1 : (⟨2, ![a1, b]⟩ : Shape).Idx → α) (x2 : (⟨2, ![a2, b]⟩ : Shape).Idx → α)
    (a : Fin (⟨2, ![n, b]⟩ : Shape).rank)
    (h : Shape.Concatenates [⟨2, ![a1, b]⟩, ⟨2, ![a2, b]⟩] ⟨2, ![n, b]⟩ a) (ha : a = ⟨0, Nat.zero_lt_two⟩)
    (i : Fin n) (j : Fin b) (i' : Fin a2) (hi : i'.val + a1 = i.val) :
    concatenate ⟨2, ![n, b]⟩ a [⟨⟨2, ![a1, b]⟩, x1⟩, ⟨⟨2, ![a2, b]⟩, x2⟩] h (ix2 i j) = x2 (ix2 i' j) := by
  subst ha
  exact concatenate_pair_apply_right _ x1 x2 h (ix2 i j) rfl rfl (ix2 i' j) (fun c hc => by
    match c with
    | ⟨0, _⟩ => exact absurd rfl hc
    | ⟨1, _⟩ => rfl) hi

/-- Along the columns, a column index below the first piece's width reads the first piece at the same place. -/
theorem cat_cols_fst {b1 b2 n a0 : Nat} (x1 : (⟨2, ![a0, b1]⟩ : Shape).Idx → α) (x2 : (⟨2, ![a0, b2]⟩ : Shape).Idx → α)
    (a : Fin (⟨2, ![a0, n]⟩ : Shape).rank)
    (h : Shape.Concatenates [⟨2, ![a0, b1]⟩, ⟨2, ![a0, b2]⟩] ⟨2, ![a0, n]⟩ a)
    (i : Fin a0) (j : Fin n) (j' : Fin b1) (hj : j'.val = j.val) :
    concatenate ⟨2, ![a0, n]⟩ a [⟨⟨2, ![a0, b1]⟩, x1⟩, ⟨⟨2, ![a0, b2]⟩, x2⟩] h (ix2 i j) = x1 (ix2 i j') :=
  concatenate_pair_apply_left a x1 x2 h (ix2 i j) rfl (ix2 i j') (fun c => by
    match c with
    | ⟨0, _⟩ => rfl
    | ⟨1, _⟩ => exact hj)

/-- Along the columns, a column index at or past the first piece's width reads the second piece, that width less. -/
theorem cat_cols_snd {b1 b2 n a0 : Nat} (x1 : (⟨2, ![a0, b1]⟩ : Shape).Idx → α) (x2 : (⟨2, ![a0, b2]⟩ : Shape).Idx → α)
    (a : Fin (⟨2, ![a0, n]⟩ : Shape).rank)
    (h : Shape.Concatenates [⟨2, ![a0, b1]⟩, ⟨2, ![a0, b2]⟩] ⟨2, ![a0, n]⟩ a) (ha : a = ⟨1, Nat.one_lt_two⟩)
    (i : Fin a0) (j : Fin n) (j' : Fin b2) (hj : j'.val + b1 = j.val) :
    concatenate ⟨2, ![a0, n]⟩ a [⟨⟨2, ![a0, b1]⟩, x1⟩, ⟨⟨2, ![a0, b2]⟩, x2⟩] h (ix2 i j) = x2 (ix2 i j') := by
  subst ha
  exact concatenate_pair_apply_right _ x1 x2 h (ix2 i j) rfl rfl (ix2 i j') (fun c hc => by
    match c with
    | ⟨0, _⟩ => rfl
    | ⟨1, _⟩ => exact absurd rfl hc) hj

end Cat

/-! ## The clamped neighbours of an index -/

/-- The index before, clamped at 0. -/
def up (i : Fin 256) : Fin 256 := ⟨i.val - 1, by omega⟩
/-- The index after, clamped at 255. -/
def dn (i : Fin 256) : Fin 256 := ⟨min (i.val + 1) 255, by omega⟩

/-! ## The four shifted copies of a 256 × 256 block -/

section Shift
variable {α : Type}

/-- The block's first row above its first 255 rows: at row `i` it reads row `i - 1`, and row 0 at row 0. -/
theorem north_apply (x : S256x256.Idx → α) (h1 : S256x256.Slices ![0, 0] S1x256) (h2 : S256x256.Slices ![0, 0] S255x256)
    (h : Shape.Concatenates [S1x256, S255x256] S256x256 0) (i j : Fin 256) :
    concatenate S256x256 0 [⟨S1x256, extractStridedSlice S1x256 ![0, 0] x h1⟩,
      ⟨S255x256, extractStridedSlice S255x256 ![0, 0] x h2⟩] h (ix2 i j) = x (ix2 (up i) j) := by
  by_cases hi : i.val = 0
  · rw [cat_rows_fst _ _ _ h i j (⟨0, Nat.one_pos⟩ : Fin 1) hi.symm]
    exact slice2_axis0_apply 0 x h1 _ j (up i) (by simp only [up]; omega)
  · rw [cat_rows_snd _ _ _ h rfl i j (⟨i.val - 1, by omega⟩ : Fin 255) (by simp only []; omega)]
    exact slice2_axis0_apply 0 x h2 _ j (up i) (by simp only [up]; omega)

/-- The block's last 255 rows above its last row: at row `i` it reads row `i + 1`, and row 255 at row 255. -/
theorem south_apply (x : S256x256.Idx → α) (h1 : S256x256.Slices ![1, 0] S255x256) (h2 : S256x256.Slices ![255, 0] S1x256)
    (h : Shape.Concatenates [S255x256, S1x256] S256x256 0) (i j : Fin 256) :
    concatenate S256x256 0 [⟨S255x256, extractStridedSlice S255x256 ![1, 0] x h1⟩,
      ⟨S1x256, extractStridedSlice S1x256 ![255, 0] x h2⟩] h (ix2 i j) = x (ix2 (dn i) j) := by
  by_cases hi : i.val < 255
  · rw [cat_rows_fst _ _ _ h i j (⟨i.val, hi⟩ : Fin 255) rfl]
    exact slice2_axis0_apply 1 x h1 _ j (dn i) (by simp only [dn]; omega)
  · rw [cat_rows_snd _ _ _ h rfl i j (⟨0, Nat.one_pos⟩ : Fin 1) (by simp only []; omega)]
    exact slice2_axis0_apply 255 x h2 _ j (dn i) (by simp only [dn]; omega)

/-- The block's first column left of its first 255 columns: at column `j` it reads column `j - 1`, and column 0 at
    column 0. -/
theorem west_apply (x : S256x256.Idx → α) (h1 : S256x256.Slices ![0, 0] S256x1) (h2 : S256x256.Slices ![0, 0] S256x255)
    (h : Shape.Concatenates [S256x1, S256x255] S256x256 1) (i j : Fin 256) :
    concatenate S256x256 1 [⟨S256x1, extractStridedSlice S256x1 ![0, 0] x h1⟩,
      ⟨S256x255, extractStridedSlice S256x255 ![0, 0] x h2⟩] h (ix2 i j) = x (ix2 i (up j)) := by
  by_cases hj : j.val = 0
  · rw [cat_cols_fst _ _ _ h i j (⟨0, Nat.one_pos⟩ : Fin 1) hj.symm]
    exact slice2_axis1_apply 0 x h1 i _ (up j) (by simp only [up]; omega)
  · rw [cat_cols_snd _ _ _ h rfl i j (⟨j.val - 1, by omega⟩ : Fin 255) (by simp only []; omega)]
    exact slice2_axis1_apply 0 x h2 i _ (up j) (by simp only [up]; omega)

/-- The block's last 255 columns left of its last column: at column `j` it reads column `j + 1`, and column 255 at
    column 255. -/
theorem east_apply (x : S256x256.Idx → α) (h1 : S256x256.Slices ![0, 1] S256x255) (h2 : S256x256.Slices ![0, 255] S256x1)
    (h : Shape.Concatenates [S256x255, S256x1] S256x256 1) (i j : Fin 256) :
    concatenate S256x256 1 [⟨S256x255, extractStridedSlice S256x255 ![0, 1] x h1⟩,
      ⟨S256x1, extractStridedSlice S256x1 ![0, 255] x h2⟩] h (ix2 i j) = x (ix2 i (dn j)) := by
  by_cases hj : j.val < 255
  · rw [cat_cols_fst _ _ _ h i j (⟨j.val, hj⟩ : Fin 255) rfl]
    exact slice2_axis1_apply 1 x h1 i _ (dn j) (by simp only [dn]; omega)
  · rw [cat_cols_snd _ _ _ h rfl i j (⟨0, Nat.one_pos⟩ : Fin 1) (by simp only []; omega)]
    exact slice2_axis1_apply 255 x h2 i _ (dn j) (by simp only [dn]; omega)

end Shift

/-! ## The edge rows and columns: the neighbour along the edge, the corner word at the two ends -/

section Edge
variable {α : Type}

/-- A corner word left of a row's first 255 entries: at column `j` the entry before, the corner word at column 0. -/
theorem west_row_apply (c : S1x1.Idx → α) (x : S1x256.Idx → α) (h1 : S1x256.Slices ![0, 0] S1x255)
    (h : Shape.Concatenates [S1x1, S1x255] S1x256 1) (j : Fin 256) :
    concatenate S1x256 1 [⟨S1x1, c⟩, ⟨S1x255, extractStridedSlice S1x255 ![0, 0] x h1⟩] h (ix2 (0 : Fin 1) j)
      = if j.val = 0 then c (ix2 (0 : Fin 1) (0 : Fin 1)) else x (ix2 (0 : Fin 1) (up j)) := by
  by_cases hj : j.val = 0
  · rw [if_pos hj, cat_cols_fst _ _ _ h (0 : Fin 1) j (0 : Fin 1) hj.symm]
  · rw [if_neg hj, cat_cols_snd _ _ _ h rfl (0 : Fin 1) j (⟨j.val - 1, by omega⟩ : Fin 255) (by simp only []; omega)]
    exact slice2_axis1_apply 0 x h1 _ _ (up j) (by simp only [up]; omega)

/-- A row's last 255 entries left of a corner word: at column `j` the entry after, the corner word at column 255. -/
theorem east_row_apply (c : S1x1.Idx → α) (x : S1x256.Idx → α) (h1 : S1x256.Slices ![0, 1] S1x255)
    (h : Shape.Concatenates [S1x255, S1x1] S1x256 1) (j : Fin 256) :
    concatenate S1x256 1 [⟨S1x255, extractStridedSlice S1x255 ![0, 1] x h1⟩, ⟨S1x1, c⟩] h (ix2 (0 : Fin 1) j)
      = if j.val = 255 then c (ix2 (0 : Fin 1) (0 : Fin 1)) else x (ix2 (0 : Fin 1) (dn j)) := by
  by_cases hj : j.val = 255
  · rw [if_pos hj, cat_cols_snd _ _ _ h rfl (0 : Fin 1) j (0 : Fin 1) (by show 0 + 255 = j.val; omega)]
  · rw [if_neg hj, cat_cols_fst _ _ _ h (0 : Fin 1) j (⟨j.val, by omega⟩ : Fin 255) rfl]
    exact slice2_axis1_apply 1 x h1 _ _ (dn j) (by simp only [dn]; omega)

/-- A corner word above a column's first 255 entries: at row `i` the entry before, the corner word at row 0. -/
theorem north_col_apply (c : S1x1.Idx → α) (x : S256x1.Idx → α) (h1 : S256x1.Slices ![0, 0] S255x1)
    (h : Shape.Concatenates [S1x1, S255x1] S256x1 0) (i : Fin 256) :
    concatenate S256x1 0 [⟨S1x1, c⟩, ⟨S255x1, extractStridedSlice S255x1 ![0, 0] x h1⟩] h (ix2 i (0 : Fin 1))
      = if i.val = 0 then c (ix2 (0 : Fin 1) (0 : Fin 1)) else x (ix2 (up i) (0 : Fin 1)) := by
  by_cases hi : i.val = 0
  · rw [if_pos hi, cat_rows_fst _ _ _ h i (0 : Fin 1) (0 : Fin 1) hi.symm]
  · rw [if_neg hi, cat_rows_snd _ _ _ h rfl i (0 : Fin 1) (⟨i.val - 1, by omega⟩ : Fin 255) (by simp only []; omega)]
    exact slice2_axis0_apply 0 x h1 _ _ (up i) (by simp only [up]; omega)

/-- A column's last 255 entries above a corner word: at row `i` the entry after, the corner word at row 255. -/
theorem south_col_apply (c : S1x1.Idx → α) (x : S256x1.Idx → α) (h1 : S256x1.Slices ![1, 0] S255x1)
    (h : Shape.Concatenates [S255x1, S1x1] S256x1 0) (i : Fin 256) :
    concatenate S256x1 0 [⟨S255x1, extractStridedSlice S255x1 ![1, 0] x h1⟩, ⟨S1x1, c⟩] h (ix2 i (0 : Fin 1))
      = if i.val = 255 then c (ix2 (0 : Fin 1) (0 : Fin 1)) else x (ix2 (dn i) (0 : Fin 1)) := by
  by_cases hi : i.val = 255
  · rw [if_pos hi, cat_rows_snd _ _ _ h rfl i (0 : Fin 1) (0 : Fin 1) (by show 0 + 255 = i.val; omega)]
  · rw [if_neg hi, cat_rows_fst _ _ _ h i (0 : Fin 1) (⟨i.val, by omega⟩ : Fin 255) rfl]
    exact slice2_axis0_apply 1 x h1 _ _ (dn i) (by simp only [dn]; omega)

end Edge

/-! ## The payloads at an index -/

/-- The interior payload: the five-point update of an entry by its neighbours inside the block, clamped at the
    block's rim. -/
theorem pay6_apply (x : Vec Ideal S256x256 .f32) (i j : Fin 256) :
    k0_pay6 (F := Ideal) x (ix2 i j)
      = Cert.Spec.updK (x (ix2 i j)) (x (ix2 (up i) j)) (x (ix2 (dn i) j)) (x (ix2 i (up j))) (x (ix2 i (dn j))) := by
  unfold k0_pay6 Cert.Spec.updK
  simp only [shapeCast_self, addf_apply, mulf_apply, broadcast_apply, north_apply, south_apply, west_apply, east_apply]
  rfl

/-- The transposed column halo: a row laid as a column. -/
theorem pay7_apply {F : FTy → Type} [FloatOps F] (v : Vec F S1x256 .f32) (i : Fin 256) :
    k0_pay7 v (ix2 i (0 : Fin 1)) = v (ix2 (0 : Fin 1) i) := by
  unfold k0_pay7
  exact transpose_ix2_apply v _ i (0 : Fin 1)

/-- The block's last row: the row above, the halo row below, the corner word of the column halo at the two ends. -/
theorem pay8_apply (xN rh xC : Vec Ideal S1x256 .f32) (ch1 : Vec Ideal S1x1 .f32) (j : Fin 256) :
    k0_pay8 (F := Ideal) xN rh xC ch1 (ix2 (0 : Fin 1) j)
      = Cert.Spec.updK (xC (ix2 (0 : Fin 1) j)) (xN (ix2 (0 : Fin 1) j)) (rh (ix2 (0 : Fin 1) j))
          (if j.val = 0 then ch1 (ix2 (0 : Fin 1) (0 : Fin 1)) else xC (ix2 (0 : Fin 1) (up j)))
          (if j.val = 255 then ch1 (ix2 (0 : Fin 1) (0 : Fin 1)) else xC (ix2 (0 : Fin 1) (dn j))) := by
  unfold k0_pay8 Cert.Spec.updK
  simp only [shapeCast_self, addf_apply, mulf_apply, broadcast_apply, west_row_apply, east_row_apply]
  rfl

/-- The block's first row: the halo row above, the row below, the corner word of the column halo at the two ends. -/
theorem pay9_apply (rh xS xC : Vec Ideal S1x256 .f32) (ch1 : Vec Ideal S1x1 .f32) (j : Fin 256) :
    k0_pay9 (F := Ideal) rh xS xC ch1 (ix2 (0 : Fin 1) j)
      = Cert.Spec.updK (xC (ix2 (0 : Fin 1) j)) (rh (ix2 (0 : Fin 1) j)) (xS (ix2 (0 : Fin 1) j))
          (if j.val = 0 then ch1 (ix2 (0 : Fin 1) (0 : Fin 1)) else xC (ix2 (0 : Fin 1) (up j)))
          (if j.val = 255 then ch1 (ix2 (0 : Fin 1) (0 : Fin 1)) else xC (ix2 (0 : Fin 1) (dn j))) := by
  unfold k0_pay9 Cert.Spec.updK
  simp only [shapeCast_self, addf_apply, mulf_apply, broadcast_apply, west_row_apply, east_row_apply]
  rfl

/-- The block's last column: the column to the west, the column halo (laid as a column) to the east, the corner word of
    the row halo at the two ends. -/
theorem pay10_apply (ch : Vec Ideal S1x256 .f32) (xW xC : Vec Ideal S256x1 .f32) (rh1 : Vec Ideal S1x1 .f32) (i : Fin 256) :
    k0_pay10 (F := Ideal) ch xW xC rh1 (ix2 i (0 : Fin 1))
      = Cert.Spec.updK (xC (ix2 i (0 : Fin 1)))
          (if i.val = 0 then rh1 (ix2 (0 : Fin 1) (0 : Fin 1)) else xC (ix2 (up i) (0 : Fin 1)))
          (if i.val = 255 then rh1 (ix2 (0 : Fin 1) (0 : Fin 1)) else xC (ix2 (dn i) (0 : Fin 1)))
          (xW (ix2 i (0 : Fin 1))) (ch (ix2 (0 : Fin 1) i)) := by
  unfold k0_pay10 Cert.Spec.updK
  simp only [shapeCast_self, addf_apply, mulf_apply, broadcast_apply, north_col_apply, south_col_apply, pay7_apply]
  rfl

/-- The block's first column: the column halo (laid as a column) to the west, the column to the east, the corner word of
    the row halo at the two ends. -/
theorem pay11_apply (ch : Vec Ideal S1x256 .f32) (xE xC : Vec Ideal S256x1 .f32) (rh1 : Vec Ideal S1x1 .f32) (i : Fin 256) :
    k0_pay11 (F := Ideal) ch xE xC rh1 (ix2 i (0 : Fin 1))
      = Cert.Spec.updK (xC (ix2 i (0 : Fin 1)))
          (if i.val = 0 then rh1 (ix2 (0 : Fin 1) (0 : Fin 1)) else xC (ix2 (up i) (0 : Fin 1)))
          (if i.val = 255 then rh1 (ix2 (0 : Fin 1) (0 : Fin 1)) else xC (ix2 (dn i) (0 : Fin 1)))
          (ch (ix2 (0 : Fin 1) i)) (xE (ix2 i (0 : Fin 1))) := by
  unfold k0_pay11 Cert.Spec.updK
  simp only [shapeCast_self, addf_apply, mulf_apply, broadcast_apply, north_col_apply, south_col_apply, pay7_apply]
  rfl

/-! ## The pure re-layings -/

section Relay
variable {F : FTy → Type} [FloatOps F]

/-- A column cast to its own shape is the column. -/
theorem pay1_eq (v : Vec F S256x1 .f32) : k0_pay1 v = v := by
  unfold k0_pay1; exact shapeCast_self v _
/-- A column cast to its own shape is the column. -/
theorem pay14_eq (v : Vec F S256x1 .f32) : k0_pay14 v = v := by
  unfold k0_pay14; exact shapeCast_self v _
/-- A row cast to its own shape, twice, is the row. -/
theorem pay2_eq (v : Vec F S1x256 .f32) : k0_pay2 v = v := by
  unfold k0_pay2; simp only [shapeCast_self]
/-- A row cast to its own shape, twice, is the row. -/
theorem pay3_eq (v : Vec F S1x256 .f32) : k0_pay3 v = v := by
  unfold k0_pay3; simp only [shapeCast_self]
/-- A row cast to its own shape is the row. -/
theorem pay12_eq (v : Vec F S1x256 .f32) : k0_pay12 v = v := by
  unfold k0_pay12; exact shapeCast_self v _
/-- A row cast to its own shape is the row. -/
theorem pay13_eq (v : Vec F S1x256 .f32) : k0_pay13 v = v := by
  unfold k0_pay13; exact shapeCast_self v _

/-- A column laid as a row. -/
theorem pay4_apply (v : Vec F S256x1 .f32) (i : Fin 256) : k0_pay4 v (ix2 (0 : Fin 1) i) = v (ix2 i (0 : Fin 1)) := by
  unfold k0_pay4
  simp only [shapeCast_self]
  exact transpose_ix2_apply v _ (0 : Fin 1) i
/-- A column laid as a row. -/
theorem pay5_apply (v : Vec F S256x1 .f32) (i : Fin 256) : k0_pay5 v (ix2 (0 : Fin 1) i) = v (ix2 i (0 : Fin 1)) := by
  unfold k0_pay5
  simp only [shapeCast_self]
  exact transpose_ix2_apply v _ (0 : Fin 1) i

end Relay

/-- info: 'Cert.PayVal.pay6_apply' depends on axioms: [propext, Classical.choice, Quot.sound] -/
#guard_msgs in #print axioms pay6_apply
/-- info: 'Cert.PayVal.pay10_apply' depends on axioms: [propext, Classical.choice, Quot.sound] -/
#guard_msgs in #print axioms pay10_apply

end Cert.PayVal

end
-- ==== Proof.Local.lean ====
/-
  What one device of the 2 × 2 mesh leaves at entry (i, j) of its 256 × 256 block, as a function of the block `x`, of the
  row `rh` that landed in its row halo and of the column `ch` that landed in its column halo. `top` says the device is
  in the top half of the mesh (its first row is a rim row of the whole array, its last row borders the row peer),
  `left` that it is in the left half (its first column is a rim column, its last borders the column peer). On the
  two rim lines the entry is copied; everywhere else it is the five-point update, a neighbour that falls off the
  block taken from the halo on that side (off the block upward or downward: the row halo at the same column; off it
  to the left or right: the column halo at the same row).
-/
import proofs.«900193_g7700000000000194_dist_halo2d_stencil_xy_m256_n256_v7x_xy2x2_f32_1_alg».proof.Proof.Spec

noncomputable section

namespace Cert.Spec

/-- The index before, clamped at 0, and the index after, clamped at 255. -/
def up (i : Fin 256) : Fin 256 := ⟨i.val - 1, by omega⟩
def dn (i : Fin 256) : Fin 256 := ⟨min (i.val + 1) 255, by omega⟩

/-- The device's result at entry (i, j) of its block. -/
def localAt (top left : Prop) [Decidable top] [Decidable left] (x : Fin 256 → Fin 256 → EReal) (rh ch : Fin 256 → EReal)
    (i j : Fin 256) : EReal :=
  if j.val = (if left then 0 else 255) ∨ i.val = (if top then 0 else 255) then x i j
  else updK (x i j)
    (if i.val = 0 then rh j else x (up i) j) (if i.val = 255 then rh j else x (dn i) j)
    (if j.val = 0 then ch i else x i (up j)) (if j.val = 255 then ch i else x i (dn j))

end Cert.Spec

end
-- ==== Proof.HaloLocal.lean ====
/-
  The result block of one device read AT AN INDEX, over the extended reals: what a load through a row, a column or an
  entry rectangle reads off a buffer's contents, what a store through a row or a column rectangle leaves at an index,
  each of the body's five stores as "the update on its line, the earlier contents off it", and their composition: the
  uniform description of the device's result. Also which line of a device's block it stages for each peer.
-/
import proofs.«900193_g7700000000000194_dist_halo2d_stencil_xy_m256_n256_v7x_xy2x2_f32_1_alg».proof.Proof.HaloProto
import proofs.«900193_g7700000000000194_dist_halo2d_stencil_xy_m256_n256_v7x_xy2x2_f32_1_alg».proof.Proof.PayValue
import proofs.«900193_g7700000000000194_dist_halo2d_stencil_xy_m256_n256_v7x_xy2x2_f32_1_alg».proof.Proof.Local
import Idealize.ShloMosaic.Lib.Pipeline.Value
import Idealize.ShloMosaic.Lib.ValueIdx
import Mathlib.Tactic.SplitIfs

noncomputable section

namespace Cert.KernelIdeal.HaloLocal

open Cert.KernelIdeal Cert.KernelIdeal.Gen Cert.KernelIdeal.Halo Idealize.ShloMosaic Idealize.ShloMosaic.ValueIdx
open Idealize.SL.Sem

/-! ## Loads through a rectangle, on contents -/

section Reads
variable {F : FTy → Type}

/-- A load of the whole block reads the contents. -/
theorem xld_full (f : XC (F := F)) : xld rFull f = f :=
  Memref.readAt_unit_zero (Elt F) cc0_stg0_0 (funext fun a => match a with | ⟨0, _⟩ => rfl | ⟨1, _⟩ => rfl) _ f

/-- A load of row `K` of the block reads, at column `b`, the contents at `(K, b)`. -/
theorem xld_row (K : Nat) (inb : ∀ a, (![K, 0] : Fin 2 → Nat) a + S1x256.size a ≤ S256x256.size a)
    (f : XC (F := F)) (b : Fin 256) (k : Fin 256) (hk : k.val = K) :
    xld (Rect.unit (s := S256x256) ![K, 0] S1x256.size inb) f (ix2 (0 : Fin 1) b) = f (ix2 k b) := by
  show f ((Rect.unit (s := S256x256) ![K, 0] S1x256.size inb).emb (ix2 (0 : Fin 1) b)) = f (ix2 k b)
  refine congrArg f (funext fun d => Fin.ext ?_)
  match d with
  | ⟨0, _⟩ => show K + 1 * 0 = k.val; omega
  | ⟨1, _⟩ => show 0 + 1 * b.val = b.val; omega

/-- A load of column `K` of the block reads, at row `a`, the contents at `(a, K)`. -/
theorem xld_col (K : Nat) (inb : ∀ a, (![0, K] : Fin 2 → Nat) a + S256x1.size a ≤ S256x256.size a)
    (f : XC (F := F)) (a : Fin 256) (k : Fin 256) (hk : k.val = K) :
    xld (Rect.unit (s := S256x256) ![0, K] S256x1.size inb) f (ix2 a (0 : Fin 1)) = f (ix2 a k) := by
  show f ((Rect.unit (s := S256x256) ![0, K] S256x1.size inb).emb (ix2 a (0 : Fin 1))) = f (ix2 a k)
  refine congrArg f (funext fun d => Fin.ext ?_)
  match d with
  | ⟨0, _⟩ => show 0 + 1 * a.val = a.val; omega
  | ⟨1, _⟩ => show K + 1 * 0 = k.val; omega

/-- A load of a whole halo reads its contents. -/
theorem rhld_full (f : VC (F := F)) : rhld rVec f = f :=
  Memref.readAt_unit_zero (Elt F) cc0_scratch0 (funext fun a => match a with | ⟨0, _⟩ => rfl | ⟨1, _⟩ => rfl) _ f
theorem chld_full (f : VC (F := F)) : chld rVec f = f :=
  Memref.readAt_unit_zero (Elt F) cc0_scratch1 (funext fun a => match a with | ⟨0, _⟩ => rfl | ⟨1, _⟩ => rfl) _ f

/-- A load of entry `K` of a halo reads the contents at `(0, K)`. -/
theorem rhld_pt (K : Nat) (inb : ∀ a, (![0, K] : Fin 2 → Nat) a + S1x1.size a ≤ S1x256.size a)
    (f : VC (F := F)) (k : Fin 256) (hk : k.val = K) :
    rhld (Rect.unit (s := S1x256) ![0, K] S1x1.size inb) f (ix2 (0 : Fin 1) (0 : Fin 1)) = f (ix2 (0 : Fin 1) k) := by
  show f ((Rect.unit (s := S1x256) ![0, K] S1x1.size inb).emb (ix2 (0 : Fin 1) (0 : Fin 1))) = f (ix2 (0 : Fin 1) k)
  refine congrArg f (funext fun d => Fin.ext ?_)
  match d with
  | ⟨0, _⟩ => rfl
  | ⟨1, _⟩ => show K + 1 * 0 = k.val; omega
theorem chld_pt (K : Nat) (inb : ∀ a, (![0, K] : Fin 2 → Nat) a + S1x1.size a ≤ S1x256.size a)
    (f : VC (F := F)) (k : Fin 256) (hk : k.val = K) :
    chld (Rect.unit (s := S1x256) ![0, K] S1x1.size inb) f (ix2 (0 : Fin 1) (0 : Fin 1)) = f (ix2 (0 : Fin 1) k) := by
  show f ((Rect.unit (s := S1x256) ![0, K] S1x1.size inb).emb (ix2 (0 : Fin 1) (0 : Fin 1))) = f (ix2 (0 : Fin 1) k)
  refine congrArg f (funext fun d => Fin.ext ?_)
  match d with
  | ⟨0, _⟩ => rfl
  | ⟨1, _⟩ => show K + 1 * 0 = k.val; omega

end Reads

/-! ## Stores through a row or a column rectangle, at an index -/

section Writes
variable {F : FTy → Type}

/-- Off the image of a view's embedding, a write through it changes nothing. -/
theorem write_of_forall_ne {sg : RefSig} {κ : Kind} {sp : Space} {s : Shape} {e : EltTy} {Val : EltTy → Type}
    (v : View sg κ sp s e) (f : v.ty.Contents Val) (w : s.Idx → Val e) (M : Finset s.Idx) (i : v.ty.Idx)
    (h : ∀ x, v.emb x ≠ i) : v.write Val f w M i = f i := by
  unfold View.write
  rw [preimage?_eq_none h]

/-- A store of a row vector at row `K` of the result block leaves, at `(a, b)`, the vector's entry `b` on row `K` and the
    earlier contents off it. -/
theorem owrite_row (K : Nat) (inb : ∀ a, (![K, 0] : Fin 2 → Nat) a + S1x256.size a ≤ S256x256.size a)
    (f : XC (F := F)) (w : Vec F S1x256 .f32) (a b : Fin 256) :
    ((oM : Memref sig .tc .vmem S256x256 .f32).access (Rect.unit (s := S256x256) ![K, 0] S1x256.size inb) : View sig .tc _ _ _).write
        (Elt F) f w Finset.univ (ix2 a b)
      = if a.val = K then w (ix2 (0 : Fin 1) b) else f (ix2 a b) := by
  by_cases h : a.val = K
  · rw [if_pos h]
    have e : ((oM : Memref sig .tc .vmem S256x256 .f32).access (Rect.unit (s := S256x256) ![K, 0] S1x256.size inb) : View sig .tc _ _ _).emb
        (ix2 (0 : Fin 1) b) = ix2 a b := by
      funext d; apply Fin.ext
      match d with
      | ⟨0, _⟩ => show K + 1 * 0 = a.val; omega
      | ⟨1, _⟩ => show 0 + 1 * b.val = b.val; omega
    have hw := View.write_emb_of_mem (v := ((oM : Memref sig .tc .vmem S256x256 .f32).access
      (Rect.unit (s := S256x256) ![K, 0] S1x256.size inb) : View sig .tc _ _ _)) (Val := Elt F) f w
      (M := Finset.univ) (x := ix2 (0 : Fin 1) b) (Finset.mem_univ _)
    rw [e] at hw
    exact hw
  · rw [if_neg h]
    refine write_of_forall_ne ((oM : Memref sig .tc .vmem S256x256 .f32).access
      (Rect.unit (s := S256x256) ![K, 0] S1x256.size inb) : View sig .tc _ _ _) f w _ _ (fun y hy => h ?_)
    have h0 := congrArg (fun i : S256x256.Idx => (i ⟨0, Nat.zero_lt_two⟩).val) hy
    have hy0 : (y ⟨0, Nat.zero_lt_two⟩).val < 1 := (y ⟨0, Nat.zero_lt_two⟩).isLt
    change K + 1 * (y ⟨0, Nat.zero_lt_two⟩).val = a.val at h0
    omega

/-- A store of a column vector at column `K` of the result block leaves, at `(a, b)`, the vector's entry `a` on column
    `K` and the earlier contents off it. -/
theorem owrite_col (K : Nat) (inb : ∀ a, (![0, K] : Fin 2 → Nat) a + S256x1.size a ≤ S256x256.size a)
    (f : XC (F := F)) (w : Vec F S256x1 .f32) (a b : Fin 256) :
    ((oM : Memref sig .tc .vmem S256x256 .f32).access (Rect.unit (s := S256x256) ![0, K] S256x1.size inb) : View sig .tc _ _ _).write
        (Elt F) f w Finset.univ (ix2 a b)
      = if b.val = K then w (ix2 a (0 : Fin 1)) else f (ix2 a b) := by
  by_cases h : b.val = K
  · rw [if_pos h]
    have e : ((oM : Memref sig .tc .vmem S256x256 .f32).access (Rect.unit (s := S256x256) ![0, K] S256x1.size inb) : View sig .tc _ _ _).emb
        (ix2 a (0 : Fin 1)) = ix2 a b := by
      funext d; apply Fin.ext
      match d with
      | ⟨0, _⟩ => show 0 + 1 * a.val = a.val; omega
      | ⟨1, _⟩ => show K + 1 * 0 = b.val; omega
    have hw := View.write_emb_of_mem (v := ((oM : Memref sig .tc .vmem S256x256 .f32).access
      (Rect.unit (s := S256x256) ![0, K] S256x1.size inb) : View sig .tc _ _ _)) (Val := Elt F) f w
      (M := Finset.univ) (x := ix2 a (0 : Fin 1)) (Finset.mem_univ _)
    rw [e] at hw
    exact hw
  · rw [if_neg h]
    refine write_of_forall_ne ((oM : Memref sig .tc .vmem S256x256 .f32).access
      (Rect.unit (s := S256x256) ![0, K] S256x1.size inb) : View sig .tc _ _ _) f w _ _ (fun y hy => h ?_)
    have h1 := congrArg (fun i : S256x256.Idx => (i ⟨1, Nat.one_lt_two⟩).val) hy
    have hy1 : (y ⟨1, Nat.one_lt_two⟩).val < 1 := (y ⟨1, Nat.one_lt_two⟩).isLt
    change K + 1 * (y ⟨1, Nat.one_lt_two⟩).val = b.val at h1
    omega

end Writes

/-! ## The body's stores, each at an index -/

theorem up_eq : Cert.PayVal.up = Cert.Spec.up := rfl
theorem dn_eq : Cert.PayVal.dn = Cert.Spec.dn := rfl

section Layers

/-- The block's own column `K` stored back on column `K`: the block there, the earlier contents elsewhere. -/
theorem layer_own_col (K : Nat) (inb inb' : ∀ a, (![0, K] : Fin 2 → Nat) a + S256x1.size a ≤ S256x256.size a)
    (f x : XC (F := Ideal)) (i j : Fin 256) :
    ((oM : Memref sig .tc .vmem S256x256 .f32).access (Rect.unit (s := S256x256) ![0, K] S256x1.size inb) : View sig .tc _ _ _).write
        (Elt Ideal) f (xld (Rect.unit (s := S256x256) ![0, K] S256x1.size inb') x) Finset.univ (ix2 i j)
      = if j.val = K then x (ix2 i j) else f (ix2 i j) := by
  rw [owrite_col]
  by_cases hj : j.val = K
  · rw [if_pos hj, if_pos hj, xld_col K _ x i j hj]
  · rw [if_neg hj, if_neg hj]

/-- The block's own row `K` stored back on row `K`. -/
theorem layer_own_row (K : Nat) (inb inb' : ∀ a, (![K, 0] : Fin 2 → Nat) a + S1x256.size a ≤ S256x256.size a)
    (f x : XC (F := Ideal)) (i j : Fin 256) :
    ((oM : Memref sig .tc .vmem S256x256 .f32).access (Rect.unit (s := S256x256) ![K, 0] S1x256.size inb) : View sig .tc _ _ _).write
        (Elt Ideal) f (xld (Rect.unit (s := S256x256) ![K, 0] S1x256.size inb') x) Finset.univ (ix2 i j)
      = if i.val = K then x (ix2 i j) else f (ix2 i j) := by
  rw [owrite_row]
  by_cases hi : i.val = K
  · rw [if_pos hi, if_pos hi, xld_row K _ x j i hi]
  · rw [if_neg hi, if_neg hi]

/-- The plain update of the whole block. -/
theorem layer_interior (x : XC (F := Ideal)) (i j : Fin 256) :
    k0_pay6 (F := Ideal) (xld rFull x) (ix2 i j)
      = Cert.Spec.updK (x (ix2 i j)) (x (ix2 (Cert.Spec.up i) j)) (x (ix2 (Cert.Spec.dn i) j))
          (x (ix2 i (Cert.Spec.up j))) (x (ix2 i (Cert.Spec.dn j))) := by
  rw [xld_full, Cert.PayVal.pay6_apply, up_eq, dn_eq]

/-- The last row patched with the row halo below it (a device in the top half of the mesh). -/
theorem layer_top (f x : XC (F := Ideal)) (rh ch : VC (F := Ideal)) (i j : Fin 256) :
    ((oM : Memref sig .tc .vmem S256x256 .f32).access rRow255 : View sig .tc _ _ _).write (Elt Ideal) f
        (k0_pay8 (xld rRow254 x) (rhld rVec rh) (xld rRow255 x) (chld rPt255 ch)) Finset.univ (ix2 i j)
      = if i.val = 255 then
          Cert.Spec.updK (x (ix2 i j)) (x (ix2 (Cert.Spec.up i) j)) (rh (ix2 (0 : Fin 1) j))
            (if j.val = 0 then ch (ix2 (0 : Fin 1) i) else x (ix2 i (Cert.Spec.up j)))
            (if j.val = 255 then ch (ix2 (0 : Fin 1) i) else x (ix2 i (Cert.Spec.dn j)))
        else f (ix2 i j) := by
  rw [owrite_row]
  by_cases hi : i.val = 255
  · rw [if_pos hi, if_pos hi, Cert.PayVal.pay8_apply]
    have hu : (Cert.Spec.up i).val = 254 := by simp only [Cert.Spec.up]; omega
    simp only [xld_row 255 _ x _ i hi, xld_row 254 _ x _ (Cert.Spec.up i) hu, rhld_full, chld_pt 255 _ ch i hi, up_eq, dn_eq]
  · rw [if_neg hi, if_neg hi]

/-- The first row patched with the row halo above it (a device in the bottom half). -/
theorem layer_bottom (f x : XC (F := Ideal)) (rh ch : VC (F := Ideal)) (i j : Fin 256) :
    ((oM : Memref sig .tc .vmem S256x256 .f32).access rRow0 : View sig .tc _ _ _).write (Elt Ideal) f
        (k0_pay9 (rhld rVec rh) (xld rRow1 x) (xld rRow0 x) (chld rPt0 ch)) Finset.univ (ix2 i j)
      = if i.val = 0 then
          Cert.Spec.updK (x (ix2 i j)) (rh (ix2 (0 : Fin 1) j)) (x (ix2 (Cert.Spec.dn i) j))
            (if j.val = 0 then ch (ix2 (0 : Fin 1) i) else x (ix2 i (Cert.Spec.up j)))
            (if j.val = 255 then ch (ix2 (0 : Fin 1) i) else x (ix2 i (Cert.Spec.dn j)))
        else f (ix2 i j) := by
  rw [owrite_row]
  by_cases hi : i.val = 0
  · rw [if_pos hi, if_pos hi, Cert.PayVal.pay9_apply]
    have hd : (Cert.Spec.dn i).val = 1 := by simp only [Cert.Spec.dn]; omega
    simp only [xld_row 0 _ x _ i hi, xld_row 1 _ x _ (Cert.Spec.dn i) hd, rhld_full, chld_pt 0 _ ch i hi, up_eq, dn_eq]
  · rw [if_neg hi, if_neg hi]

/-- The last column patched with the column halo to its right (a device in the left half). -/
theorem layer_left (f x : XC (F := Ideal)) (rh ch : VC (F := Ideal)) (i j : Fin 256) :
    ((oM : Memref sig .tc .vmem S256x256 .f32).access rCol255 : View sig .tc _ _ _).write (Elt Ideal) f
        (k0_pay10 (chld rVec ch) (xld rCol254 x) (xld rCol255 x) (rhld rPt255 rh)) Finset.univ (ix2 i j)
      = if j.val = 255 then
          Cert.Spec.updK (x (ix2 i j))
            (if i.val = 0 then rh (ix2 (0 : Fin 1) j) else x (ix2 (Cert.Spec.up i) j))
            (if i.val = 255 then rh (ix2 (0 : Fin 1) j) else x (ix2 (Cert.Spec.dn i) j))
            (x (ix2 i (Cert.Spec.up j))) (ch (ix2 (0 : Fin 1) i))
        else f (ix2 i j) := by
  rw [owrite_col]
  by_cases hj : j.val = 255
  · rw [if_pos hj, if_pos hj, Cert.PayVal.pay10_apply]
    have hu : (Cert.Spec.up j).val = 254 := by simp only [Cert.Spec.up]; omega
    simp only [xld_col 255 _ x _ j hj, xld_col 254 _ x _ (Cert.Spec.up j) hu, chld_full, rhld_pt 255 _ rh j hj, up_eq, dn_eq]
  · rw [if_neg hj, if_neg hj]

/-- The first column patched with the column halo to its left (a device in the right half). -/
theorem layer_right (f x : XC (F := Ideal)) (rh ch : VC (F := Ideal)) (i j : Fin 256) :
    ((oM : Memref sig .tc .vmem S256x256 .f32).access rCol0 : View sig .tc _ _ _).write (Elt Ideal) f
        (k0_pay11 (chld rVec ch) (xld rCol1 x) (xld rCol0 x) (rhld rPt0 rh)) Finset.univ (ix2 i j)
      = if j.val = 0 then
          Cert.Spec.updK (x (ix2 i j))
            (if i.val = 0 then rh (ix2 (0 : Fin 1) j) else x (ix2 (Cert.Spec.up i) j))
            (if i.val = 255 then rh (ix2 (0 : Fin 1) j) else x (ix2 (Cert.Spec.dn i) j))
            (ch (ix2 (0 : Fin 1) i)) (x (ix2 i (Cert.Spec.dn j)))
        else f (ix2 i j) := by
  rw [owrite_col]
  by_cases hj : j.val = 0
  · rw [if_pos hj, if_pos hj, Cert.PayVal.pay11_apply]
    have hd : (Cert.Spec.dn j).val = 1 := by simp only [Cert.Spec.dn]; omega
    simp only [xld_col 0 _ x _ j hj, xld_col 1 _ x _ (Cert.Spec.dn j) hd, chld_full, rhld_pt 0 _ rh j hj, up_eq, dn_eq]
  · rw [if_neg hj, if_neg hj]

end Layers

/-! ## Which line of its block a device stages for each peer -/

section Staged
variable {F : FTy → Type} [FloatOps F]
variable (m : (ℓ : Loc nD τ sig) → Buf (Elt F) ℓ) (ρ : Dev nD → PrngReg)

/-- For its row peer: its last row in the top half of the mesh, its first row in the bottom half. -/
theorem rowStg_apply (c : Dev nD) (b : Fin 256) :
    rowStg m ρ c (ix2 (0 : Fin 1) b) = xstg m ρ c (ix2 (if c.val / 2 = 0 then (255 : Fin 256) else 0) b) := by
  unfold rowStg
  by_cases h : c.val / 2 = 0
  · simp only [if_pos h, Cert.PayVal.pay2_eq]
    exact xld_row 255 _ _ b (255 : Fin 256) rfl
  · simp only [if_neg h, Cert.PayVal.pay3_eq]
    exact xld_row 0 _ _ b (0 : Fin 256) rfl

/-- For its column peer: its last column in the left half, its first in the right half, laid as a row. -/
theorem colStg_apply (c : Dev nD) (a : Fin 256) :
    colStg m ρ c (ix2 (0 : Fin 1) a) = xstg m ρ c (ix2 a (if c.val % 2 = 0 then (255 : Fin 256) else 0)) := by
  unfold colStg
  by_cases h : c.val % 2 = 0
  · simp only [if_pos h, Cert.PayVal.pay4_apply]
    exact xld_col 255 _ _ a (255 : Fin 256) rfl
  · simp only [if_neg h, Cert.PayVal.pay5_apply]
    exact xld_col 0 _ _ a (0 : Fin 256) rfl

end Staged

/-! ## The result block at an index -/

/-- What the body leaves at entry `(i, j)` of the result's staging buffer: the block's entry on the device's two rim
    lines, elsewhere the five-point update, a neighbour off the block taken from the halo on that side. -/
theorem outAt_apply (m : (ℓ : Loc nD τ sig) → Buf (Elt Ideal) ℓ) (ρ : Dev nD → PrngReg) (c : Dev nD) (i j : Fin 256) :
    outAt (F := Ideal) m ρ c (ix2 i j)
      = Cert.Spec.localAt (c.val / 2 = 0) (c.val % 2 = 0) (fun a b => xstg (F := Ideal) m ρ c (ix2 a b))
          (fun b => rowLanded (F := Ideal) m ρ c (ix2 (0 : Fin 1) b)) (fun a => colLanded (F := Ideal) m ρ c (ix2 (0 : Fin 1) a)) i j := by
  unfold outAt Cert.Spec.localAt
  generalize xstg (F := Ideal) m ρ c = x
  generalize rowLanded (F := Ideal) m ρ c = rh
  generalize colLanded (F := Ideal) m ρ c = ch
  by_cases ht : c.val / 2 = 0 <;> by_cases hl : c.val % 2 = 0
  · simp only [if_pos ht, if_pos hl, Cert.PayVal.pay14_eq, Cert.PayVal.pay12_eq, layer_own_col, layer_own_row,
      layer_left, layer_top, layer_interior]
    split_ifs <;> first | rfl | (exfalso; omega)
  · simp only [if_pos ht, if_neg hl, Cert.PayVal.pay1_eq, Cert.PayVal.pay12_eq, layer_own_col, layer_own_row,
      layer_right, layer_top, layer_interior]
    split_ifs <;> first | rfl | (exfalso; omega)
  · simp only [if_neg ht, if_pos hl, Cert.PayVal.pay14_eq, Cert.PayVal.pay13_eq, layer_own_col, layer_own_row,
      layer_left, layer_bottom, layer_interior]
    split_ifs <;> first | rfl | (exfalso; omega)
  · simp only [if_neg ht, if_neg hl, Cert.PayVal.pay1_eq, Cert.PayVal.pay13_eq, layer_own_col, layer_own_row,
      layer_right, layer_bottom, layer_interior]
    split_ifs <;> first | rfl | (exfalso; omega)

/-- info: 'Cert.KernelIdeal.HaloLocal.outAt_apply' depends on axioms: [propext, Classical.choice, Quot.sound] -/
#guard_msgs in #print axioms outAt_apply

end Cert.KernelIdeal.HaloLocal

end
-- ==== Proof.HaloBlock.lean ====
/-
  Three facts about the program's side of the halo exchange on the 2 × 2 mesh: what the pipeline stages of the argument
  is the argument buffer itself; where an entry of a device's 256 × 256 block sits in the 512 × 512 array; and that the
  precondition makes every entry of every device's block a real number.
-/
import proofs.«900193_g7700000000000194_dist_halo2d_stencil_xy_m256_n256_v7x_xy2x2_f32_1_alg».proof.Defs
import proofs.«900193_g7700000000000194_dist_halo2d_stencil_xy_m256_n256_v7x_xy2x2_f32_1_alg».proof.Proof.HaloProto
import proofs.«900193_g7700000000000194_dist_halo2d_stencil_xy_m256_n256_v7x_xy2x2_f32_1_alg».proof.Proof.Gen.Pre_finite_inputs_Kernel
import Idealize.ShloMosaic.Lib.Layout
import Idealize.ShloMosaic.Lib.ValueIdx
import Idealize.ShloMosaic.Lib.ReduceAll
import Idealize.ShloMosaic.Lib.Pipeline.Value

noncomputable section

namespace Cert.KernelIdeal.HaloBlock

open Cert.KernelIdeal Cert.KernelIdeal.Gen Cert.KernelIdeal.Halo Idealize.ShloMosaic Idealize.ShloMosaic.ValueIdx

/-- The pipeline stages the whole argument array: its single window is the whole array at block index zero, so what is
    staged on device `c` is the device's argument buffer itself. -/
theorem xstg_eq {F : FTy → Type} [FloatOps F] (m : (ℓ : Loc nD τ sig) → Buf (Elt F) ℓ) (ρ : Dev nD → PrngReg) (c : Dev nD) :
    xstg (F := F) m ρ c = m ((c.tc : Thread nD τ).loc main_arg0) := by
  unfold xstg Halo.s₀
  exact Memref.read_access_unit_zero (Elt F) main_arg0 (funext fun a => Nat.zero_mul _) _ _

/-- Device `c` sits at mesh position (c / 2, c % 2) and holds that 256 × 256 block of the 512 × 512 array: entry (i, j) of
    its block is entry (256 · (c / 2) + i, 256 · (c % 2) + j) of the whole. -/
theorem block_apply {α : Type} (X : (⟨2, ![512, 512]⟩ : Shape).Idx → α) (c : Dev nD) (i j : Fin 256) :
    (Layout.blockN ⟨2, ![256, 256]⟩ ⟨2, ![512, 512]⟩ (Layout.meshBlock [2, 2] ![[0], [1]] c) X) (ix2 i j)
      = X (ix2 (⟨256 * (c.val / 2) + i.val, by have : c.val < 4 := c.isLt; have := i.isLt; omega⟩ : Fin 512)
            (⟨256 * (c.val % 2) + j.val, by have := j.isLt; omega⟩ : Fin 512)) := by
  have hc : c.val < 4 := c.isLt
  rw [Layout.blockN_apply]
  congr 1
  funext b
  refine Fin.ext ?_
  rw [Layout.TilesN.idx_val]
  match b with
  | ⟨0, _⟩ =>
    -- the row coordinate: the device's coordinate on mesh axis 0 is (c / 2) % 2 = c / 2
    show Layout.meshLin [2, 2] c.val [0] * 256 + i.val = 256 * (c.val / 2) + i.val
    simp [Layout.meshLin, Layout.meshCoord, Layout.cutSize]
    omega
  | ⟨1, _⟩ =>
    -- the column coordinate: the device's coordinate on mesh axis 1 is (c / 1) % 2 = c % 2
    show Layout.meshLin [2, 2] c.val [1] * 256 + j.val = 256 * (c.val % 2) + j.val
    simp [Layout.meshLin, Layout.meshCoord, Layout.cutSize]
    omega

/-- An extended real whose absolute value `max x (-x)` lies strictly below `+∞` (the value the f32 pattern `0x7F800000`
    denotes) is a real: at `⊥` and at `⊤` the absolute value is `⊤`, which is not below itself. -/
theorem real_of_abs_lt_inf (x : EReal)
    (h : Ideal.cmp .olt (max x (-x)) (Ideal.ofBits .f32 0x7F800000#32) = 1#1) : ∃ r : ℝ, x = ((r : ℝ) : EReal) := by
  have hinf : Ideal.ofBits .f32 0x7F800000#32 = ⊤ := by simp [Ideal.ofBits, Ideal.ieee]
  rw [hinf] at h
  induction x using EReal.rec with
  | bot => simp [Ideal.cmp] at h
  | coe r => exact ⟨r, rfl⟩
  | top => simp [Ideal.cmp] at h

/-- The scalar shape has one index. -/
instance : Subsingleton Cert.Pre_finite_inputs_Kernel.S_.Idx := ⟨fun a b => funext fun d => d.elim0⟩

/-- The precondition says that on every device the conjunction, over all entries of the argument block, of `|x| < +∞` is
    true; so every entry of every device's block is a real number. -/
theorem finite_of_pre (m : (ℓ : Loc nD τ sig) → Buf (Elt Ideal) ℓ) (hpre : Cert.Pre_KernelIdeal m) (c : Dev nD) (idx : S256x256.Idx) :
    ∃ r : ℝ, m ((c.tc : Thread nD τ).loc main_arg0) idx = ((r : ℝ) : EReal) := by
  have h := congrFun (hpre c) ValueIdx.ix0
  dsimp only [Cert.Pre_finite_inputs_Kernel.fn] at h
  exact real_of_abs_lt_inf _ (Host.reduce_andi_all _ _ _ _ _ h idx)

/-- info: 'Cert.KernelIdeal.HaloBlock.block_apply' depends on axioms: [propext, Classical.choice, Quot.sound] -/
#guard_msgs in #print axioms block_apply
/-- info: 'Cert.KernelIdeal.HaloBlock.finite_of_pre' depends on axioms: [propext, Classical.choice, Quot.sound] -/
#guard_msgs in #print axioms finite_of_pre

end Cert.KernelIdeal.HaloBlock
-- ==== Proof.LocalRef.lean ====
/-
  The local description of a device's result is the reference's, block by block. Device (p, q) of the 2 × 2 mesh
  holds the block of the whole 512 × 512 array whose entry (a, b) is the array's entry (256·p + a, 256·q + b). A
  device in the top half receives in its row halo the array's row 256 (the first row of the device below it), a
  device in the bottom half the array's row 255 (the last row of the device above it); likewise for columns. With
  these halos, a neighbour that falls off the block is the neighbour in the whole array, the two rim lines of the
  device are exactly the rim lines of the array that cross its block, and on real entries the kernel's grouping of the
  update is the reference's.
-/
import proofs.«900193_g7700000000000194_dist_halo2d_stencil_xy_m256_n256_v7x_xy2x2_f32_1_alg».proof.Proof.Local

noncomputable section

namespace Cert.Spec

/-- The local description equals the reference's at the corresponding entry of the whole array. -/
theorem localAt_eq_refAt (X : Fin 512 → Fin 512 → EReal) (hX : ∀ I J, ∃ r : ℝ, X I J = ((r : ℝ) : EReal)) (p q : Fin 2) (i j : Fin 256) :
    localAt (p.val = 0) (q.val = 0)
      (fun a b => X ⟨256 * p.val + a.val, by omega⟩ ⟨256 * q.val + b.val, by omega⟩)
      (fun b => X ⟨if p.val = 0 then 256 else 255, by split <;> omega⟩ ⟨256 * q.val + b.val, by omega⟩)
      (fun a => X ⟨256 * p.val + a.val, by omega⟩ ⟨if q.val = 0 then 256 else 255, by split <;> omega⟩)
      i j
    = refAt X ⟨256 * p.val + i.val, by omega⟩ ⟨256 * q.val + j.val, by omega⟩ := by
  have hp := p.isLt
  have hq := q.isLt
  have hi := i.isLt
  have hj := j.isLt
  unfold localAt refAt
  simp only [Fin.val_mk]
  by_cases hin : 1 ≤ 256 * p.val + i.val ∧ 256 * p.val + i.val ≤ 510 ∧ 1 ≤ 256 * q.val + j.val ∧ 256 * q.val + j.val ≤ 510
  · -- strictly inside the whole array: neither rim line of the device passes through (i, j)
    have hrim : ¬ (j.val = (if q.val = 0 then 0 else 255) ∨ i.val = (if p.val = 0 then 0 else 255)) := by
      split_ifs <;> omega
    rw [if_neg hrim, dif_pos hin]
    obtain ⟨c, hc⟩ := hX ⟨256 * p.val + i.val, by omega⟩ ⟨256 * q.val + j.val, by omega⟩
    obtain ⟨n, hn⟩ := hX ⟨256 * p.val + i.val - 1, by omega⟩ ⟨256 * q.val + j.val, by omega⟩
    obtain ⟨s, hs⟩ := hX ⟨256 * p.val + i.val + 1, by omega⟩ ⟨256 * q.val + j.val, by omega⟩
    obtain ⟨w, hw⟩ := hX ⟨256 * p.val + i.val, by omega⟩ ⟨256 * q.val + j.val - 1, by omega⟩
    obtain ⟨e, he⟩ := hX ⟨256 * p.val + i.val, by omega⟩ ⟨256 * q.val + j.val + 1, by omega⟩
    trans updK (X ⟨256 * p.val + i.val, by omega⟩ ⟨256 * q.val + j.val, by omega⟩)
        (X ⟨256 * p.val + i.val - 1, by omega⟩ ⟨256 * q.val + j.val, by omega⟩)
        (X ⟨256 * p.val + i.val + 1, by omega⟩ ⟨256 * q.val + j.val, by omega⟩)
        (X ⟨256 * p.val + i.val, by omega⟩ ⟨256 * q.val + j.val - 1, by omega⟩)
        (X ⟨256 * p.val + i.val, by omega⟩ ⟨256 * q.val + j.val + 1, by omega⟩)
    · congr 1
      · split <;> (congr 1; apply Fin.ext; simp only [up, Fin.val_mk]; first | omega | (split_ifs <;> omega))
      · split <;> (congr 1; apply Fin.ext; simp only [dn, Fin.val_mk]; first | omega | (split_ifs <;> omega))
      · split <;> (congr 1; apply Fin.ext; simp only [up, Fin.val_mk]; first | omega | (split_ifs <;> omega))
      · split <;> (congr 1; apply Fin.ext; simp only [dn, Fin.val_mk]; first | omega | (split_ifs <;> omega))
    · rw [hc, hn, hs, hw, he]
      exact updK_eq_updR c n s w e
  · -- on the rim of the whole array: one of the device's two rim lines passes through (i, j)
    have hrim : j.val = (if q.val = 0 then 0 else 255) ∨ i.val = (if p.val = 0 then 0 else 255) := by
      split_ifs <;> omega
    rw [if_pos hrim, dif_neg hin]

/--
info: 'Cert.Spec.localAt_eq_refAt' depends on axioms: [propext, Classical.choice, Quot.sound]
-/
#guard_msgs in
#print axioms localAt_eq_refAt

end Cert.Spec

end
-- ==== Proof.HaloGlobal.lean ====
/-
  The kernel's result is its block of the reference's. Device c of the 2 × 2 mesh sits at mesh position (c / 2, c % 2)
  and holds the 256 × 256 block of the whole 512 × 512 array X whose entry (a, b) is X's entry
  (256·(c / 2) + a, 256·(c % 2) + b). What it leaves in its result block is the local description (the five-point update
  with the missing neighbours taken from the two halos, the two rim lines of the whole array copied) applied to its
  block, to the row that landed in its row halo and to the column that landed in its column halo. The row that landed
  is the row peer's boundary row: the peer sits at (1 − c / 2, c % 2), so a device in the top half receives the peer's
  first row, which is X's row 256, and a device in the bottom half the peer's last row, which is X's row 255; the
  column that landed is, likewise, X's column 256 or 255. With these three identifications the local description is
  the reference's at the corresponding entry of X, every entry of X being real because every entry of every
  device's block is.
-/
import proofs.«900193_g7700000000000194_dist_halo2d_stencil_xy_m256_n256_v7x_xy2x2_f32_1_alg».proof.Proof.HaloProto
import proofs.«900193_g7700000000000194_dist_halo2d_stencil_xy_m256_n256_v7x_xy2x2_f32_1_alg».proof.Proof.HaloLocal
import proofs.«900193_g7700000000000194_dist_halo2d_stencil_xy_m256_n256_v7x_xy2x2_f32_1_alg».proof.Proof.HaloBlock
import proofs.«900193_g7700000000000194_dist_halo2d_stencil_xy_m256_n256_v7x_xy2x2_f32_1_alg».proof.Proof.LocalRef

noncomputable section

namespace Cert.KernelIdeal.HaloGlobal

open Cert.KernelIdeal Cert.KernelIdeal.Halo Idealize.ShloMosaic Idealize.ShloMosaic.ValueIdx
open Cert.KernelIdeal.HaloLocal Cert.KernelIdeal.HaloBlock

/-- An entry of the whole array depends on its two coordinates' values only. -/
private theorem entry_congr {α : Type} (X : (⟨2, ![512, 512]⟩ : Shape).Idx → α) {A A' B B' : Fin 512}
    (hA : A.val = A'.val) (hB : B.val = B'.val) : X (ix2 A B) = X (ix2 A' B') := by
  rw [Fin.ext hA, Fin.ext hB]

/-- Every entry of the whole array is real: entry (I, J) is entry (I mod 256, J mod 256) of the block of the device at
    mesh position (I / 256, J / 256), and every entry of every device's block is real. -/
theorem whole_finite (m : (ℓ : Loc nD τ sig) → Buf (Elt Ideal) ℓ) (X : (⟨2, ![512, 512]⟩ : Shape).Idx → EReal)
    (hpre : Cert.Pre_KernelIdeal m)
    (hblk : ∀ c : Dev nD, m ((c.tc : Thread nD τ).loc main_arg0) = Layout.blockN ⟨2, ![256, 256]⟩ ⟨2, ![512, 512]⟩ (Layout.meshBlock [2, 2] ![[0], [1]] c) X)
    (I J : Fin 512) : ∃ r : ℝ, X (ix2 I J) = ((r : ℝ) : EReal) := by
  have hI := I.isLt
  have hJ := J.isLt
  obtain ⟨r, hr⟩ := finite_of_pre m hpre (⟨2 * (I.val / 256) + J.val / 256, by show _ < 4; omega⟩ : Dev nD)
    (ix2 (⟨I.val % 256, by omega⟩ : Fin 256) (⟨J.val % 256, by omega⟩ : Fin 256))
  rw [hblk, block_apply] at hr
  refine ⟨r, ?_⟩
  rw [← hr]
  apply entry_congr <;> simp only [Fin.val_mk] <;> omega

/-- The kernel's result on device `c` is block `c` of what the reference leaves in the whole array. -/
theorem outAt_eq_block (m : (ℓ : Loc nD τ sig) → Buf (Elt Ideal) ℓ) (ρ : Dev nD → PrngReg) (X : (⟨2, ![512, 512]⟩ : Shape).Idx → EReal)
    (hpre : Cert.Pre_KernelIdeal m)
    (hblk : ∀ c : Dev nD, m ((c.tc : Thread nD τ).loc main_arg0) = Layout.blockN ⟨2, ![256, 256]⟩ ⟨2, ![512, 512]⟩ (Layout.meshBlock [2, 2] ![[0], [1]] c) X)
    (c : Dev nD) :
    outAt (F := Ideal) m ρ c = Layout.blockN ⟨2, ![256, 256]⟩ ⟨2, ![512, 512]⟩ (Layout.meshBlock [2, 2] ![[0], [1]] c)
      (fun idx => Cert.Spec.refAt (fun I J => X (ix2 I J)) (idx 0) (idx 1)) := by
  have hc : c.val < 4 := c.isLt
  funext idx
  obtain ⟨i, j, rfl⟩ : ∃ i j, idx = ix2 i j := ⟨idx 0, idx 1, eq_ix2 idx⟩
  rw [outAt_apply, block_apply]
  -- the device's block
  have h1 : (fun a b : Fin 256 => xstg (F := Ideal) m ρ c (ix2 a b))
      = fun a b => X (ix2 (⟨256 * (c.val / 2) + a.val, by omega⟩ : Fin 512) (⟨256 * (c.val % 2) + b.val, by omega⟩ : Fin 512)) := by
    funext a b
    rw [xstg_eq, hblk c, block_apply]
  -- its row halo: the row peer's boundary row
  have h2 : (fun b : Fin 256 => rowLanded (F := Ideal) m ρ c (ix2 0 b))
      = fun b => X (ix2 (⟨if c.val / 2 = 0 then 256 else 255, by split <;> omega⟩ : Fin 512) (⟨256 * (c.val % 2) + b.val, by omega⟩ : Fin 512)) := by
    funext b
    show rowStg (F := Ideal) m ρ (rowPeer c) (ix2 0 b) = _
    rw [rowStg_apply, xstg_eq, hblk (rowPeer c), block_apply]
    have hr := rowPeer_row c
    have hq := rowPeer_col c
    apply entry_congr <;> simp only [Fin.val_mk, hr, hq]
    · by_cases h0 : c.val / 2 = 0
      · have h1 : ¬ (1 - c.val / 2 = 0) := by omega
        rw [if_neg h1, if_pos h0]; show 256 * (1 - c.val / 2) + 0 = 256; omega
      · have h1 : 1 - c.val / 2 = 0 := by omega
        rw [if_pos h1, if_neg h0]; show 256 * (1 - c.val / 2) + 255 = 255; omega
  -- its column halo: the column peer's boundary column
  have h3 : (fun a : Fin 256 => colLanded (F := Ideal) m ρ c (ix2 0 a))
      = fun a => X (ix2 (⟨256 * (c.val / 2) + a.val, by omega⟩ : Fin 512) (⟨if c.val % 2 = 0 then 256 else 255, by split <;> omega⟩ : Fin 512)) := by
    funext a
    show colStg (F := Ideal) m ρ (colPeer c) (ix2 0 a) = _
    rw [colStg_apply, xstg_eq, hblk (colPeer c), block_apply]
    have hr := colPeer_row c
    have hq := colPeer_col c
    apply entry_congr <;> simp only [Fin.val_mk, hr, hq]
    · by_cases h0 : c.val % 2 = 0
      · have h1 : ¬ (1 - c.val % 2 = 0) := by omega
        rw [if_neg h1, if_pos h0]; show 256 * (1 - c.val % 2) + 0 = 256; omega
      · have h1 : 1 - c.val % 2 = 0 := by omega
        rw [if_pos h1, if_neg h0]; show 256 * (1 - c.val % 2) + 255 = 255; omega
  rw [h1, h2, h3]
  exact Cert.Spec.localAt_eq_refAt (fun I J => X (ix2 I J)) (whole_finite m X hpre hblk)
    (⟨c.val / 2, by omega⟩ : Fin 2) (⟨c.val % 2, by omega⟩ : Fin 2) i j

/--
info: 'Cert.KernelIdeal.HaloGlobal.outAt_eq_block' depends on axioms: [propext, Classical.choice, Quot.sound]
-/
#guard_msgs in
#print axioms outAt_eq_block

end Cert.KernelIdeal.HaloGlobal

end
-- ==== Proof.lean ====
/-
  The claim, assembled. All four devices of the 2 × 2 mesh run the kernel: each shakes hands with its two peers on the
  barrier semaphore, sends its boundary row and boundary column, computes the five-point update of its block and patches
  the lines next to its peers with what it received; every fair interleaving terminates, the argument arrays end
  unchanged, and device `c`'s result ends as a named function of its own block and of the two lines received. At the
  extended reals, on finite entries, that function is block `c` of what the one-device reference leaves: the update
  strictly inside the whole array (the kernel weights the sum of the four neighbours once, the reference each neighbour
  in turn: equal on reals), the entry itself on the rim.
-/
import proofs.«900193_g7700000000000194_dist_halo2d_stencil_xy_m256_n256_v7x_xy2x2_f32_1_alg».proof.Defs
import proofs.«900193_g7700000000000194_dist_halo2d_stencil_xy_m256_n256_v7x_xy2x2_f32_1_alg».proof.Proof.Gen.Kernel
import proofs.«900193_g7700000000000194_dist_halo2d_stencil_xy_m256_n256_v7x_xy2x2_f32_1_alg».proof.Proof.Gen.KernelIdeal
import proofs.«900193_g7700000000000194_dist_halo2d_stencil_xy_m256_n256_v7x_xy2x2_f32_1_alg».proof.Proof.Gen.ReferenceIdeal
import proofs.«900193_g7700000000000194_dist_halo2d_stencil_xy_m256_n256_v7x_xy2x2_f32_1_alg».proof.Proof.Gen.Pre_finite_inputs_Kernel
import proofs.«900193_g7700000000000194_dist_halo2d_stencil_xy_m256_n256_v7x_xy2x2_f32_1_alg».proof.Proof.Gen.Pre_finite_inputs_ReferenceIdeal
import proofs.«900193_g7700000000000194_dist_halo2d_stencil_xy_m256_n256_v7x_xy2x2_f32_1_alg».proof.Proof.HaloBody
import proofs.«900193_g7700000000000194_dist_halo2d_stencil_xy_m256_n256_v7x_xy2x2_f32_1_alg».proof.Proof.HaloLaunch
import proofs.«900193_g7700000000000194_dist_halo2d_stencil_xy_m256_n256_v7x_xy2x2_f32_1_alg».proof.Proof.KHaloBody
import proofs.«900193_g7700000000000194_dist_halo2d_stencil_xy_m256_n256_v7x_xy2x2_f32_1_alg».proof.Proof.KHaloLaunch
import proofs.«900193_g7700000000000194_dist_halo2d_stencil_xy_m256_n256_v7x_xy2x2_f32_1_alg».proof.Proof.RefValue
import proofs.«900193_g7700000000000194_dist_halo2d_stencil_xy_m256_n256_v7x_xy2x2_f32_1_alg».proof.Proof.HaloGlobal
import Idealize.ShloMosaic.Adequacy
import Idealize.ShloMosaic.Init

noncomputable section

namespace Cert.Proof

open Idealize.ShloMosaic Idealize.SL.Sem

/-- The word-level kernel runs and leaves its argument arrays unchanged: its run with the result's value dropped. -/
theorem frame_k : Cert.frame_Kernel := fun m ρ _ =>
  (θ_run Cert.Kernel.defs _ _).mono (fun _ h c => (h c).2)
    (Cert.Kernel.Halo.run_main (F := Bits) m ρ (Cert.Kernel.Halo.body_obligation m ρ))

/-- The same of the idealized kernel. -/
theorem frame_ki : Cert.frame_KernelIdeal := fun m ρ _ =>
  (θ_run Cert.KernelIdeal.defs _ _).mono (fun _ h c => (h c).2)
    (Cert.KernelIdeal.Halo.run_main (F := Ideal) m ρ (Cert.KernelIdeal.Halo.body_obligation m ρ))

/-- The ideal pass rewrote nothing: the idealization is the program's own text read at the extended reals. -/
theorem preserves : Cert.preserves_Kernel_KernelIdeal := trivial

/-- Both programs run from memories that agree on the argument; the reference's result is the whole-array update `G`,
    and each device's result is its block of it. -/
theorem algebraic : Cert.algebraic_KernelIdeal_ReferenceIdeal := by
  intro m ρ m' ρ' hpre hblk
  refine ⟨Cert.RefVal.G (m' (((0 : Dev Cert.ReferenceIdeal.nD).tc : Thread Cert.ReferenceIdeal.nD Cert.ReferenceIdeal.τ).loc Cert.ReferenceIdeal.main_arg0)), ?_, Cert.RefVal.run_G m' ρ'⟩
  refine (θ_run Cert.KernelIdeal.defs _ _).mono (fun r h c => ⟨(h c).1.trans ?_, (h c).2⟩)
    (Cert.KernelIdeal.Halo.run_main (F := Ideal) m ρ (Cert.KernelIdeal.Halo.body_obligation m ρ))
  exact Cert.KernelIdeal.HaloGlobal.outAt_eq_block m ρ _ hpre hblk c

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_k, frame_ki, Cert.RefVal.frame_ri, preserves, algebraic⟩

end Cert.Proof

end
